-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x64 : Shape := ⟨2, ![80000, 64]⟩
abbrev S64x64 : Shape := ⟨2, ![64, 64]⟩
abbrev S64 : Shape := ⟨1, ![64]⟩
abbrev S40x64 : Shape := ⟨2, ![40, 64]⟩
abbrev S40 : Shape := ⟨1, ![40]⟩
abbrev S2x1280000 : Shape := ⟨2, ![2, 1280000]⟩
abbrev S80000 : Shape := ⟨1, ![80000]⟩
abbrev S_ : Shape := ⟨0, ![]⟩

class Facts : Prop where
  bcast_S_S80000x64 : S_.BroadcastsInDim S80000x64 (![] : Fin 0 → Fin S80000x64.rank)
  reducesTo_S80000x64_S_d0_1 : S80000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_
  bcast_S_S80000 : S_.BroadcastsInDim S80000 (![] : Fin 0 → Fin S80000.rank)
  reducesTo_S80000_S_d0 : S80000.ReducesTo [0] S_

variable [Facts]

def fn_part4 {F : FTy → Type} [FloatOps F] (main_v63 : IVec S_ 1) (main_v65 : IVec S80000 1) (main_v67 : IVec S80000 1) : IVec S_ 1 :=
  let main_v68 : IVec S80000 1 := andi main_v65 main_v67
  let main_c_26 : IVec S_ 1 := constantI S_ 1 1#1
  let main_v69 : IVec S_ 1 := (fun x v => Host.reduce IntOp.andi x v reducesTo_S80000_S_d0 h_S_) main_v68 main_c_26
  let main_v70 : IVec S_ 1 := andi main_v63 main_v69
  main_v70

def fn_part3 {F : FTy → Type} [FloatOps F] (main_arg11 : FVec F S40x64 .f32) (main_arg12 : FVec F S40 .f32) (main_arg14 : IVec S80000 32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S40x64 .f32 := Host.absf main_arg11
  let main_cst_20 : FVec F S_ .f32 := constant S_ .f32 0x7F800000#32
  let main_v55 : FVec F S40x64 .f32 := broadcastInDim S40x64 ![] bcast_S_S40x64 main_cst_20
  let main_v56 : IVec S40x64 1 := cmpf .olt main_v54 main_v55
  let main_c_21 : IVec S_ 1 := constantI S_ 1 1#1
  let main_v57 : IVec S_ 1 := (fun x v => Host.reduce IntOp.andi x v reducesTo_S40x64_S_d0_1 h_S_) main_v56 main_c_21
  let main_v58 : IVec S_ 1 := andi main_v53 main_v57
  let main_v59 : FVec F S40 .f32 := Host.absf main_arg12
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_c_24 : IVec S_ 32 := constantI S_ 32 0#32
  let main_v64 : IVec S80000 32 := broadcastInDim S80000 ![] bcast_S_S80000 main_c_24
  let main_v65 : IVec S80000 1 := cmpi .sge main_arg14 main_v64
  let main_c_25 : IVec S_ 32 := constantI S_ 32 40#32
  let main_v66 : IVec S80000 32 := broadcastInDim S80000 ![] bcast_S_S80000 main_c_25
  let main_v67 : IVec S80000 1 := cmpi .slt main_arg14 main_v66
  fn_part4 (F := F) main_v63 main_v65 main_v67

def fn_part2 {F : FTy → Type} [FloatOps F] (main_arg7 : FVec F S64x64 .f32) (main_arg8 : FVec F S64 .f32) (main_arg9 : FVec F S40x64 .f32) (main_arg10 : FVec F S40 .f32) (main_arg11 : FVec F S40x64 .f32) (main_arg12 : FVec F S40 .f32) (main_arg14 : IVec S80000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S40x64 .f32 := Host.absf main_arg9
  let main_cst_16 : FVec F S_ .f32 := constant S_ .f32 0x7F800000#32
  let main_v45 : FVec F S40x64 .f32 := broadcastInDim S40x64 ![] bcast_S_S40x64 main_cst_16
  let main_v46 : IVec S40x64 1 := cmpf .olt main_v44 main_v45
  let main_c_17 : IVec S_ 1 := constantI S_ 1 1#1
  let main_v47 : IVec S_ 1 := (fun x v => Host.reduce IntOp.andi x v reducesTo_S40x64_S_d0_1 h_S_) main_v46 main_c_17
  let main_v48 : IVec S_ 1 := andi main_v43 main_v47
  let main_v49 : FVec F S40 .f32 := Host.absf main_arg10
  let main_cst_18 : FVec F S_ .f32 := constant S_ .f32 0x7F800000#32
  let main_v50 : FVec F S40 .f32 := broadcastInDim S40 ![] bcast_S_S40 main_cst_18
  fn_part3 (F := F) main_arg11 main_arg12 main_arg14 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S40x64 .f32) (main_arg10 : FVec F S40 .f32) (main_arg11 : FVec F S40x64 .f32) (main_arg12 : FVec F S40 .f32) (main_arg14 : IVec S80000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg14 main_v33

def fn {F : FTy → Type} [FloatOps F] (main_arg0 : FVec F S80000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S40x64 .f32) (main_arg10 : FVec F S40 .f32) (main_arg11 : FVec F S40x64 .f32) (main_arg12 : FVec F S40 .f32) (main_arg13 : IVec S2x1280000 32) (main_arg14 : IVec S80000 32) (main_arg15 : IVec S80000 1) : IVec S_ 1 :=
  let main_v0 : FVec F S80000x64 .f32 := Host.absf main_arg0
  let main_cst : FVec F S_ .f32 := constant S_ .f32 0x7F800000#32
  let main_v1 : FVec F S80000x64 .f32 := broadcastInDim S80000x64 ![] bcast_S_S80000x64 main_cst
  let main_v2 : IVec S80000x64 1 := cmpf .olt main_v0 main_v1
  let main_c : IVec S_ 1 := constantI S_ 1 1#1
  let main_v3 : IVec S_ 1 := (fun x v => Host.reduce IntOp.andi x v reducesTo_S80000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg14 main_v13 main_v16
-- ==== Kernel.lean ====
abbrev S80000x64 : Shape := ⟨2, ![80000, 64]⟩
abbrev S64x64 : Shape := ⟨2, ![64, 64]⟩
abbrev S64 : Shape := ⟨1, ![64]⟩
abbrev S40x64 : Shape := ⟨2, ![40, 64]⟩
abbrev S40 : Shape := ⟨1, ![40]⟩
abbrev S2x1280000 : Shape := ⟨2, ![2, 1280000]⟩
abbrev S80000 : Shape := ⟨1, ![80000]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S80000x1 : Shape := ⟨2, ![80000, 1]⟩
abbrev S64x40 : Shape := ⟨2, ![64, 40]⟩
abbrev S1x64 : Shape := ⟨2, ![1, 64]⟩
abbrev S1x40 : Shape := ⟨2, ![1, 40]⟩
abbrev S1280000x64 : Shape := ⟨2, ![1280000, 64]⟩
abbrev S8000x64 : Shape := ⟨2, ![8000, 64]⟩
abbrev S8000x1 : Shape := ⟨2, ![8000, 1]⟩
abbrev S1x1 : Shape := ⟨2, ![1, 1]⟩
abbrev S2000x64 : Shape := ⟨2, ![2000, 64]⟩
abbrev S2000x1 : Shape := ⟨2, ![2000, 1]⟩
abbrev S2000x40 : Shape := ⟨2, ![2000, 40]⟩
abbrev S2000 : Shape := ⟨1, ![2000]⟩
abbrev S1x2000x1 : Shape := ⟨3, ![1, 2000, 1]⟩
abbrev S1 : Shape := ⟨1, ![1]⟩
abbrev S1x1x1 : Shape := ⟨3, ![1, 1, 1]⟩

abbrev nBuf : Space → Nat
  | .hbm => 104
  | .vmem => 41
  | .smem => 0
  | _ => 0

abbrev bufTy : (tb : Table) → Fin (tcTables nBuf tb) → BufTy
  | .hbm, ⟨0, _⟩ => ⟨S80000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S40x64, .f32⟩
  | .hbm, ⟨10, _⟩ => ⟨S40, .f32⟩
  | .hbm, ⟨11, _⟩ => ⟨S40x64, .f32⟩
  | .hbm, ⟨12, _⟩ => ⟨S40, .f32⟩
  | .hbm, ⟨13, _⟩ => ⟨S2x1280000, .i32⟩
  | .hbm, ⟨14, _⟩ => ⟨S80000, .i32⟩
  | .hbm, ⟨15, _⟩ => ⟨S80000, .i1⟩
  | .hbm, ⟨16, _⟩ => ⟨S1x1280000, .i32⟩
  | .hbm, ⟨17, _⟩ => ⟨S1280000, .i32⟩
  | .hbm, ⟨18, _⟩ => ⟨S1x1280000, .i32⟩
  | .hbm, ⟨19, _⟩ => ⟨S1280000, .i32⟩
  | .hbm, ⟨20, _⟩ => ⟨S_, .f32⟩
  | .hbm, ⟨21, _⟩ => ⟨S1280000, .f32⟩
  | .hbm, ⟨22, _⟩ => ⟨S_, .f32⟩
  | .hbm, ⟨23, _⟩ => ⟨S80000, .f32⟩
  | .hbm, ⟨24, _⟩ => ⟨S1280000x1, .i32⟩
  | .hbm, ⟨25, _⟩ => ⟨S80000, .f32⟩
  | .hbm, ⟨26, _⟩ => ⟨S_, .f32⟩
  | .hbm, ⟨27, _⟩ => ⟨S80000, .f32⟩
  | .hbm, ⟨28, _⟩ => ⟨S80000, .i1⟩
  | .hbm, ⟨29, _⟩ => ⟨S_, .f32⟩
  | .hbm, ⟨30, _⟩ => ⟨S80000, .f32⟩
  | .hbm, ⟨31, _⟩ => ⟨S80000, .f32⟩
  | .hbm, ⟨32, _⟩ => ⟨S_, .f32⟩
  | .hbm, ⟨33, _⟩ => ⟨S80000, .f32⟩
  | .hbm, ⟨34, _⟩ => ⟨S80000, .f32⟩
  | .hbm, ⟨35, _⟩ => ⟨S_, .f32⟩
  | .hbm, ⟨36, _⟩ => ⟨S_, .f32⟩
  | .hbm, ⟨37, _⟩ => ⟨S80000, .f32⟩
  | .hbm, ⟨38, _⟩ => ⟨S80000, .f32⟩
  | .hbm, ⟨39, _⟩ => ⟨S80000x1, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x40, .f32⟩
  | .hbm, ⟨45, _⟩ => ⟨S64x40, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x40, .f32⟩
  | .hbm, ⟨51, _⟩ => ⟨S1x40, .f32⟩
  | .hbm, ⟨52, _⟩ => ⟨S80000x64, .bf16⟩
  | .hbm, ⟨53, _⟩ => ⟨S_, .i32⟩
  | .hbm, ⟨54, _⟩ => ⟨S1280000, .i32⟩
  | .hbm, ⟨55, _⟩ => ⟨S1280000, .i1⟩
  | .hbm, ⟨56, _⟩ => ⟨S_, .i32⟩
  | .hbm, ⟨57, _⟩ => ⟨S1280000, .i32⟩
  | .hbm, ⟨58, _⟩ => ⟨S1280000, .i32⟩
  | .hbm, ⟨59, _⟩ => ⟨S1280000, .i32⟩
  | .hbm, ⟨60, _⟩ => ⟨S1280000x1, .i32⟩
  | .hbm, ⟨61, _⟩ => ⟨S1280000x64, .bf16⟩
  | .hbm, ⟨62, _⟩ => ⟨S1280000x64, .f32⟩
  | .hbm, ⟨63, _⟩ => ⟨S_, .f32⟩
  | .hbm, ⟨64, _⟩ => ⟨S80000x64, .f32⟩
  | .hbm, ⟨65, _⟩ => ⟨S1280000x1, .i32⟩
  | .hbm, ⟨66, _⟩ => ⟨S80000x64, .f32⟩
  | .hbm, ⟨67, _⟩ => ⟨S80000x64, .f32⟩
  | .hbm, ⟨68, _⟩ => ⟨S80000x64, .bf16⟩
  | .hbm, ⟨69, _⟩ => ⟨S_, .i32⟩
  | .hbm, ⟨70, _⟩ => ⟨S1280000, .i32⟩
  | .hbm, ⟨71, _⟩ => ⟨S1280000, .i1⟩
  | .hbm, ⟨72, _⟩ => ⟨S_, .i32⟩
  | .hbm, ⟨73, _⟩ => ⟨S1280000, .i32⟩
  | .hbm, ⟨74, _⟩ => ⟨S1280000, .i32⟩
  | .hbm, ⟨75, _⟩ => ⟨S1280000, .i32⟩
  | .hbm, ⟨76, _⟩ => ⟨S1280000x1, .i32⟩
  | .hbm, ⟨77, _⟩ => ⟨S1280000x64, .bf16⟩
  | .hbm, ⟨78, _⟩ => ⟨S1280000x64, .f32⟩
  | .hbm, ⟨79, _⟩ => ⟨S_, .f32⟩
  | .hbm, ⟨80, _⟩ => ⟨S80000x64, .f32⟩
  | .hbm, ⟨81, _⟩ => ⟨S1280000x1, .i32⟩
  | .hbm, ⟨82, _⟩ => ⟨S80000x64, .f32⟩
  | .hbm, ⟨83, _⟩ => ⟨S80000x64, .f32⟩
  | .hbm, ⟨84, _⟩ => ⟨S80000x64, .bf16⟩
  | .hbm, ⟨85, _⟩ => ⟨S_, .i32⟩
  | .hbm, ⟨86, _⟩ => ⟨S1280000, .i32⟩
  | .hbm, ⟨87, _⟩ => ⟨S1280000, .i1⟩
  | .hbm, ⟨88, _⟩ => ⟨S_, .i32⟩
  | .hbm, ⟨89, _⟩ => ⟨S1280000, .i32⟩
  | .hbm, ⟨90, _⟩ => ⟨S1280000, .i32⟩
  | .hbm, ⟨91, _⟩ => ⟨S1280000, .i32⟩
  | .hbm, ⟨92, _⟩ => ⟨S1280000x1, .i32⟩
  | .hbm, ⟨93, _⟩ => ⟨S1280000x64, .bf16⟩
  | .hbm, ⟨94, _⟩ => ⟨S1280000x64, .f32⟩
  | .hbm, ⟨95, _⟩ => ⟨S_, .f32⟩
  | .hbm, ⟨96, _⟩ => ⟨S80000x64, .f32⟩
  | .hbm, ⟨97, _⟩ => ⟨S1280000x1, .i32⟩
  | .hbm, ⟨98, _⟩ => ⟨S80000x64, .f32⟩
  | .hbm, ⟨99, _⟩ => ⟨S80000x1, .i32⟩
  | .hbm, ⟨100, _⟩ => ⟨S80000, .f32⟩
  | .hbm, ⟨101, _⟩ => ⟨S80000x1, .f32⟩
  | .hbm, ⟨102, _⟩ => ⟨S1x1, .f32⟩
  | .hbm, ⟨103, _⟩ => ⟨S_, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x1, .f32⟩
  | .local _ .vmem, ⟨5, _⟩ => ⟨S8000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x1, .f32⟩
  | .local _ .vmem, ⟨17, _⟩ => ⟨S8000x1, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S8000x64, .f32⟩
  | .local _ .vmem, ⟨23, _⟩ => ⟨S8000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | .local _ .vmem, ⟨30, _⟩ => ⟨S64x40, .f32⟩
  | .local _ .vmem, ⟨31, _⟩ => ⟨S1x40, .f32⟩
  | .local _ .vmem, ⟨32, _⟩ => ⟨S64x40, .f32⟩
  | .local _ .vmem, ⟨33, _⟩ => ⟨S1x40, .f32⟩
  | .local _ .vmem, ⟨34, _⟩ => ⟨S2000x1, .i32⟩
  | .local _ .vmem, ⟨35, _⟩ => ⟨S2000x1, .i32⟩
  | .local _ .vmem, ⟨36, _⟩ => ⟨S2000x1, .f32⟩
  | .local _ .vmem, ⟨37, _⟩ => ⟨S2000x1, .f32⟩
  | .local _ .vmem, ⟨38, _⟩ => ⟨S1x1, .f32⟩
  | .local _ .vmem, ⟨39, _⟩ => ⟨S1x1, .f32⟩
  | .local _ .vmem, ⟨40, _⟩ => ⟨S1x1, .f32⟩
  | _, _ => ⟨S80000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_7 : Ref sig .tc := ⟨.hbm, 69, rfl⟩
abbrev main_v42 : Ref sig .tc := ⟨.hbm, 70, rfl⟩
abbrev main_v43 : Ref sig .tc := ⟨.hbm, 71, rfl⟩
abbrev main_c_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_scratch0 : Ref sig .tc := ⟨.vmem, 39, rfl⟩
abbrev cc2_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![40], ![false]⟩

def k2_cond2 (i : grid2.Coords) : BitVec 1 :=
  let arg0 : BitVec 32 := BitVec.ofNat 32 (i 0).val
  let c39_i32 : BitVec 32 := 39#32
  let v73 : BitVec 1 := Scalar.cmpi .eq arg0 c39_i32
  let v74 : BitVec 32 := Scalar.extui v73
  let c0_i32_32 : BitVec 32 := 0#32
  let v75 : BitVec 1 := Scalar.cmpi .ne v74 c0_i32_32
  v75

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x1 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S80000 : S_.BroadcastsInDim S80000 (![] : Fin 0 → Fin S80000.rank)
  bcast_S1280000_S1280000x1_0 : S1280000.BroadcastsInDim S1280000x1 (![0] : Fin 1 → Fin S1280000x1.rank)
  shapeCasts_S80000_S80000x1 : S80000.ShapeCasts S80000x1
  transposes_S64x64_S64x64_1_0 : S64x64.Transposes [1, 0] S64x64
  transposes_S40x64_S64x40_1_0 : S40x64.Transposes [1, 0] S64x40
  shapeCasts_S64_S1x64 : S64.ShapeCasts S1x64
  shapeCasts_S40_S1x40 : S40.ShapeCasts S1x40
  bitsLt_bf16_f32 : FTy.bits .bf16 < FTy.bits .f32
  bcast_S_S80000x64 : S_.BroadcastsInDim S80000x64 (![] : Fin 0 → Fin S80000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  iota_S2000x40_d1_w32 : S2000x40.Iotas .tc 32 [1]
  natLt_1_32 : 1 < 32
  shapeCasts_S2000x1_S1x2000x1 : S2000x1.ShapeCasts S1x2000x1
  reduces_S1x2000x1_S1 : S1x2000x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  scatter_S80000_S1280000x1_S1280000_n_0_0_1_wf : ScatterDims.WF S80000 S1280000x1 S1280000 [] [0] [0] 1
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S8000x64_S64x64_S8000x64_1_0_0_1_n_n_wf : DotDims.WF S8000x64 S64x64 S8000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S80000x64.size a
  hwx0_0 : ∀ i : grid0.Coords, EltTy.bits .f32 = 32 ∨ (Rect.block (s := S80000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S80000x64.size a
  hwx0_1 : ∀ i : grid0.Coords, EltTy.bits .f32 = 32 ∨ (Rect.block (s := S80000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S80000x1.size a
  hwx0_2 : ∀ i : grid0.Coords, EltTy.bits .f32 = 32 ∨ (Rect.block (s := S80000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S80000x64.size a
  hwx0_7 : ∀ i : grid0.Coords, EltTy.bits .f32 = 32 ∨ (Rect.block (s := S80000x64) S8000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S80000x64.size a
  hwx1_0 : ∀ i : grid1.Coords, EltTy.bits .f32 = 32 ∨ (Rect.block (s := S80000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S80000x64.size a
  hwx1_1 : ∀ i : grid1.Coords, EltTy.bits .f32 = 32 ∨ (Rect.block (s := S80000x64) S8000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S80000x1.size a
  hwx1_2 : ∀ i : grid1.Coords, EltTy.bits .f32 = 32 ∨ (Rect.block (s := S80000x1) S8000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8000x64.size a ≤ S80000x64.size a
  hwx1_7 : ∀ i : grid1.Coords, EltTy.bits .f32 = 32 ∨ (Rect.block (s := S80000x64) S8000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S80000x64.size a
  hwx2_0 : ∀ i : grid2.Coords, EltTy.bits .f32 = 32 ∨ (Rect.block (s := S80000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S80000x64.size a
  hwx2_1 : ∀ i : grid2.Coords, EltTy.bits .f32 = 32 ∨ (Rect.block (s := S80000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S80000x1.size a
  hwx2_2 : ∀ i : grid2.Coords, EltTy.bits .f32 = 32 ∨ (Rect.block (s := S80000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x40.size a ≤ S64x40.size a
  hwx2_3 : ∀ i : grid2.Coords, EltTy.bits .f32 = 32 ∨ (Rect.block (s := S64x40) S64x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x40.size a ≤ S64x40.size a
  hwx2_5 : ∀ i : grid2.Coords, EltTy.bits .f32 = 32 ∨ (Rect.block (s := S64x40) S64x40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S80000x1.size a
  hwx2_7 : ∀ i : grid2.Coords, EltTy.bits .i32 = 32 ∨ (Rect.block (s := S80000x1) S2000x1.size (cc2_transform_7 i) (hinb2_7 i)).WholeWords (EltTy.packing .i32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x1.size a ≤ S80000x1.size a
  hwx2_8 : ∀ i : grid2.Coords, EltTy.bits .f32 = 32 ∨ (Rect.block (s := S80000x1) S2000x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)

variable [Facts₀]

def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_v39) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v52) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53) S8000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v65) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S64x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S64x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S1x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S2000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v68) S2000x1.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v69) S1x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S80000x64 : Shape := ⟨2, ![80000, 64]⟩
abbrev S64x64 : Shape := ⟨2, ![64, 64]⟩
abbrev S64 : Shape := ⟨1, ![64]⟩
abbrev S40x64 : Shape := ⟨2, ![40, 64]⟩
abbrev S40 : Shape := ⟨1, ![40]⟩
abbrev S2x1280000 : Shape := ⟨2, ![2, 1280000]⟩
abbrev S80000 : Shape := ⟨1, ![80000]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S80000x1 : Shape := ⟨2, ![80000, 1]⟩
abbrev S1x64 : Shape := ⟨2, ![1, 64]⟩
abbrev S64x40 : Shape := ⟨2, ![64, 40]⟩
abbrev S80000x40 : Shape := ⟨2, ![80000, 40]⟩
abbrev S1x40 : Shape := ⟨2, ![1, 40]⟩
abbrev S80000x1x1 : Shape := ⟨3, ![80000, 1, 1]⟩
abbrev S1 : Shape := ⟨1, ![1]⟩
abbrev S1x1x1 : Shape := ⟨3, ![1, 1, 1]⟩

abbrev nBuf : Space → Nat
  | .hbm => 175
  | .vmem => 0
  | .smem => 0
  | _ => 0

abbrev hbmTy0_0 (i : Nat) : BufTy := match i % 128 with
  | 0 => ⟨S80000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S40x64, .f32⟩
  | 10 => ⟨S40, .f32⟩
  | 11 => ⟨S40x64, .f32⟩
  | 12 => ⟨S40, .f32⟩
  | 13 => ⟨S2x1280000, .i32⟩
  | 14 => ⟨S80000, .i32⟩
  | 15 => ⟨S80000, .i1⟩
  | 16 => ⟨S1x1280000, .i32⟩
  | 17 => ⟨S1280000, .i32⟩
  | 18 => ⟨S1x1280000, .i32⟩
  | 19 => ⟨S1280000, .i32⟩
  | 20 => ⟨S_, .f32⟩
  | 21 => ⟨S1280000, .f32⟩
  | 22 => ⟨S_, .f32⟩
  | 23 => ⟨S80000, .f32⟩
  | 24 => ⟨S1280000x1, .i32⟩
  | 25 => ⟨S80000, .f32⟩
  | 26 => ⟨S_, .f32⟩
  | 27 => ⟨S80000, .f32⟩
  | 28 => ⟨S80000, .i1⟩
  | 29 => ⟨S_, .f32⟩
  | 30 => ⟨S80000, .f32⟩
  | 31 => ⟨S80000, .f32⟩
  | 32 => ⟨S_, .f32⟩
  | 33 => ⟨S80000, .f32⟩
  | 34 => ⟨S80000, .f32⟩
  | 35 => ⟨S_, .f32⟩
  | 36 => ⟨S_, .f32⟩
  | 37 => ⟨S80000, .f32⟩
  | 38 => ⟨S80000, .f32⟩
  | 39 => ⟨S_, .i32⟩
  | 40 => ⟨S1280000, .i32⟩
  | 41 => ⟨S1280000, .i1⟩
  | 42 => ⟨S_, .i32⟩
  | 43 => ⟨S1280000, .i32⟩
  | 44 => ⟨S1280000, .i32⟩
  | 45 => ⟨S1280000, .i32⟩
  | 46 => ⟨S1280000x1, .i32⟩
  | 47 => ⟨S1280000x64, .f32⟩
  | 48 => ⟨S_, .f32⟩
  | 49 => ⟨S80000x64, .f32⟩
  | 50 => ⟨S1280000x1, .i32⟩
  | 51 => ⟨S80000x64, .f32⟩
  | 52 => ⟨S80000x1, .f32⟩
  | 53 => ⟨S80000x64, .f32⟩
  | 54 => ⟨S80000x64, .f32⟩
  | 55 => ⟨S64x64, .f32⟩
  | 56 => ⟨S80000x64, .f32⟩
  | 57 => ⟨S1x64, .f32⟩
  | 58 => ⟨S80000x64, .f32⟩
  | 59 => ⟨S80000x64, .f32⟩
  | 60 => ⟨S64x64, .f32⟩
  | 61 => ⟨S80000x64, .f32⟩
  | 62 => ⟨S80000x64, .f32⟩
  | 63 => ⟨S1x64, .f32⟩
  | 64 => ⟨S80000x64, .f32⟩
  | 65 => ⟨S80000x64, .f32⟩
  | 66 => ⟨S_, .f32⟩
  | 67 => ⟨S80000x64, .f32⟩
  | 68 => ⟨S80000x64, .f32⟩
  | 69 => ⟨S_, .i32⟩
  | 70 => ⟨S1280000, .i32⟩
  | 71 => ⟨S1280000, .i1⟩
  | 72 => ⟨S_, .i32⟩
  | 73 => ⟨S1280000, .i32⟩
  | 74 => ⟨S1280000, .i32⟩
  | 75 => ⟨S1280000, .i32⟩
  | 76 => ⟨S1280000x1, .i32⟩
  | 77 => ⟨S1280000x64, .f32⟩
  | 78 => ⟨S_, .f32⟩
  | 79 => ⟨S80000x64, .f32⟩
  | 80 => ⟨S1280000x1, .i32⟩
  | 81 => ⟨S80000x64, .f32⟩
  | 82 => ⟨S80000x1, .f32⟩
  | 83 => ⟨S80000x64, .f32⟩
  | 84 => ⟨S80000x64, .f32⟩
  | 85 => ⟨S64x64, .f32⟩
  | 86 => ⟨S80000x64, .f32⟩
  | 87 => ⟨S1x64, .f32⟩
  | 88 => ⟨S80000x64, .f32⟩
  | 89 => ⟨S80000x64, .f32⟩
  | 90 => ⟨S64x64, .f32⟩
  | 91 => ⟨S80000x64, .f32⟩
  | 92 => ⟨S80000x64, .f32⟩
  | 93 => ⟨S1x64, .f32⟩
  | 94 => ⟨S80000x64, .f32⟩
  | 95 => ⟨S80000x64, .f32⟩
  | 96 => ⟨S_, .f32⟩
  | 97 => ⟨S80000x64, .f32⟩
  | 98 => ⟨S80000x64, .f32⟩
  | 99 => ⟨S_, .i32⟩
  | 100 => ⟨S1280000, .i32⟩
  | 101 => ⟨S1280000, .i1⟩
  | 102 => ⟨S_, .i32⟩
  | 103 => ⟨S1280000, .i32⟩
  | 104 => ⟨S1280000, .i32⟩
  | 105 => ⟨S1280000, .i32⟩
  | 106 => ⟨S1280000x1, .i32⟩
  | 107 => ⟨S1280000x64, .f32⟩
  | 108 => ⟨S_, .f32⟩
  | 109 => ⟨S80000x64, .f32⟩
  | 110 => ⟨S1280000x1, .i32⟩
  | 111 => ⟨S80000x64, .f32⟩
  | 112 => ⟨S80000x1, .f32⟩
  | 113 => ⟨S80000x64, .f32⟩
  | 114 => ⟨S80000x64, .f32⟩
  | 115 => ⟨S64x40, .f32⟩
  | 116 => ⟨S80000x40, .f32⟩
  | 117 => ⟨S1x40, .f32⟩
  | 118 => ⟨S80000x40, .f32⟩
  | 119 => ⟨S80000x40, .f32⟩
  | 120 => ⟨S64x40, .f32⟩
  | 121 => ⟨S80000x40, .f32⟩
  | 122 => ⟨S80000x40, .f32⟩
  | 123 => ⟨S1x40, .f32⟩
  | 124 => ⟨S80000x40, .f32⟩
  | 125 => ⟨S80000x40, .f32⟩
  | 126 => ⟨S_, .f32⟩
  | 127 => ⟨S80000, .f32⟩
  | _ => ⟨S80000x64, .f32⟩

abbrev hbmTy0_1 (i : Nat) : BufTy := match i % 128 with
  | 0 => ⟨S_, .f32⟩
  | 1 => ⟨S80000, .f32⟩
  | 2 => ⟨S80000, .f32⟩
  | 3 => ⟨S80000x1, .f32⟩
  | 4 => ⟨S80000x40, .f32⟩
  | 5 => ⟨S80000x40, .f32⟩
  | 6 => ⟨S80000x40, .f32⟩
  | 7 => ⟨S_, .f32⟩
  | 8 => ⟨S80000, .f32⟩
  | 9 => ⟨S80000x1, .f32⟩
  | 10 => ⟨S80000x1, .f32⟩
  | 11 => ⟨S80000x40, .f32⟩
  | 12 => ⟨S80000x40, .f32⟩
  | 13 => ⟨S80000x1, .i32⟩
  | 14 => ⟨S_, .i32⟩
  | 15 => ⟨S80000x1, .i32⟩
  | 16 => ⟨S80000x1, .i1⟩
  | 17 => ⟨S_, .i32⟩
  | 18 => ⟨S80000x1, .i32⟩
  | 19 => ⟨S80000x1, .i32⟩
  | 20 => ⟨S80000x1, .i32⟩
  | 21 => ⟨S80000x1x1, .i32⟩
  | 22 => ⟨S1, .i32⟩
  | 23 => ⟨S_, .i32⟩
  | 24 => ⟨S80000x1x1, .i32⟩
  | 25 => ⟨S80000x1x1, .i1⟩
  | 26 => ⟨S1x1x1, .i32⟩
  | 27 => ⟨S80000x1x1, .i32⟩
  | 28 => ⟨S80000x1x1, .i1⟩
  | 29 => ⟨S80000x1x1, .i1⟩
  | 30 => ⟨S_, .i1⟩
  | 31 => ⟨S80000x1, .i1⟩
  | 32 => ⟨S80000x1, .f32⟩
  | 33 => ⟨S_, .f32⟩
  | 34 => ⟨S80000x1, .f32⟩
  | 35 => ⟨S80000x1, .f32⟩
  | 36 => ⟨S80000, .f32⟩
  | 37 => ⟨S80000, .f32⟩
  | 38 => ⟨S80000, .f32⟩
  | 39 => ⟨S80000, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | _ => ⟨S80000x64, .f32⟩

abbrev hbmTy (i : Nat) : BufTy := match i / 128 with
  | 0 => hbmTy0_0 i
  | 1 => hbmTy0_1 i
  | _ => ⟨S80000x64, .f32⟩

abbrev bufTy : (tb : Table) → Fin (tcTables nBuf tb) → BufTy
  | .hbm, ⟨i, _⟩ => hbmTy i
  | _, _ => ⟨S80000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call1_cst : Ref sig .tc := ⟨.hbm, 66, rfl⟩
abbrev main_call1_v0 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call2_cst : Ref sig .tc := ⟨.hbm, 96, rfl⟩
abbrev main_call2_v0 : Ref sig .tc := ⟨.hbm, 97, rfl⟩
abbrev main_v64 : Ref sig .tc := ⟨.hbm, 98, rfl⟩
abbrev main_c_10 : Ref sig .tc := ⟨.hbm, 99, rfl⟩
abbrev main_v65 : Ref sig .tc := ⟨.hbm, 100, rfl⟩
abbrev main_v66 : Ref sig .tc := ⟨.hbm, 101, rfl⟩
abbrev main_c_11 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_12 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call3_cst : Ref sig .tc := ⟨.hbm, 126, rfl⟩
abbrev main_call3_v0 : Ref sig .tc := ⟨.hbm, 127, rfl⟩
abbrev main_call3_cst_0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_cst_1 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_v89 : Ref sig .tc := ⟨.hbm, 140, rfl⟩
abbrev main_v90 : Ref sig .tc := ⟨.hbm, 141, rfl⟩
abbrev main_call4_c : Ref sig .tc := ⟨.hbm, 142, rfl⟩
abbrev main_call4_v0 : Ref sig .tc := ⟨.hbm, 143, rfl⟩
abbrev main_call4_v1 : Ref sig .tc := ⟨.hbm, 144, rfl⟩
abbrev main_call4_c_0 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_c_1 : Ref sig .tc := ⟨.hbm, 150, rfl⟩
abbrev main_call4_c_2 : Ref sig .tc := ⟨.hbm, 151, rfl⟩
abbrev main_call4_v6 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_3 : Ref sig .tc := ⟨.hbm, 158, rfl⟩
abbrev main_call4_v12 : Ref sig .tc := ⟨.hbm, 159, rfl⟩
abbrev main_call4_v13 : Ref sig .tc := ⟨.hbm, 160, rfl⟩
abbrev main_call4_cst : Ref sig .tc := ⟨.hbm, 161, rfl⟩
abbrev main_call4_v14 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_cst_13 : Ref sig .tc := ⟨.hbm, 168, rfl⟩
abbrev main_v96 : Ref sig .tc := ⟨.hbm, 169, rfl⟩
abbrev main_cst_14 : Ref sig .tc := ⟨.hbm, 170, rfl⟩
abbrev main_v97 : Ref sig .tc := ⟨.hbm, 171, rfl⟩
abbrev main_cst_15 : Ref sig .tc := ⟨.hbm, 172, rfl⟩
abbrev main_v98 : Ref sig .tc := ⟨.hbm, 173, rfl⟩
abbrev main_v99 : Ref sig .tc := ⟨.hbm, 174, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S80000 : S_.BroadcastsInDim S80000 (![] : Fin 0 → Fin S80000.rank)
  bcast_S1280000_S1280000x1_0 : S1280000.BroadcastsInDim S1280000x1 (![0] : Fin 1 → Fin S1280000x1.rank)
  bcast_S_S80000x64 : S_.BroadcastsInDim S80000x64 (![] : Fin 0 → Fin S80000x64.rank)
  bcast_S80000_S80000x1_0 : S80000.BroadcastsInDim S80000x1 (![0] : Fin 1 → Fin S80000x1.rank)
  bcast_S80000x1_S80000x64_0_1 : S80000x1.BroadcastsInDim S80000x64 (![0, 1] : Fin 2 → Fin S80000x64.rank)
  transposes_S64x64_S64x64_1_0 : S64x64.Transposes [1, 0] S64x64
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  transposes_S40x64_S64x40_1_0 : S40x64.Transposes [1, 0] S64x40
  bcast_S40_S1x40_1 : S40.BroadcastsInDim S1x40 (![1] : Fin 1 → Fin S1x40.rank)
  bcast_S1x40_S80000x40_0_1 : S1x40.BroadcastsInDim S80000x40 (![0, 1] : Fin 2 → Fin S80000x40.rank)
  reducesTo_S80000x40_S80000_d1 : S80000x40.ReducesTo [1] S80000
  h_S_ : 0 < S_.numel
  bcast_S80000x1_S80000x40_0_1 : S80000x1.BroadcastsInDim S80000x40 (![0, 1] : Fin 2 → Fin S80000x40.rank)
  bcast_S_S80000x1 : S_.BroadcastsInDim S80000x1 (![] : Fin 0 → Fin S80000x1.rank)
  shapeCasts_S80000x1_S80000x1x1 : S80000x1.ShapeCasts S80000x1x1
  bcast_S_S80000x1x1 : S_.BroadcastsInDim S80000x1x1 (![] : Fin 0 → Fin S80000x1x1.rank)
  bcast_S1_S1x1x1_2 : S1.BroadcastsInDim S1x1x1 (![2] : Fin 1 → Fin S1x1x1.rank)
  bcast_S1x1x1_S80000x1x1_0_1_2 : S1x1x1.BroadcastsInDim S80000x1x1 (![0, 1, 2] : Fin 3 → Fin S80000x1x1.rank)
  reducesTo_S80000x1x1_S80000x1_d2 : S80000x1x1.ReducesTo [2] S80000x1
  shapeCasts_S80000x1_S80000 : S80000x1.ShapeCasts S80000
  reducesTo_S80000_S_d0 : S80000.ReducesTo [0] S_
  scatter_S80000_S1280000x1_S1280000_n_0_0_1_wf : ScatterDims.WF S80000 S1280000x1 S1280000 [] [0] [0] 1
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x64_S80000x64_1_0_0_1_n_n_wf : DotDims.WF S80000x64 S64x64 S80000x64 [1] [0] [0] [1] [] []
  dot_S80000x64_S64x40_S80000x40_1_0_0_1_n_n_wf : DotDims.WF S80000x64 S64x40 S80000x40 [1] [0] [0] [1] [] []
  gather_S80000x40_S80000x1x1_S80000x1_n_1_0_0_1_2_11_wf : GatherDims.WF S80000x40 S80000x1x1 S80000x1 [] [1] [0] [1] [0] 2 ![1, 1]

variable [Facts₀]

def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def dot_S80000x64_S64x40_S80000x40_1_0_0_1_n_n : DotDims S80000x64 S64x40 S80000x40 where
  lhsContracting := [1]
  rhsContracting := [0]
  lhsNonContracting := [0]
  rhsNonContracting := [1]
  lhsBatch := []
  rhsBatch := []
  wf := dot_S80000x64_S64x40_S80000x40_1_0_0_1_n_n_wf
def gather_S80000x40_S80000x1x1_S80000x1_n_1_0_0_1_2_11 : GatherDims S80000x40 S80000x1x1 S80000x1 where
  offsetDims := []
  collapsedSliceDims := [1]
  operandBatchingDims := [0]
  startIndicesBatchingDims := [0]
  startIndexMap := [1]
  indexVectorDim := 2
  sliceSizes := ![1, 1]
  wf := gather_S80000x40_S80000x1x1_S80000x1_n_1_0_0_1_2_11_wf

class Facts : Prop extends Facts₀ where

variable [Facts]
-- ==== Proof.KReg0.lean ====
/-
  Region 0 of the program (the first hidden layer's dense part), at a PARAMETER `V`: the buffer contents the region is
  entered with.  The kernel is gridded over ten tiles of 8000 rows; at a tile it reads its blocks of the aggregate, of the
  features and of the degree column, the two weight matrices and the two bias rows whole, and stores one 8000 × 64 block:
  max((a·d) Wl + bl + h Wr + br, 0).  Stated here: each window's block at a point; what the one store leaves in the output's
  staging buffer, as a function of the seven input blocks; the body's triple; the pipeline's proof data (arrays as entered,
  inputs left in place, the output at that function of the input blocks); and the body obligation at every point.
-/
import proofs.«400073_j76287209112086_3_alg».proof.Proof.Gen.Kernel.Launch
import proofs.«400073_j76287209112086_3_alg».proof.Proof.Gen.Kernel.Skeleton
import proofs.«400073_j76287209112086_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the seven input blocks: its one whole-block store. -/
def out0_7 (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) : Vec F S8000x64 .f32 :=
  View.canon [⟨(Rect.unit (s := S8000x64) ![0, 0] S8000x64.size inb_S8000x64_S8000x64_0_0), k0_pay1 (View.ld x0 (Rect.unit (s := S8000x64) ![0, 0] S8000x64.size inb_S8000x64_S8000x64_0_0)) (View.ld x2 (Rect.unit (s := S8000x1) ![0, 0] S8000x1.size inb_S8000x1_S8000x1_0_0)) (View.ld x1 (Rect.unit (s := S8000x64) ![0, 0] S8000x64.size inb_S8000x64_S8000x64_0_0)) (View.ld x3 (Rect.unit (s := S64x64) ![0, 0] S64x64.size inb_S64x64_S64x64_0_0)) (View.ld x5 (Rect.unit (s := S64x64) ![0, 0] S64x64.size inb_S64x64_S64x64_0_0)) (View.ld x4 (Rect.unit (s := S1x64) ![0, 0] S1x64.size inb_S1x64_S1x64_0_0)) (View.ld x6 (Rect.unit (s := S1x64) ![0, 0] S1x64.size inb_S1x64_S1x64_0_0))⟩]

/-- The one store covers the block. -/
theorem cover0_7 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 4000000 in
/-- The kernel body on whole staging memrefs — the inputs' at contents `xW`, the output's at anything — runs to the
    continuation holding the inputs' as they were and the output's at `out0_7` of them. -/
theorem sound_kernel0 (c : Dev nD) (E : Set ℕ) (i : grid0.Coords)
    (arg0 : Memref sig .tc .vmem S8000x64 .f32) (harg0 : arg0.IsWhole) (arg1 : Memref sig .tc .vmem S8000x64 .f32) (harg1 : arg1.IsWhole) (arg2 : Memref sig .tc .vmem S8000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8000x64 .f32) (harg7 : arg7.IsWhole)
    (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0_kernel i arg0 harg0 arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of this pipeline on core `c`: the arrays as the region finds them; after the body at point `t`
    each input's buffer at its block and the output's at `out0_7` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  Region 1 of the program (the second hidden layer's dense part), at a PARAMETER `V`: the buffer contents the region is
  entered with.  The kernel is gridded over ten tiles of 8000 rows; at a tile it reads its blocks of the aggregate, of the
  features and of the degree column, the two weight matrices and the two bias rows whole, and stores one 8000 × 64 block:
  max((a·d) Wl + bl + h Wr + br, 0).  Stated here: each window's block at a point; what the one store leaves in the output's
  staging buffer, as a function of the seven input blocks; the body's triple; the pipeline's proof data (arrays as entered,
  inputs left in place, the output at that function of the input blocks); and the body obligation at every point.
-/
import proofs.«400073_j76287209112086_3_alg».proof.Proof.Gen.Kernel.Launch
import proofs.«400073_j76287209112086_3_alg».proof.Proof.Gen.Kernel.Skeleton
import proofs.«400073_j76287209112086_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the seven input blocks: its one whole-block store. -/
def out1_7 (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) : Vec F S8000x64 .f32 :=
  View.canon [⟨(Rect.unit (s := S8000x64) ![0, 0] S8000x64.size inb_S8000x64_S8000x64_0_0), k1_pay1 (View.ld x0 (Rect.unit (s := S8000x64) ![0, 0] S8000x64.size inb_S8000x64_S8000x64_0_0)) (View.ld x2 (Rect.unit (s := S8000x1) ![0, 0] S8000x1.size inb_S8000x1_S8000x1_0_0)) (View.ld x1 (Rect.unit (s := S8000x64) ![0, 0] S8000x64.size inb_S8000x64_S8000x64_0_0)) (View.ld x3 (Rect.unit (s := S64x64) ![0, 0] S64x64.size inb_S64x64_S64x64_0_0)) (View.ld x5 (Rect.unit (s := S64x64) ![0, 0] S64x64.size inb_S64x64_S64x64_0_0)) (View.ld x4 (Rect.unit (s := S1x64) ![0, 0] S1x64.size inb_S1x64_S1x64_0_0)) (View.ld x6 (Rect.unit (s := S1x64) ![0, 0] S1x64.size inb_S1x64_S1x64_0_0))⟩]

/-- The one store covers the block. -/
theorem cover1_7 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 4000000 in
/-- The kernel body on whole staging memrefs — the inputs' at contents `xW`, the output's at anything — runs to the
    continuation holding the inputs' as they were and the output's at `out1_7` of them. -/
theorem sound_kernel1 (c : Dev nD) (E : Set ℕ) (i : grid1.Coords)
    (arg0 : Memref sig .tc .vmem S8000x64 .f32) (harg0 : arg0.IsWhole) (arg1 : Memref sig .tc .vmem S8000x64 .f32) (harg1 : arg1.IsWhole) (arg2 : Memref sig .tc .vmem S8000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8000x64 .f32) (harg7 : arg7.IsWhole)
    (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1_kernel i arg0 harg0 arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of this pipeline on core `c`: the arrays as the region finds them; after the body at point `t`
    each input's buffer at its block and the output's at `out1_7` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  Region 2 of the program (the last layer with its log-softmax loss), at a PARAMETER `V`: the buffer contents the region is
  entered with.  The kernel is gridded over forty tiles of 2000 rows.  It keeps two 1 × 1 scratch accumulators across the
  tiles: it clears them at the first tile, adds the tile's masked loss sum to the first and its mask count to the second
  at every tile, and at the last tile stores (first) / max(second, 1) into its 1 × 1 output block, which is written back
  only then.
-/
import proofs.«400073_j76287209112086_3_alg».proof.Proof.Gen.Kernel.Launch
import proofs.«400073_j76287209112086_3_alg».proof.Proof.Gen.Kernel.Skeleton
import proofs.«400073_j76287209112086_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block rectangle of a two-axis shape. -/
theorem zero_off : (![0, 0] : Fin 2 → Nat) = fun _ => 0 := funext fun a => by fin_cases a <;> rfl

/-- The loss total after a tile, from the tile's nine input blocks and the total before it. -/
abbrev nllAdd (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (s : Vec F S1x1 .f32) : Vec F S1x1 .f32 :=
  k2_pay2 (k2_pay7 x0 x2 x1 x3 x5 x4 x6) (k2_pay8 x0 x2 x1 x3 x5 x4 x6) (k2_pay9 x0 x2 x1 x3 x5 x4 x6) x7 x8 s

/-- The mask total after a tile, from the tile's mask block and the total before it. -/
abbrev maskAdd (x8 : Vec F S2000x1 .f32) (s : Vec F S1x1 .f32) : Vec F S1x1 .f32 := k2_pay3 x8 s

/-- The first conditional's condition (the grid coordinate is zero), from the grid coordinates. -/
abbrev cond2_0 (i : grid2.Coords) : Prop := (Scalar.cmpi .ne (Scalar.extui (Scalar.cmpi .eq (BitVec.ofNat 32 (i 0).val) 0#32)) 0#32) = 1#1
/-- The second conditional's condition (the grid coordinate is the last). -/
abbrev cond2_1 (i : grid2.Coords) : Prop := k2_cond2 i = 1#1

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile's 2000 × 40 logits, its row maxima and its rows' log-sum-exp remainders, from the point's input blocks
    (the kernel's first part's three results). -/
abbrev zb (c : Dev nD) (t : Fin cfg2.N) : FVec F S2000x40 .f32 :=
  k2_pay7 (iblk2 V c 0 t) (iblk2 V c 2 t) (iblk2 V c 1 t) (iblk2 V c 3 t) (iblk2 V c 5 t) (iblk2 V c 4 t) (iblk2 V c 6 t)
abbrev mb (c : Dev nD) (t : Fin cfg2.N) : FVec F S2000x1 .f32 :=
  k2_pay8 (iblk2 V c 0 t) (iblk2 V c 2 t) (iblk2 V c 1 t) (iblk2 V c 3 t) (iblk2 V c 5 t) (iblk2 V c 4 t) (iblk2 V c 6 t)
abbrev lb (c : Dev nD) (t : Fin cfg2.N) : FVec F S2000x1 .f32 :=
  k2_pay9 (iblk2 V c 0 t) (iblk2 V c 2 t) (iblk2 V c 1 t) (iblk2 V c 3 t) (iblk2 V c 5 t) (iblk2 V c 4 t) (iblk2 V c 6 t)

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The first condition holds at the first point only — decided over the grid. -/
theorem hcond2_0 : ∀ t : Fin cfg2.N, cond2_0 (grid2.coords t) ↔ t.val % 40 = 0 :=
  (by decide +kernel : ∀ t : Fin grid2.N, cond2_0 (grid2.coords t) ↔ t.val % 40 = 0)
/-- The second condition holds at the last point only — decided over the grid. -/
theorem hcond2_1 : ∀ t : Fin cfg2.N, cond2_1 (grid2.coords t) ↔ t.val % 40 = 39 :=
  (by decide +kernel : ∀ t : Fin grid2.N, cond2_1 (grid2.coords t) ↔ t.val % 40 = 39)

/-- Where the second condition fails the output window is idle: the body stores nothing into it, -/
theorem idleAt2_9 : ∀ t : Fin cfg2.N, ¬cond2_1 (grid2.coords t) → cfg2.idle 9 (grid2.coords t) = true := by decide +kernel
/-- and its block is not written back; -/
theorem noFlush2_9 : ∀ t : Fin cfg2.N, ¬cond2_1 (grid2.coords t) → (cfg2.win 9).flush t = false := by decide +kernel
/-- where it holds the window is live. -/
theorem liveAt2_9 : ∀ t : Fin cfg2.N, cond2_1 (grid2.coords t) → cfg2.idle 9 (grid2.coords t) = false := by decide +kernel

/-- The two scratch accumulators as whole memrefs, as the pipeline passes them beside the windows. -/
abbrev scM2_0 : Memref sig .tc .vmem S1x1 .f32 := Memref.whole cc2_scratch0
abbrev scM2_1 : Memref sig .tc .vmem S1x1 .f32 := Memref.whole cc2_scratch1

/-- The class's invariant with the two accumulators split off as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- A list of stores into a 1 × 1 block whose last store is of the whole block covers it. -/
theorem cover2 (w : Vec F S1x1 .f32) (L : List (View.Piece (Elt F) S1x1 .f32)) (y : S1x1.Idx) :
    ∃ pc ∈ ((⟨Rect.unit (s := S1x1) ![0, 0] S1x1.size inb_S1x1_S1x1_0_0, w⟩ : View.Piece (Elt F) S1x1 .f32) :: L), y ∈ pc.1.set :=
  ⟨_, List.mem_cons.mpr (Or.inl rfl), View.mem_set_unit_zero zero_off inb_S1x1_S1x1_0_0 y⟩

set_option maxHeartbeats 4000000 in
/-- The body at the first point (the first conditional taken, the second not): both totals are cleared, then the tile's
    sums added; the output's buffer is not touched. -/
theorem sound_kernel2_A (c : Dev nD) (E : Set ℕ) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S2000x1 .i32) (harg8 : arg8.IsWhole) (arg9 : Memref sig .tc .vmem S2000x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole)
    (hc0 : cond2_0 i) (hc1 : ¬cond2_1 i)
    (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (xi9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare (nllAdd x0 x1 x2 x3 x4 x5 x6 x7 x8 (k2_pay5 (F := F))) ∗ owns (c : Thread nD τ) arg12 fullShare (maskAdd x8 (k2_pay6 (F := F)))) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    sl_unfold_words
    rw [View.read_writes_eq_canon _ _ _ (cover2 _ _), View.canon_cons_unit_zero (S := S1x1) zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  iexists _; isplitr
  swap; · iexact HS1
  ipureintro
  sl_unfold_words
  rw [View.read_writes_eq_canon _ _ _ (cover2 _ _), View.canon_cons_unit_zero (S := S1x1) zero_off]
  simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]

set_option maxHeartbeats 4000000 in
/-- The body at a middle point (neither conditional taken): the tile's sums are added to the totals the point before
    left; the output's buffer is not touched. -/
theorem sound_kernel2_B (c : Dev nD) (E : Set ℕ) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S2000x1 .i32) (harg8 : arg8.IsWhole) (arg9 : Memref sig .tc .vmem S2000x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole)
    (hc0 : ¬cond2_0 i) (hc1 : ¬cond2_1 i)
    (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (xi9 xs0 xs1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare (nllAdd x0 x1 x2 x3 x4 x5 x6 x7 x8 xs0) ∗ owns (c : Thread nD τ) arg12 fullShare (maskAdd x8 xs1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  subst hf0; subst hf1; subst hf2; subst hf3; subst hf4; subst hf5; subst hf6; subst hf7; subst hf8; subst hf9; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    sl_unfold_words
    rw [View.read_writes_eq_canon _ _ _ (cover2 _ _), View.canon_unit_zero zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  iexists _; isplitr
  swap; · iexact HS1
  ipureintro
  sl_unfold_words
  rw [View.read_writes_eq_canon _ _ _ (cover2 _ _), View.canon_unit_zero zero_off]
  simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]

set_option maxHeartbeats 4000000 in
/-- The body at the last point (the second conditional taken, the first not): the tile's sums are added to the totals,
    and the loss total over max(the mask total, 1) is stored into the output's buffer. -/
theorem sound_kernel2_C (c : Dev nD) (E : Set ℕ) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S2000x1 .i32) (harg8 : arg8.IsWhole) (arg9 : Memref sig .tc .vmem S2000x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole)
    (hc0 : ¬cond2_0 i) (hc1 : cond2_1 i)
    (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (xs0 xs1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k2_pay4 (maskAdd x8 xs1) (nllAdd x0 x1 x2 x3 x4 x5 x6 x7 x8 xs0)) ∗ owns (c : Thread nD τ) arg11 fullShare (nllAdd x0 x1 x2 x3 x4 x5 x6 x7 x8 xs0) ∗ owns (c : Thread nD τ) arg12 fullShare (maskAdd x8 xs1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
  subst hf0; subst hf1; subst hf2; subst hf3; subst hf4; subst hf5; subst hf6; subst hf7; subst hf8; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.read_writes_eq_canon _ _ _ (cover2 _ _), View.canon_unit_zero zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  isplitl [HS0]
  · iexists _; isplitr
    swap; · iexact HS0
    ipureintro
    sl_unfold_words
    rw [View.read_writes_eq_canon _ _ _ (cover2 _ _), View.canon_unit_zero zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  iexists _; isplitr
  swap; · iexact HS1
  ipureintro
  sl_unfold_words
  rw [View.read_writes_eq_canon _ _ _ (cover2 _ _), View.canon_unit_zero zero_off]
  simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]

/-- THE TWO TOTALS after the body at position `n` (the loss total, the mask total): cleared at the first tile, then each
    tile's masked loss sum and mask count added to what the tile before left. -/
noncomputable def accs2 (c : Dev nD) : (n : ℕ) → n < cfg2.N → Vec F S1x1 .f32 × Vec F S1x1 .f32
  | 0, h => (nllAdd (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (k2_pay5 (F := F)), maskAdd (iblk2 V c 8 ⟨0, h⟩) (k2_pay6 (F := F)))
  | n + 1, h => (nllAdd (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (accs2 c n (Nat.lt_of_succ_lt h)).1,
      maskAdd (iblk2 V c 8 ⟨n + 1, h⟩) (accs2 c n (Nat.lt_of_succ_lt h)).2)

/-- THE ACCUMULATION.  After the body at position `n`: (the output window's staging buffer, the first scratch — the loss
    total —, the second scratch — the mask total).  The first component is what the last tile stores, the loss total over
    max(the mask total, 1); at the other tiles the window is idle and nothing consults it. -/
noncomputable def outsAt2 (c : Dev nD) : (n : ℕ) → n < cfg2.N → Vec F S1x1 .f32 × Vec F S1x1 .f32 × Vec F S1x1 .f32 :=
  fun n h => (k2_pay4 (accs2 V c n h).2 (accs2 V c n h).1, (accs2 V c n h).1, (accs2 V c n h).2)

theorem outsAt2_out (c : Dev nD) (n : ℕ) (h : n < cfg2.N) : (outsAt2 V c n h).1 = k2_pay4 (accs2 V c n h).2 (accs2 V c n h).1 := rfl
theorem outsAt2_nll (c : Dev nD) (n : ℕ) (h : n < cfg2.N) : (outsAt2 V c n h).2.1 = (accs2 V c n h).1 := rfl
theorem outsAt2_mask (c : Dev nD) (n : ℕ) (h : n < cfg2.N) : (outsAt2 V c n h).2.2 = (accs2 V c n h).2 := rfl

/-- The loss total after the first tile: the cleared scratch plus the tile's sum. -/
theorem nll_acc_zero (c : Dev nD) (h0 : 0 < cfg2.N) :
    (outsAt2 V c 0 h0).2.1 = k2_pay2 (zb V c ⟨0, h0⟩) (mb V c ⟨0, h0⟩) (lb V c ⟨0, h0⟩) (iblk2 V c 7 ⟨0, h0⟩) (iblk2 V c 8 ⟨0, h0⟩) (k2_pay5 (F := F)) := rfl
/-- The loss total after a later tile: what the tile before left plus the tile's sum. -/
theorem nll_acc_succ (c : Dev nD) (n : ℕ) (hn : n + 1 < cfg2.N) :
    (outsAt2 V c (n + 1) hn).2.1 = k2_pay2 (zb V c ⟨n + 1, hn⟩) (mb V c ⟨n + 1, hn⟩) (lb V c ⟨n + 1, hn⟩) (iblk2 V c 7 ⟨n + 1, hn⟩) (iblk2 V c 8 ⟨n + 1, hn⟩)
      (outsAt2 V c n (Nat.lt_of_succ_lt hn)).2.1 := rfl
/-- The mask total after the first tile. -/
theorem mask_acc_zero (c : Dev nD) (h0 : 0 < cfg2.N) :
    (outsAt2 V c 0 h0).2.2 = k2_pay3 (iblk2 V c 8 ⟨0, h0⟩) (k2_pay6 (F := F)) := rfl
/-- The mask total after a later tile. -/
theorem mask_acc_succ (c : Dev nD) (n : ℕ) (hn : n + 1 < cfg2.N) :
    (outsAt2 V c (n + 1) hn).2.2 = k2_pay3 (iblk2 V c 8 ⟨n + 1, hn⟩) (outsAt2 V c n (Nat.lt_of_succ_lt hn)).2.2 := rfl
/-- The output block after the last tile: the loss total over max(the mask total, 1). -/
theorem out_last (c : Dev nD) (h : 39 < cfg2.N) :
    (outsAt2 V c 39 h).1 = k2_pay4 (outsAt2 V c 39 h).2.2 (outsAt2 V c 39 h).2.1 := rfl

/-- The totals after the first point, at a point known to be the first. -/
theorem nll_first (c : Dev nD) (t : Fin cfg2.N) (hz : t.val = 0) :
    (accs2 V c t.val t.isLt).1 = nllAdd (iblk2 V c 0 t) (iblk2 V c 1 t) (iblk2 V c 2 t) (iblk2 V c 3 t) (iblk2 V c 4 t) (iblk2 V c 5 t) (iblk2 V c 6 t) (iblk2 V c 7 t) (iblk2 V c 8 t) (k2_pay5 (F := F)) := by
  obtain ⟨n, hn⟩ := t
  cases n with
  | zero => rfl
  | succ n => exact absurd hz (Nat.succ_ne_zero n)
theorem mask_first (c : Dev nD) (t : Fin cfg2.N) (hz : t.val = 0) :
    (accs2 V c t.val t.isLt).2 = maskAdd (iblk2 V c 8 t) (k2_pay6 (F := F)) := by
  obtain ⟨n, hn⟩ := t
  cases n with
  | zero => rfl
  | succ n => exact absurd hz (Nat.succ_ne_zero n)
/-- The totals after a later point, over what the point before left. -/
theorem nll_later (c : Dev nD) (t : Fin cfg2.N) (hz : t.val ≠ 0) :
    (accs2 V c t.val t.isLt).1 = nllAdd (iblk2 V c 0 t) (iblk2 V c 1 t) (iblk2 V c 2 t) (iblk2 V c 3 t) (iblk2 V c 4 t) (iblk2 V c 5 t) (iblk2 V c 6 t) (iblk2 V c 7 t) (iblk2 V c 8 t) (accs2 V c (t.val - 1) (Nat.lt_of_le_of_lt (Nat.sub_le _ _) t.isLt)).1 := by
  obtain ⟨n, hn⟩ := t
  cases n with
  | zero => exact absurd rfl hz
  | succ n => rfl
theorem mask_later (c : Dev nD) (t : Fin cfg2.N) (hz : t.val ≠ 0) :
    (accs2 V c t.val t.isLt).2 = maskAdd (iblk2 V c 8 t) (accs2 V c (t.val - 1) (Nat.lt_of_le_of_lt (Nat.sub_le _ _) t.isLt)).2 := by
  obtain ⟨n, hn⟩ := t
  cases n with
  | zero => exact absurd rfl hz
  | succ n => rfl

/-- The region invariant before position `n`: before the first point the class's (every scratch at anything); afterwards
    the scoped rest with the two scratch accumulators at what the point before left, and the generator register. -/
noncomputable def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's totals. -/
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2)
          ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = (outsAt2 V c t.val t.isLt).1 := by dsimp only [dat2]

/-- What the body leaves in each input window's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl

/-- So the obligation's post for an input window is its buffer at its block. -/
theorem leaves2_0 (c : Dev nD) (t : Fin cfg2.N) : (dat2 V c).leavesExact 0 t = owns (c : Thread nD τ) (st2_0 t) fullShare (iblk2 V c 0 t) := by
  unfold Dat.leavesExact; rw [liveAt2_0 t, after2_0]
theorem leaves2_1 (c : Dev nD) (t : Fin cfg2.N) : (dat2 V c).leavesExact 1 t = owns (c : Thread nD τ) (st2_1 t) fullShare (iblk2 V c 1 t) := by
  unfold Dat.leavesExact; rw [liveAt2_1 t, after2_1]
theorem leaves2_2 (c : Dev nD) (t : Fin cfg2.N) : (dat2 V c).leavesExact 2 t = owns (c : Thread nD τ) (st2_2 t) fullShare (iblk2 V c 2 t) := by
  unfold Dat.leavesExact; rw [liveAt2_2 t, after2_2]
theorem leaves2_3 (c : Dev nD) (t : Fin cfg2.N) : (dat2 V c).leavesExact 3 t = owns (c : Thread nD τ) (st2_3 t) fullShare (iblk2 V c 3 t) := by
  unfold Dat.leavesExact; rw [liveAt2_3 t, after2_3]
theorem leaves2_4 (c : Dev nD) (t : Fin cfg2.N) : (dat2 V c).leavesExact 4 t = owns (c : Thread nD τ) (st2_4 t) fullShare (iblk2 V c 4 t) := by
  unfold Dat.leavesExact; rw [liveAt2_4 t, after2_4]
theorem leaves2_5 (c : Dev nD) (t : Fin cfg2.N) : (dat2 V c).leavesExact 5 t = owns (c : Thread nD τ) (st2_5 t) fullShare (iblk2 V c 5 t) := by
  unfold Dat.leavesExact; rw [liveAt2_5 t, after2_5]
theorem leaves2_6 (c : Dev nD) (t : Fin cfg2.N) : (dat2 V c).leavesExact 6 t = owns (c : Thread nD τ) (st2_6 t) fullShare (iblk2 V c 6 t) := by
  unfold Dat.leavesExact; rw [liveAt2_6 t, after2_6]
theorem leaves2_7 (c : Dev nD) (t : Fin cfg2.N) : (dat2 V c).leavesExact 7 t = owns (c : Thread nD τ) (st2_7 t) fullShare (iblk2 V c 7 t) := by
  unfold Dat.leavesExact; rw [liveAt2_7 t, after2_7]
theorem leaves2_8 (c : Dev nD) (t : Fin cfg2.N) : (dat2 V c).leavesExact 8 t = owns (c : Thread nD τ) (st2_8 t) fullShare (iblk2 V c 8 t) := by
  unfold Dat.leavesExact; rw [liveAt2_8 t, after2_8]

/-- The invariant at a point's start, restated at the point's position. -/
theorem PhiS2_castSucc (c : Dev nD) (t : Fin cfg2.N) :
    (dat2 V c).Φ t.castSucc = PhiS2 V c t.val (Nat.le_of_lt t.isLt) := rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4000000 in
/-- The body at any point: the inputs' memrefs hold their blocks; the decided conditions say which of the three cases the
    point is in; the invariant hands the body the two accumulators at what the point before left (at anything at the first
    point) and takes them back at this point's totals; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7, leaves2_8]
  simp only [outsAt2_nll, outsAt2_mask]
  have hN : t.val < 40 := lt_of_lt_of_eq t.isLt (show cfg2.N = 40 from N_2)
  by_cases h0 : t.val % 40 = 0
  · by_cases h1 : t.val % 40 = 39
    · exfalso; omega
    · have hz : t.val = 0 := by omega
      rw [Dat.leavesExact_idle (dat2 V c) 9 t (idleAt2_9 t (fun h => h1 ((hcond2_1 t).mp h))) (noFlush2_9 t (fun h => h1 ((hcond2_1 t).mp h)))]
      rw [nll_first V c t hz, mask_first V c t hz]
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_A c Set.univ (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) ((dat2 V c).before 9 t d9) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := by omega
    by_cases h1 : t.val % 40 = 39
    · rw [show (dat2 V c).leavesExact 9 t = owns (c : Thread nD τ) (st2_9 t) fullShare ((dat2 V c).after 9 t) from by
        unfold Dat.leavesExact; rw [liveAt2_9 t ((hcond2_1 t).mpr h1)], after2_9, outsAt2_out]
      rw [nll_later V c t hz, mask_later V c t hz]
      rw [PhiS2_castSucc V c t, PhiS2_pos V c _ _ hz]
      simp only [outsAt2_nll, outsAt2_mask]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dat2 V c) 9 t (idleAt2_9 t (fun h => h1 ((hcond2_1 t).mp h))) (noFlush2_9 t (fun h => h1 ((hcond2_1 t).mp h)))]
      rw [nll_later V c t hz, mask_later V c t hz]
      rw [PhiS2_castSucc V c t, PhiS2_pos V c _ _ hz]
      simp only [outsAt2_nll, outsAt2_mask]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) ((dat2 V c).before 9 t d9) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 (F := F) V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- After the last point the invariant gives the class's back: the accumulators' named contents are forgotten. -/
theorem hout2 (c : Dev nD) : (dat2 (F := F) V c).Φ (Fin.last cfg2.N) ⊢ Pipeline.ΦA spec2 c :=
  Phi_out2 V c _ (by rw [Fin.val_last]; have : cfg2.N = 40 := N_2; omega)

end Cert.Kernel.Hand

end
-- ==== Proof.KRun.lean ====
/-
  The whole run of @main: three host stretches, region 0, a host stretch, region 1, a host stretch, region 2, a last
  host operation.  The buffer contents at every boundary are a fold from the launch memory — a host stretch's
  `StableHlo.after`, a region's arrays at what its write-backs leave (the inputs as entered, the output's blocks folded),
  every other buffer as it was —; each pipeline's proof data sits at its region's entry contents; each host stretch and
  each region is a segment over the thread state "every unscoped buffer at the boundary's contents, the generator register
  at some state, nothing owed"; and the launch theorem for a list of segments gives: every weakly fair execution
  terminates, and every unscoped buffer ends at the last boundary's contents.  The argument arrays walk back through the
  fold to the launch memory, which is the frame claim.
-/
import proofs.«400073_j76287209112086_3_alg».proof.Proof.KReg0
import proofs.«400073_j76287209112086_3_alg».proof.Proof.KReg1
import proofs.«400073_j76287209112086_3_alg».proof.Proof.KReg2
import proofs.«400073_j76287209112086_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first three host stretches (region 0's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev Vr3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (Vr3 m ρ) c).arrAt w cfg0.N
abbrev Vr4 : (c : Dev nD) → (b : Ref sig .tc) → Buf (Elt F) ((c : Thread nD τ).loc b) := fun c b => W4 m ρ c b
/-- After the next host stretch (region 1's entry). -/
abbrev W5 : Dev nD → Valuation τ sig (Elt F) := fun c => StableHlo.after hostOps1 (W4 m ρ c)
abbrev Vr5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Vr5 m ρ) c).arrAt w cfg1.N
abbrev Vr6 : (c : Dev nD) → (b : Ref sig .tc) → Buf (Elt F) ((c : Thread nD τ).loc b) := fun c b => W6 m ρ c b
/-- After the next host stretch (region 2's entry). -/
abbrev W7 : Dev nD → Valuation τ sig (Elt F) := fun c => StableHlo.after hostOps2 (W6 m ρ c)
abbrev Vr7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (Vr7 m ρ) c).arrAt w cfg2.N
abbrev Vr8 : (c : Dev nD) → (b : Ref sig .tc) → Buf (Elt F) ((c : Thread nD τ).loc b) := fun c b => W8 m ρ c b
/-- After the last host operation: the contents @main returns with. -/
abbrev W9 : Dev nD → Valuation τ sig (Elt F) := fun c => StableHlo.after hostOps3 (W8 m ρ c)

theorem W4_arr (c : Dev nD) (w : Fin cfg0.W) :
    W4 m ρ c (Proc.devRef .tc (Pipeline.arrRef spec0 w)) = (dat0 (Vr3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem hF0 (c : Dev nD) (w : Fin cfg0.W) : (dat0 (Vr3 m ρ) c).arrAt w cfg0.N = Vr4 m ρ c (Pipeline.arrRef spec0 w) :=
  (W4_arr m ρ c w).symm
theorem hrest0 (c : Dev nD) : ∀ b, b ∉ Finset.univ.image (Pipeline.arrRef spec0) → Vr4 m ρ c b = Vr3 m ρ c b :=
  fun b hb => W4_of_ne m ρ c b fun w e => hb (Finset.mem_image.mpr ⟨w, Finset.mem_univ _, e⟩)

theorem W6_arr (c : Dev nD) (w : Fin cfg1.W) :
    W6 m ρ c (Proc.devRef .tc (Pipeline.arrRef spec1 w)) = (dat1 (Vr5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (Vr5 m ρ) c).arrAt w cfg1.N = Vr6 m ρ c (Pipeline.arrRef spec1 w) :=
  (W6_arr m ρ c w).symm
theorem hrest1 (c : Dev nD) : ∀ b, b ∉ Finset.univ.image (Pipeline.arrRef spec1) → Vr6 m ρ c b = Vr5 m ρ c b :=
  fun b hb => W6_of_ne m ρ c b fun w e => hb (Finset.mem_image.mpr ⟨w, Finset.mem_univ _, e⟩)

theorem W8_arr (c : Dev nD) (w : Fin cfg2.W) :
    W8 m ρ c (Proc.devRef .tc (Pipeline.arrRef spec2 w)) = (dat2 (Vr7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem hF2 (c : Dev nD) (w : Fin cfg2.W) : (dat2 (Vr7 m ρ) c).arrAt w cfg2.N = Vr8 m ρ c (Pipeline.arrRef spec2 w) :=
  (W8_arr m ρ c w).symm
theorem hrest2 (c : Dev nD) : ∀ b, b ∉ Finset.univ.image (Pipeline.arrRef spec2) → Vr8 m ρ c b = Vr7 m ρ c b :=
  fun b hb => W8_of_ne m ρ c b fun w e => hb (Finset.mem_image.mpr ⟨w, Finset.mem_univ _, e⟩)

/-! ## The argument arrays end as launched -/

/-- A buffer no host stretch writes and no region stages walks back through the fold to the launch memory. -/
theorem W9_of_untouched (c : Dev nD) (r : Ref sig .tc)
    (h0 : r ∉ hostOps0_W) (h1 : r ∉ hostOps0_1_W) (h2 : r ∉ hostOps0_2_W) (h4 : r ∉ hostOps1_W) (h6 : r ∉ hostOps2_W) (h8 : r ∉ hostOps3_W)
    (hr0 : ∀ w, Pipeline.arrRef spec0 w ≠ r) (hr1 : ∀ w, Pipeline.arrRef spec1 w ≠ r) (hr2 : ∀ w, Pipeline.arrRef spec2 w ≠ r) :
    W9 m ρ c (Proc.devRef .tc r) = m ((c : Thread nD τ).loc r) :=
  (StableHlo.after_of_writes_sub hostOps3 _ hostOps3_writes h8).trans <|
  (W8_of_ne m ρ c r hr2).trans <|
  (StableHlo.after_of_writes_sub hostOps2 _ hostOps2_writes h6).trans <|
  (W6_of_ne m ρ c r hr1).trans <|
  (StableHlo.after_of_writes_sub hostOps1 _ hostOps1_writes h4).trans <|
  (W4_of_ne m ρ c r hr0).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The features array is staged by region 0 as an input window: the region hands it back as entered. -/
theorem W9_main_arg0 (c : Dev nD) : W9 m ρ c (Proc.devRef .tc main_arg0) = m ((c : Thread nD τ).loc main_arg0) :=
  (StableHlo.after_of_writes_sub hostOps3 _ hostOps3_writes (by decide)).trans <|
  (W8_of_ne m ρ c main_arg0 (by decide)).trans <|
  (StableHlo.after_of_writes_sub hostOps2 _ hostOps2_writes (by decide)).trans <|
  (W6_of_ne m ρ c main_arg0 (by decide)).trans <|
  (StableHlo.after_of_writes_sub hostOps1 _ hostOps1_writes (by decide)).trans <|
  ((W4_arr m ρ c 1).trans (((dat0 (Vr3 m ρ) c).arrAt_in 1 rfl _).trans (A_eq0 (Vr3 m ρ) c 1))).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

theorem W9_main_arg1 (c : Dev nD) : W9 m ρ c (Proc.devRef .tc main_arg1) = m ((c : Thread nD τ).loc main_arg1) :=
  W9_of_untouched m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_of_untouched m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_of_untouched m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_of_untouched m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_of_untouched m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_of_untouched m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_of_untouched m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_of_untouched m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_of_untouched m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_of_untouched m ρ c main_arg10 (by decide) (by decide) (by decide) (by decide) (by decide) (by decide) (by decide) (by decide) (by decide)
theorem W9_main_arg11 (c : Dev nD) : W9 m ρ c (Proc.devRef .tc main_arg11) = m ((c : Thread nD τ).loc main_arg11) :=
  W9_of_untouched m ρ c main_arg11 (by decide) (by decide) (by decide) (by decide) (by decide) (by decide) (by decide) (by decide) (by decide)
theorem W9_main_arg12 (c : Dev nD) : W9 m ρ c (Proc.devRef .tc main_arg12) = m ((c : Thread nD τ).loc main_arg12) :=
  W9_of_untouched m ρ c main_arg12 (by decide) (by decide) (by decide) (by decide) (by decide) (by decide) (by decide) (by decide) (by decide)
theorem W9_main_arg13 (c : Dev nD) : W9 m ρ c (Proc.devRef .tc main_arg13) = m ((c : Thread nD τ).loc main_arg13) :=
  W9_of_untouched m ρ c main_arg13 (by decide) (by decide) (by decide) (by decide) (by decide) (by decide) (by decide) (by decide) (by decide)
theorem W9_main_arg14 (c : Dev nD) : W9 m ρ c (Proc.devRef .tc main_arg14) = m ((c : Thread nD τ).loc main_arg14) :=
  W9_of_untouched m ρ c main_arg14 (by decide) (by decide) (by decide) (by decide) (by decide) (by decide) (by decide) (by decide) (by decide)
theorem W9_main_arg15 (c : Dev nD) : W9 m ρ c (Proc.devRef .tc main_arg15) = m ((c : Thread nD τ).loc main_arg15) :=
  W9_of_untouched m ρ c main_arg15 (by decide) (by decide) (by decide) (by decide) (by decide) (by decide) (by decide) (by decide) (by decide)

/-! ## The proof data family and the thread state -/

/-- The prefetched tables' admissible contents: no pipeline has a table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Vr3 m ρ) c
  | ⟨1, _⟩ => fun c => dat1 (Vr5 m ρ) c
  | ⟨2, _⟩ => fun c => dat2 (Vr7 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core's `owes`, at nothing. -/
abbrev RH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W3`, left at `W4`.  Its arrays
    split out of the unscoped buffers and put back at the exit contents; the generator register into the region's
    invariant and out; nothing owed; no semaphore of the kernel's own. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr3 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vr3 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vr3 m ρ c) (Vr4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`.  Its arrays
    split out of the unscoped buffers and put back at the exit contents; the generator register into the region's
    invariant and out; nothing owed; no semaphore of the kernel's own. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr5 m ρ) c).loose
  hwaits := Pipeline.hwaits_of_owed_zero _ _ _ _ LH lvH 1 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vr5 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vr5 m ρ c) (Vr6 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`.  Its arrays
    split out of the unscoped buffers and put back at the exit contents; the generator register into the region's
    invariant and out; nothing owed; no semaphore of the kernel's own. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vr7 m ρ) c).loose
  hwaits := Pipeline.hwaits_of_owed_zero _ _ _ _ LH lvH 2 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vr7 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vr7 m ρ) c
    unfold Pipeline.ΦA at h
    rw [show (pdatsH m ρ 2 c).Φ 0 = (dat2 (Vr7 m ρ) c).Φ 0 from rfl]
    iintro ⟨Hp, -, Hr⟩
    iapply h
    isplitl [Hr]; · iexact Hr
    iexact Hp
  hout c := by
    have h := hout2 (Vr7 m ρ) c
    unfold Pipeline.ΦA at h
    rw [Pipeline.ownSems0_none, show (pdatsH m ρ 2 c).Φ (Fin.last _) = (dat2 (Vr7 m ρ) c).Φ (Fin.last _) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vr7 m ρ c) (Vr8 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segsH : List (Pipeline.Seg (pcfgs (F := F)) admH (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (regH0 m ρ),
    .host (hsegH hostOps1 hostOps1_sub hostOps1_fresh (W4 m ρ)),
    .region (regH1 m ρ),
    .host (hsegH hostOps2 hostOps2_sub hostOps2_fresh (W6 m ρ)),
    .region (regH2 m ρ),
    .host (hsegH hostOps3 hostOps3_sub hostOps3_fresh (W8 m ρ)) ]

/-- @main IS the run of the segments. -/
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ RH c) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_ucH main_arg0 (by decide))).trans (W9_main_arg0 m ρ c),
      (h c _ (mem_ucH main_arg1 (by decide))).trans (W9_main_arg1 m ρ c),
      (h c _ (mem_ucH main_arg2 (by decide))).trans (W9_main_arg2 m ρ c),
      (h c _ (mem_ucH main_arg3 (by decide))).trans (W9_main_arg3 m ρ c),
      (h c _ (mem_ucH main_arg4 (by decide))).trans (W9_main_arg4 m ρ c),
      (h c _ (mem_ucH main_arg5 (by decide))).trans (W9_main_arg5 m ρ c),
      (h c _ (mem_ucH main_arg6 (by decide))).trans (W9_main_arg6 m ρ c),
      (h c _ (mem_ucH main_arg7 (by decide))).trans (W9_main_arg7 m ρ c),
      (h c _ (mem_ucH main_arg8 (by decide))).trans (W9_main_arg8 m ρ c),
      (h c _ (mem_ucH main_arg9 (by decide))).trans (W9_main_arg9 m ρ c),
      (h c _ (mem_ucH main_arg10 (by decide))).trans (W9_main_arg10 m ρ c),
      (h c _ (mem_ucH main_arg11 (by decide))).trans (W9_main_arg11 m ρ c),
      (h c _ (mem_ucH main_arg12 (by decide))).trans (W9_main_arg12 m ρ c),
      (h c _ (mem_ucH main_arg13 (by decide))).trans (W9_main_arg13 m ρ c),
      (h c _ (mem_ucH main_arg14 (by decide))).trans (W9_main_arg14 m ρ c),
      (h c _ (mem_ucH main_arg15 (by decide))).trans (W9_main_arg15 m ρ c)⟩) (run m ρ)

end Cert.Kernel.Hand

end
-- ==== Proof.KIReg0.lean ====
/-
  Region 0 of the program (the first hidden layer's dense part), at a PARAMETER `V`: the buffer contents the region is
  entered with.  The kernel is gridded over ten tiles of 8000 rows; at a tile it reads its blocks of the aggregate, of the
  features and of the degree column, the two weight matrices and the two bias rows whole, and stores one 8000 × 64 block:
  max((a·d) Wl + bl + h Wr + br, 0).  Stated here: each window's block at a point; what the one store leaves in the output's
  staging buffer, as a function of the seven input blocks; the body's triple; the pipeline's proof data (arrays as entered,
  inputs left in place, the output at that function of the input blocks); and the body obligation at every point.
-/
import proofs.«400073_j76287209112086_3_alg».proof.Proof.Gen.KernelIdeal.Launch
import proofs.«400073_j76287209112086_3_alg».proof.Proof.Gen.KernelIdeal.Skeleton
import proofs.«400073_j76287209112086_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the seven input blocks: its one whole-block store. -/
def out0_7 (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) : Vec F S8000x64 .f32 :=
  View.canon [⟨(Rect.unit (s := S8000x64) ![0, 0] S8000x64.size inb_S8000x64_S8000x64_0_0), k0_pay1 (View.ld x0 (Rect.unit (s := S8000x64) ![0, 0] S8000x64.size inb_S8000x64_S8000x64_0_0)) (View.ld x2 (Rect.unit (s := S8000x1) ![0, 0] S8000x1.size inb_S8000x1_S8000x1_0_0)) (View.ld x1 (Rect.unit (s := S8000x64) ![0, 0] S8000x64.size inb_S8000x64_S8000x64_0_0)) (View.ld x3 (Rect.unit (s := S64x64) ![0, 0] S64x64.size inb_S64x64_S64x64_0_0)) (View.ld x5 (Rect.unit (s := S64x64) ![0, 0] S64x64.size inb_S64x64_S64x64_0_0)) (View.ld x4 (Rect.unit (s := S1x64) ![0, 0] S1x64.size inb_S1x64_S1x64_0_0)) (View.ld x6 (Rect.unit (s := S1x64) ![0, 0] S1x64.size inb_S1x64_S1x64_0_0))⟩]

/-- The one store covers the block. -/
theorem cover0_7 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 4000000 in
/-- The kernel body on whole staging memrefs — the inputs' at contents `xW`, the output's at anything — runs to the
    continuation holding the inputs' as they were and the output's at `out0_7` of them. -/
theorem sound_kernel0 (c : Dev nD) (E : Set ℕ) (i : grid0.Coords)
    (arg0 : Memref sig .tc .vmem S8000x64 .f32) (harg0 : arg0.IsWhole) (arg1 : Memref sig .tc .vmem S8000x64 .f32) (harg1 : arg1.IsWhole) (arg2 : Memref sig .tc .vmem S8000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8000x64 .f32) (harg7 : arg7.IsWhole)
    (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0_kernel i arg0 harg0 arg1 harg1 arg2 harg2 arg3 harg3 arg4 harg4 arg5 harg5 arg6 harg6 arg7 harg7) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of this pipeline on core `c`: the arrays as the region finds them; after the body at point `t`
    each input's buffer at its block and the output's at `out0_7` of the input blocks; the scoped rest and the
    generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 4000000 in
/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/-
  Region 1 of the program (the second hidden layer's dense part), at a PARAMETER `V`: the buffer contents the region is
  entered with.  The kernel is gridded over ten tiles of 8000 rows; at a tile it reads its blocks of the aggregate, of the
  features and of the degree column, the two weight matrices and the two bias rows whole, and stores one 8000 × 64 block:
  max((a·d) Wl + bl + h Wr + br, 0).  Stated here: each window's block at a point; what the one store leaves in the output's
  staging buffer, as a function of the seven input blocks; the body's triple; the pipeline's proof data (arrays as entered,
  inputs left in place, the output at that function of the input blocks); and the body obligation at every point.
-/
import proofs.«400073_j76287209112086_3_alg».proof.Proof.Gen.KernelIdeal.Launch
import proofs.«400073_j76287209112086_3_alg».proof.Proof.Gen.KernelIdeal.Skeleton
import proofs.«400073_j76287209112086_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the seven input blocks: its one whole-block store. -/
def out1_7 (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) : Vec F S8000x64 .f32 :=
  View.canon [⟨(Rect.unit (s := S8000x64) ![0, 0] S8000x64.size inb_S8000x64_S8000x64_0_0), k1_pay1 (View.ld x0 (Rect.unit (s := S8000x64) ![0, 0] S8000x64.size inb_S8000x64_S8000x64_0_0)) (View.ld x2 (Rect.unit (s := S8000x1) ![0, 0] S8000x1.size inb_S8000x1_S8000x1_0_0)) (View.ld x1 (Rect.unit (s := S8000x64) ![0, 0] S8000x64.size inb_S8000x64_S8000x64_0_0)) (View.ld x3 (Rect.unit (s := S64x64) ![0, 0] S64x64.size inb_S64x64_S64x64_0_0)) (View.ld x5 (Rect.unit (s := S64x64) ![0, 0] S64x64.size inb_S64x64_S64x64_0_0)) (View.ld x4 (Rect.unit (s := S1x64) ![0, 0] S1x64.size inb_S1x64_S1x64_0_0)) (View.ld x6 (Rect.unit (s := S1x64) ![0, 0] S1x64.size inb_S1x64_S1x64_0_0))⟩]

/-- The one store covers the block. -/
theorem cover1_7 (p0 : Vec F S8000x64 .f32) (y : S8000x64.Idx) :
    ∃ pc ∈ ([⟨(Rect.unit (s := S8000x64) ![0, 0] S8000x64.size inb_S8000x64_S8000x64_0_0), p0⟩] : List (View.Piece (Elt F) S8000x64 .f32)), y ∈ pc.1.set :=
  View.cover_of_tiled [⟨(Rect.unit (s := S8000x64) ![0, 0] S8000x64.size inb_S8000x64_S8000x64_0_0), p0⟩] S8000x64.size (by rfl) y

set_option maxHeartbeats 4000000 in
/-- The kernel body on whole staging memrefs — the inputs' at contents `xW`, the output's at anything — runs to the
    continuation holding the inputs' as they were and the output's at `out1_7` of them. -/
theorem sound_kernel1 (c : Dev nD) (E : Set ℕ) (i : grid1.Coords)
    (arg0 : Memref sig .tc .vmem S8000x64 .f32) (harg0 : arg0.IsWhole) (arg1 : Memref sig .tc .vmem S8000x64 .f32) (harg1 : arg1.IsWhole) (arg2 : Memref sig .tc .vmem S8000x1 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S8000x64 .f32) (harg7 : arg7.IsWhole)
    (x0 : Vec F S8000x64 .f32) (x1 : Vec F S8000x64 .f32) (x2 : Vec F S8000x1 .f32) (x3 : Vec F S64x64 .f32) (x4 : Vec F S1x64 .f32) (x5 : Vec F S64x64 .f32) (x6 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out1_7 x0 x1 x2 x3 x4 x5 x6)) -∗ K ⟨⟩))
      ⊢ wp frame (wpE (defs₀ (F := F)) Variants.none c none) E (cc1_kernel i arg0 harg0 arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of this pipeline on core `c`: the arrays as the region finds them; after the body at point `t`
    each input's buffer at its block and the output's at `out1_7` of the input blocks; the scoped rest and the
    generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/-
  Region 2 of the program (the last layer with its log-softmax loss), at a PARAMETER `V`: the buffer contents the region is
  entered with.  The kernel is gridded over forty tiles of 2000 rows.  It keeps two 1 × 1 scratch accumulators across the
  tiles: it clears them at the first tile, adds the tile's masked loss sum to the first and its mask count to the second
  at every tile, and at the last tile stores (first) / max(second, 1) into its 1 × 1 output block, which is written back
  only then.
-/
import proofs.«400073_j76287209112086_3_alg».proof.Proof.Gen.KernelIdeal.Launch
import proofs.«400073_j76287209112086_3_alg».proof.Proof.Gen.KernelIdeal.Skeleton
import proofs.«400073_j76287209112086_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-block rectangle of a two-axis shape. -/
theorem zero_off : (![0, 0] : Fin 2 → Nat) = fun _ => 0 := funext fun a => by fin_cases a <;> rfl

/-- The loss total after a tile, from the tile's nine input blocks and the total before it. -/
abbrev nllAdd (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (s : Vec F S1x1 .f32) : Vec F S1x1 .f32 :=
  k2_pay2 (k2_pay7 x0 x2 x1 x3 x5 x4 x6) (k2_pay8 x0 x2 x1 x3 x5 x4 x6) (k2_pay9 x0 x2 x1 x3 x5 x4 x6) x7 x8 s

/-- The mask total after a tile, from the tile's mask block and the total before it. -/
abbrev maskAdd (x8 : Vec F S2000x1 .f32) (s : Vec F S1x1 .f32) : Vec F S1x1 .f32 := k2_pay3 x8 s

/-- The first conditional's condition (the grid coordinate is zero), from the grid coordinates. -/
abbrev cond2_0 (i : grid2.Coords) : Prop := (Scalar.cmpi .ne (Scalar.extui (Scalar.cmpi .eq (BitVec.ofNat 32 (i 0).val) 0#32)) 0#32) = 1#1
/-- The second conditional's condition (the grid coordinate is the last). -/
abbrev cond2_1 (i : grid2.Coords) : Prop := k2_cond2 i = 1#1

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile's 2000 × 40 logits, its row maxima and its rows' log-sum-exp remainders, from the point's input blocks
    (the kernel's first part's three results). -/
abbrev zb (c : Dev nD) (t : Fin cfg2.N) : FVec F S2000x40 .f32 :=
  k2_pay7 (iblk2 V c 0 t) (iblk2 V c 2 t) (iblk2 V c 1 t) (iblk2 V c 3 t) (iblk2 V c 5 t) (iblk2 V c 4 t) (iblk2 V c 6 t)
abbrev mb (c : Dev nD) (t : Fin cfg2.N) : FVec F S2000x1 .f32 :=
  k2_pay8 (iblk2 V c 0 t) (iblk2 V c 2 t) (iblk2 V c 1 t) (iblk2 V c 3 t) (iblk2 V c 5 t) (iblk2 V c 4 t) (iblk2 V c 6 t)
abbrev lb (c : Dev nD) (t : Fin cfg2.N) : FVec F S2000x1 .f32 :=
  k2_pay9 (iblk2 V c 0 t) (iblk2 V c 2 t) (iblk2 V c 1 t) (iblk2 V c 3 t) (iblk2 V c 5 t) (iblk2 V c 4 t) (iblk2 V c 6 t)

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- The first condition holds at the first point only — decided over the grid. -/
theorem hcond2_0 : ∀ t : Fin cfg2.N, cond2_0 (grid2.coords t) ↔ t.val % 40 = 0 :=
  (by decide +kernel : ∀ t : Fin grid2.N, cond2_0 (grid2.coords t) ↔ t.val % 40 = 0)
/-- The second condition holds at the last point only — decided over the grid. -/
theorem hcond2_1 : ∀ t : Fin cfg2.N, cond2_1 (grid2.coords t) ↔ t.val % 40 = 39 :=
  (by decide +kernel : ∀ t : Fin grid2.N, cond2_1 (grid2.coords t) ↔ t.val % 40 = 39)

/-- Where the second condition fails the output window is idle: the body stores nothing into it, -/
theorem idleAt2_9 : ∀ t : Fin cfg2.N, ¬cond2_1 (grid2.coords t) → cfg2.idle 9 (grid2.coords t) = true := by decide +kernel
/-- and its block is not written back; -/
theorem noFlush2_9 : ∀ t : Fin cfg2.N, ¬cond2_1 (grid2.coords t) → (cfg2.win 9).flush t = false := by decide +kernel
/-- where it holds the window is live. -/
theorem liveAt2_9 : ∀ t : Fin cfg2.N, cond2_1 (grid2.coords t) → cfg2.idle 9 (grid2.coords t) = false := by decide +kernel

/-- The two scratch accumulators as whole memrefs, as the pipeline passes them beside the windows. -/
abbrev scM2_0 : Memref sig .tc .vmem S1x1 .f32 := Memref.whole cc2_scratch0
abbrev scM2_1 : Memref sig .tc .vmem S1x1 .f32 := Memref.whole cc2_scratch1

/-- The class's invariant with the two accumulators split off as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-- A list of stores into a 1 × 1 block whose last store is of the whole block covers it. -/
theorem cover2 (w : Vec F S1x1 .f32) (L : List (View.Piece (Elt F) S1x1 .f32)) (y : S1x1.Idx) :
    ∃ pc ∈ ((⟨Rect.unit (s := S1x1) ![0, 0] S1x1.size inb_S1x1_S1x1_0_0, w⟩ : View.Piece (Elt F) S1x1 .f32) :: L), y ∈ pc.1.set :=
  ⟨_, List.mem_cons.mpr (Or.inl rfl), View.mem_set_unit_zero zero_off inb_S1x1_S1x1_0_0 y⟩

set_option maxHeartbeats 4000000 in
/-- The body at the first point (the first conditional taken, the second not): both totals are cleared, then the tile's
    sums added; the output's buffer is not touched. -/
theorem sound_kernel2_A (c : Dev nD) (E : Set ℕ) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S2000x1 .i32) (harg8 : arg8.IsWhole) (arg9 : Memref sig .tc .vmem S2000x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole)
    (hc0 : cond2_0 i) (hc1 : ¬cond2_1 i)
    (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (xi9 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare (nllAdd x0 x1 x2 x3 x4 x5 x6 x7 x8 (k2_pay5 (F := F))) ∗ owns (c : Thread nD τ) arg12 fullShare (maskAdd x8 (k2_pay6 (F := F)))) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    sl_unfold_words
    rw [View.read_writes_eq_canon _ _ _ (cover2 _ _), View.canon_cons_unit_zero (S := S1x1) zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  iexists _; isplitr
  swap; · iexact HS1
  ipureintro
  sl_unfold_words
  rw [View.read_writes_eq_canon _ _ _ (cover2 _ _), View.canon_cons_unit_zero (S := S1x1) zero_off]
  simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]

set_option maxHeartbeats 4000000 in
/-- The body at a middle point (neither conditional taken): the tile's sums are added to the totals the point before
    left; the output's buffer is not touched. -/
theorem sound_kernel2_B (c : Dev nD) (E : Set ℕ) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S2000x1 .i32) (harg8 : arg8.IsWhole) (arg9 : Memref sig .tc .vmem S2000x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole)
    (hc0 : ¬cond2_0 i) (hc1 : ¬cond2_1 i)
    (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (xi9 xs0 xs1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0 ∗ owns (c : Thread nD τ) arg12 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare (nllAdd x0 x1 x2 x3 x4 x5 x6 x7 x8 xs0) ∗ owns (c : Thread nD τ) arg12 fullShare (maskAdd x8 xs1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
  subst hf0; subst hf1; subst hf2; subst hf3; subst hf4; subst hf5; subst hf6; subst hf7; subst hf8; subst hf9; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HS0]
  · iexists _; isplitr
    swap; · iexact HS0
    ipureintro
    sl_unfold_words
    rw [View.read_writes_eq_canon _ _ _ (cover2 _ _), View.canon_unit_zero zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  iexists _; isplitr
  swap; · iexact HS1
  ipureintro
  sl_unfold_words
  rw [View.read_writes_eq_canon _ _ _ (cover2 _ _), View.canon_unit_zero zero_off]
  simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]

set_option maxHeartbeats 4000000 in
/-- The body at the last point (the second conditional taken, the first not): the tile's sums are added to the totals,
    and the loss total over max(the mask total, 1) is stored into the output's buffer. -/
theorem sound_kernel2_C (c : Dev nD) (E : Set ℕ) (i : grid2.Coords)
    (arg1 : Memref sig .tc .vmem S2000x64 .f32) (harg1 : arg1.IsWhole) (arg2 : Memref sig .tc .vmem S2000x64 .f32) (harg2 : arg2.IsWhole) (arg3 : Memref sig .tc .vmem S2000x1 .f32) (harg3 : arg3.IsWhole) (arg4 : Memref sig .tc .vmem S64x40 .f32) (harg4 : arg4.IsWhole) (arg5 : Memref sig .tc .vmem S1x40 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S2000x1 .i32) (harg8 : arg8.IsWhole) (arg9 : Memref sig .tc .vmem S2000x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole)
    (hc0 : ¬cond2_0 i) (hc1 : cond2_1 i)
    (x0 : Vec F S2000x64 .f32) (x1 : Vec F S2000x64 .f32) (x2 : Vec F S2000x1 .f32) (x3 : Vec F S64x40 .f32) (x4 : Vec F S1x40 .f32) (x5 : Vec F S64x40 .f32) (x6 : Vec F S1x40 .f32) (x7 : Vec F S2000x1 .i32) (x8 : Vec F S2000x1 .f32) (xs0 xs1 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0 ∗ owns (c : Thread nD τ) arg12 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k2_pay4 (maskAdd x8 xs1) (nllAdd x0 x1 x2 x3 x4 x5 x6 x7 x8 xs0)) ∗ owns (c : Thread nD τ) arg11 fullShare (nllAdd x0 x1 x2 x3 x4 x5 x6 x7 x8 xs0) ∗ owns (c : Thread nD τ) arg12 fullShare (maskAdd x8 xs1)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12) K := by
  simp only [cc2_kernel_eq_skeleton]; unfold cc2_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, Hk⟩
  subst hf0; subst hf1; subst hf2; subst hf3; subst hf4; subst hf5; subst hf6; subst hf7; subst hf8; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.read_writes_eq_canon _ _ _ (cover2 _ _), View.canon_unit_zero zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  isplitl [HS0]
  · iexists _; isplitr
    swap; · iexact HS0
    ipureintro
    sl_unfold_words
    rw [View.read_writes_eq_canon _ _ _ (cover2 _ _), View.canon_unit_zero zero_off]
    simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]
  iexists _; isplitr
  swap; · iexact HS1
  ipureintro
  sl_unfold_words
  rw [View.read_writes_eq_canon _ _ _ (cover2 _ _), View.canon_unit_zero zero_off]
  simp only [View.readAt_eq_ld, View.readCov_unit_zero (S := S1x1) _ zero_off, View.ld_unit_zero (S := S2000x64) zero_off, View.ld_unit_zero (S := S2000x1) zero_off, View.ld_unit_zero (S := S64x40) zero_off, View.ld_unit_zero (S := S1x40) zero_off, View.ld_unit_zero (S := S1x1) zero_off]

/-- THE TWO TOTALS after the body at position `n` (the loss total, the mask total): cleared at the first tile, then each
    tile's masked loss sum and mask count added to what the tile before left. -/
noncomputable def accs2 (c : Dev nD) : (n : ℕ) → n < cfg2.N → Vec F S1x1 .f32 × Vec F S1x1 .f32
  | 0, h => (nllAdd (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (k2_pay5 (F := F)), maskAdd (iblk2 V c 8 ⟨0, h⟩) (k2_pay6 (F := F)))
  | n + 1, h => (nllAdd (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (accs2 c n (Nat.lt_of_succ_lt h)).1,
      maskAdd (iblk2 V c 8 ⟨n + 1, h⟩) (accs2 c n (Nat.lt_of_succ_lt h)).2)

/-- THE ACCUMULATION.  After the body at position `n`: (the output window's staging buffer, the first scratch — the loss
    total —, the second scratch — the mask total).  The first component is what the last tile stores, the loss total over
    max(the mask total, 1); at the other tiles the window is idle and nothing consults it. -/
noncomputable def outsAt2 (c : Dev nD) : (n : ℕ) → n < cfg2.N → Vec F S1x1 .f32 × Vec F S1x1 .f32 × Vec F S1x1 .f32 :=
  fun n h => (k2_pay4 (accs2 V c n h).2 (accs2 V c n h).1, (accs2 V c n h).1, (accs2 V c n h).2)

theorem outsAt2_out (c : Dev nD) (n : ℕ) (h : n < cfg2.N) : (outsAt2 V c n h).1 = k2_pay4 (accs2 V c n h).2 (accs2 V c n h).1 := rfl
theorem outsAt2_nll (c : Dev nD) (n : ℕ) (h : n < cfg2.N) : (outsAt2 V c n h).2.1 = (accs2 V c n h).1 := rfl
theorem outsAt2_mask (c : Dev nD) (n : ℕ) (h : n < cfg2.N) : (outsAt2 V c n h).2.2 = (accs2 V c n h).2 := rfl

/-- The loss total after the first tile: the cleared scratch plus the tile's sum. -/
theorem nll_acc_zero (c : Dev nD) (h0 : 0 < cfg2.N) :
    (outsAt2 V c 0 h0).2.1 = k2_pay2 (zb V c ⟨0, h0⟩) (mb V c ⟨0, h0⟩) (lb V c ⟨0, h0⟩) (iblk2 V c 7 ⟨0, h0⟩) (iblk2 V c 8 ⟨0, h0⟩) (k2_pay5 (F := F)) := rfl
/-- The loss total after a later tile: what the tile before left plus the tile's sum. -/
theorem nll_acc_succ (c : Dev nD) (n : ℕ) (hn : n + 1 < cfg2.N) :
    (outsAt2 V c (n + 1) hn).2.1 = k2_pay2 (zb V c ⟨n + 1, hn⟩) (mb V c ⟨n + 1, hn⟩) (lb V c ⟨n + 1, hn⟩) (iblk2 V c 7 ⟨n + 1, hn⟩) (iblk2 V c 8 ⟨n + 1, hn⟩)
      (outsAt2 V c n (Nat.lt_of_succ_lt hn)).2.1 := rfl
/-- The mask total after the first tile. -/
theorem mask_acc_zero (c : Dev nD) (h0 : 0 < cfg2.N) :
    (outsAt2 V c 0 h0).2.2 = k2_pay3 (iblk2 V c 8 ⟨0, h0⟩) (k2_pay6 (F := F)) := rfl
/-- The mask total after a later tile. -/
theorem mask_acc_succ (c : Dev nD) (n : ℕ) (hn : n + 1 < cfg2.N) :
    (outsAt2 V c (n + 1) hn).2.2 = k2_pay3 (iblk2 V c 8 ⟨n + 1, hn⟩) (outsAt2 V c n (Nat.lt_of_succ_lt hn)).2.2 := rfl
/-- The output block after the last tile: the loss total over max(the mask total, 1). -/
theorem out_last (c : Dev nD) (h : 39 < cfg2.N) :
    (outsAt2 V c 39 h).1 = k2_pay4 (outsAt2 V c 39 h).2.2 (outsAt2 V c 39 h).2.1 := rfl

/-- The totals after the first point, at a point known to be the first. -/
theorem nll_first (c : Dev nD) (t : Fin cfg2.N) (hz : t.val = 0) :
    (accs2 V c t.val t.isLt).1 = nllAdd (iblk2 V c 0 t) (iblk2 V c 1 t) (iblk2 V c 2 t) (iblk2 V c 3 t) (iblk2 V c 4 t) (iblk2 V c 5 t) (iblk2 V c 6 t) (iblk2 V c 7 t) (iblk2 V c 8 t) (k2_pay5 (F := F)) := by
  obtain ⟨n, hn⟩ := t
  cases n with
  | zero => rfl
  | succ n => exact absurd hz (Nat.succ_ne_zero n)
theorem mask_first (c : Dev nD) (t : Fin cfg2.N) (hz : t.val = 0) :
    (accs2 V c t.val t.isLt).2 = maskAdd (iblk2 V c 8 t) (k2_pay6 (F := F)) := by
  obtain ⟨n, hn⟩ := t
  cases n with
  | zero => rfl
  | succ n => exact absurd hz (Nat.succ_ne_zero n)
/-- The totals after a later point, over what the point before left. -/
theorem nll_later (c : Dev nD) (t : Fin cfg2.N) (hz : t.val ≠ 0) :
    (accs2 V c t.val t.isLt).1 = nllAdd (iblk2 V c 0 t) (iblk2 V c 1 t) (iblk2 V c 2 t) (iblk2 V c 3 t) (iblk2 V c 4 t) (iblk2 V c 5 t) (iblk2 V c 6 t) (iblk2 V c 7 t) (iblk2 V c 8 t) (accs2 V c (t.val - 1) (Nat.lt_of_le_of_lt (Nat.sub_le _ _) t.isLt)).1 := by
  obtain ⟨n, hn⟩ := t
  cases n with
  | zero => exact absurd rfl hz
  | succ n => rfl
theorem mask_later (c : Dev nD) (t : Fin cfg2.N) (hz : t.val ≠ 0) :
    (accs2 V c t.val t.isLt).2 = maskAdd (iblk2 V c 8 t) (accs2 V c (t.val - 1) (Nat.lt_of_le_of_lt (Nat.sub_le _ _) t.isLt)).2 := by
  obtain ⟨n, hn⟩ := t
  cases n with
  | zero => exact absurd rfl hz
  | succ n => rfl

/-- The region invariant before position `n`: before the first point the class's (every scratch at anything); afterwards
    the scoped rest with the two scratch accumulators at what the point before left, and the generator register. -/
noncomputable def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.1 ∗ owns (c : Thread nD τ) scM2_1 fullShare (outsAt2 V c n hn).2.2)
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's totals. -/
theorem PhiS2_succ (c : Dev nD) (n : ℕ) (hn : n < cfg2.N) :
    PhiS2 V c (n + 1) hn = iprop(iprop(iprop(owns (c : Thread nD τ) scM2_0 fullShare (outsAt2 V c n hn).2.1 ∗ owns (c : Thread nD τ) scM2_1 fullShare (outsAt2 V c n hn).2.2)
          ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.1 ∗ owns (c : Thread nD τ) scM2_1 fullShare (outsAt2 V c (n - 1) (by omega)).2.2)
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_9 (c : Dev nD) (t : Fin cfg2.N) : (dat2 V c).after 9 t = (outsAt2 V c t.val t.isLt).1 := by dsimp only [dat2]

/-- What the body leaves in each input window's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- The input windows are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl

/-- So the obligation's post for an input window is its buffer at its block. -/
theorem leaves2_0 (c : Dev nD) (t : Fin cfg2.N) : (dat2 V c).leavesExact 0 t = owns (c : Thread nD τ) (st2_0 t) fullShare (iblk2 V c 0 t) := by
  unfold Dat.leavesExact; rw [liveAt2_0 t, after2_0]
theorem leaves2_1 (c : Dev nD) (t : Fin cfg2.N) : (dat2 V c).leavesExact 1 t = owns (c : Thread nD τ) (st2_1 t) fullShare (iblk2 V c 1 t) := by
  unfold Dat.leavesExact; rw [liveAt2_1 t, after2_1]
theorem leaves2_2 (c : Dev nD) (t : Fin cfg2.N) : (dat2 V c).leavesExact 2 t = owns (c : Thread nD τ) (st2_2 t) fullShare (iblk2 V c 2 t) := by
  unfold Dat.leavesExact; rw [liveAt2_2 t, after2_2]
theorem leaves2_3 (c : Dev nD) (t : Fin cfg2.N) : (dat2 V c).leavesExact 3 t = owns (c : Thread nD τ) (st2_3 t) fullShare (iblk2 V c 3 t) := by
  unfold Dat.leavesExact; rw [liveAt2_3 t, after2_3]
theorem leaves2_4 (c : Dev nD) (t : Fin cfg2.N) : (dat2 V c).leavesExact 4 t = owns (c : Thread nD τ) (st2_4 t) fullShare (iblk2 V c 4 t) := by
  unfold Dat.leavesExact; rw [liveAt2_4 t, after2_4]
theorem leaves2_5 (c : Dev nD) (t : Fin cfg2.N) : (dat2 V c).leavesExact 5 t = owns (c : Thread nD τ) (st2_5 t) fullShare (iblk2 V c 5 t) := by
  unfold Dat.leavesExact; rw [liveAt2_5 t, after2_5]
theorem leaves2_6 (c : Dev nD) (t : Fin cfg2.N) : (dat2 V c).leavesExact 6 t = owns (c : Thread nD τ) (st2_6 t) fullShare (iblk2 V c 6 t) := by
  unfold Dat.leavesExact; rw [liveAt2_6 t, after2_6]
theorem leaves2_7 (c : Dev nD) (t : Fin cfg2.N) : (dat2 V c).leavesExact 7 t = owns (c : Thread nD τ) (st2_7 t) fullShare (iblk2 V c 7 t) := by
  unfold Dat.leavesExact; rw [liveAt2_7 t, after2_7]
theorem leaves2_8 (c : Dev nD) (t : Fin cfg2.N) : (dat2 V c).leavesExact 8 t = owns (c : Thread nD τ) (st2_8 t) fullShare (iblk2 V c 8 t) := by
  unfold Dat.leavesExact; rw [liveAt2_8 t, after2_8]

/-- The invariant at a point's start, restated at the point's position. -/
theorem PhiS2_castSucc (c : Dev nD) (t : Fin cfg2.N) :
    (dat2 V c).Φ t.castSucc = PhiS2 V c t.val (Nat.le_of_lt t.isLt) := rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 4000000 in
/-- The body at any point: the inputs' memrefs hold their blocks; the decided conditions say which of the three cases the
    point is in; the invariant hands the body the two accumulators at what the point before left (at anything at the first
    point) and takes them back at this point's totals; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5, leaves2_6, leaves2_7, leaves2_8]
  simp only [outsAt2_nll, outsAt2_mask]
  have hN : t.val < 40 := lt_of_lt_of_eq t.isLt (show cfg2.N = 40 from N_2)
  by_cases h0 : t.val % 40 = 0
  · by_cases h1 : t.val % 40 = 39
    · exfalso; omega
    · have hz : t.val = 0 := by omega
      rw [Dat.leavesExact_idle (dat2 V c) 9 t (idleAt2_9 t (fun h => h1 ((hcond2_1 t).mp h))) (noFlush2_9 t (fun h => h1 ((hcond2_1 t).mp h)))]
      rw [nll_first V c t hz, mask_first V c t hz]
      rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_A c Set.univ (grid2.coords t) _ _ _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) ((dat2 V c).before 9 t d9) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := by omega
    by_cases h1 : t.val % 40 = 39
    · rw [show (dat2 V c).leavesExact 9 t = owns (c : Thread nD τ) (st2_9 t) fullShare ((dat2 V c).after 9 t) from by
        unfold Dat.leavesExact; rw [liveAt2_9 t ((hcond2_1 t).mpr h1)], after2_9, outsAt2_out]
      rw [nll_later V c t hz, mask_later V c t hz]
      rw [PhiS2_castSucc V c t, PhiS2_pos V c _ _ hz]
      simp only [outsAt2_nll, outsAt2_mask]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) _ _ _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) (iblk2 V c 6 t) (iblk2 V c 7 t) (iblk2 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dat2 V c) 9 t (idleAt2_9 t (fun h => h1 ((hcond2_1 t).mp h))) (noFlush2_9 t (fun h => h1 ((hcond2_1 t).mp h)))]
      rw [nll_later V c t hz, mask_later V c t hz]
      rw [PhiS2_castSucc V c t, PhiS2_pos V c _ _ hz]
      simp only [outsAt2_nll, outsAt2_mask]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) _ _ _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) ((dat2 V c).before 9 t d9) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 (F := F) V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- After the last point the invariant gives the class's back: the accumulators' named contents are forgotten. -/
theorem hout2 (c : Dev nD) : (dat2 (F := F) V c).Φ (Fin.last cfg2.N) ⊢ Pipeline.ΦA spec2 c :=
  Phi_out2 V c _ (by rw [Fin.val_last]; have : cfg2.N = 40 := N_2; omega)

end Cert.KernelIdeal.Hand

end
-- ==== Proof.KIRun.lean ====
/-
  The whole run of @main: three host stretches, region 0, a host stretch, region 1, a host stretch, region 2, a last
  host operation.  The buffer contents at every boundary are a fold from the launch memory — a host stretch's
  `StableHlo.after`, a region's arrays at what its write-backs leave (the inputs as entered, the output's blocks folded),
  every other buffer as it was —; each pipeline's proof data sits at its region's entry contents; each host stretch and
  each region is a segment over the thread state "every unscoped buffer at the boundary's contents, the generator register
  at some state, nothing owed"; and the launch theorem for a list of segments gives: every weakly fair execution
  terminates, and every unscoped buffer ends at the last boundary's contents.  The argument arrays walk back through the
  fold to the launch memory, which is the frame claim.
-/
import proofs.«400073_j76287209112086_3_alg».proof.Proof.KIReg0
import proofs.«400073_j76287209112086_3_alg».proof.Proof.KIReg1
import proofs.«400073_j76287209112086_3_alg».proof.Proof.KIReg2
import proofs.«400073_j76287209112086_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first three host stretches (region 0's entry). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev Vr3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (Vr3 m ρ) c).arrAt w cfg0.N
abbrev Vr4 : (c : Dev nD) → (b : Ref sig .tc) → Buf (Elt F) ((c : Thread nD τ).loc b) := fun c b => W4 m ρ c b
/-- After the next host stretch (region 1's entry). -/
abbrev W5 : Dev nD → Valuation τ sig (Elt F) := fun c => StableHlo.after hostOps1 (W4 m ρ c)
abbrev Vr5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (Vr5 m ρ) c).arrAt w cfg1.N
abbrev Vr6 : (c : Dev nD) → (b : Ref sig .tc) → Buf (Elt F) ((c : Thread nD τ).loc b) := fun c b => W6 m ρ c b
/-- After the next host stretch (region 2's entry). -/
abbrev W7 : Dev nD → Valuation τ sig (Elt F) := fun c => StableHlo.after hostOps2 (W6 m ρ c)
abbrev Vr7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (Vr7 m ρ) c).arrAt w cfg2.N
abbrev Vr8 : (c : Dev nD) → (b : Ref sig .tc) → Buf (Elt F) ((c : Thread nD τ).loc b) := fun c b => W8 m ρ c b
/-- After the last host operation: the contents @main returns with. -/
abbrev W9 : Dev nD → Valuation τ sig (Elt F) := fun c => StableHlo.after hostOps3 (W8 m ρ c)

theorem W4_arr (c : Dev nD) (w : Fin cfg0.W) :
    W4 m ρ c (Proc.devRef .tc (Pipeline.arrRef spec0 w)) = (dat0 (Vr3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem hF0 (c : Dev nD) (w : Fin cfg0.W) : (dat0 (Vr3 m ρ) c).arrAt w cfg0.N = Vr4 m ρ c (Pipeline.arrRef spec0 w) :=
  (W4_arr m ρ c w).symm
theorem hrest0 (c : Dev nD) : ∀ b, b ∉ Finset.univ.image (Pipeline.arrRef spec0) → Vr4 m ρ c b = Vr3 m ρ c b :=
  fun b hb => W4_of_ne m ρ c b fun w e => hb (Finset.mem_image.mpr ⟨w, Finset.mem_univ _, e⟩)

theorem W6_arr (c : Dev nD) (w : Fin cfg1.W) :
    W6 m ρ c (Proc.devRef .tc (Pipeline.arrRef spec1 w)) = (dat1 (Vr5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (Vr5 m ρ) c).arrAt w cfg1.N = Vr6 m ρ c (Pipeline.arrRef spec1 w) :=
  (W6_arr m ρ c w).symm
theorem hrest1 (c : Dev nD) : ∀ b, b ∉ Finset.univ.image (Pipeline.arrRef spec1) → Vr6 m ρ c b = Vr5 m ρ c b :=
  fun b hb => W6_of_ne m ρ c b fun w e => hb (Finset.mem_image.mpr ⟨w, Finset.mem_univ _, e⟩)

theorem W8_arr (c : Dev nD) (w : Fin cfg2.W) :
    W8 m ρ c (Proc.devRef .tc (Pipeline.arrRef spec2 w)) = (dat2 (Vr7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem hF2 (c : Dev nD) (w : Fin cfg2.W) : (dat2 (Vr7 m ρ) c).arrAt w cfg2.N = Vr8 m ρ c (Pipeline.arrRef spec2 w) :=
  (W8_arr m ρ c w).symm
theorem hrest2 (c : Dev nD) : ∀ b, b ∉ Finset.univ.image (Pipeline.arrRef spec2) → Vr8 m ρ c b = Vr7 m ρ c b :=
  fun b hb => W8_of_ne m ρ c b fun w e => hb (Finset.mem_image.mpr ⟨w, Finset.mem_univ _, e⟩)

/-! ## The argument arrays end as launched -/

/-- A buffer no host stretch writes and no region stages walks back through the fold to the launch memory. -/
theorem W9_of_untouched (c : Dev nD) (r : Ref sig .tc)
    (h0 : r ∉ hostOps0_W) (h1 : r ∉ hostOps0_1_W) (h2 : r ∉ hostOps0_2_W) (h4 : r ∉ hostOps1_W) (h6 : r ∉ hostOps2_W) (h8 : r ∉ hostOps3_W)
    (hr0 : ∀ w, Pipeline.arrRef spec0 w ≠ r) (hr1 : ∀ w, Pipeline.arrRef spec1 w ≠ r) (hr2 : ∀ w, Pipeline.arrRef spec2 w ≠ r) :
    W9 m ρ c (Proc.devRef .tc r) = m ((c : Thread nD τ).loc r) :=
  (StableHlo.after_of_writes_sub hostOps3 _ hostOps3_writes h8).trans <|
  (W8_of_ne m ρ c r hr2).trans <|
  (StableHlo.after_of_writes_sub hostOps2 _ hostOps2_writes h6).trans <|
  (W6_of_ne m ρ c r hr1).trans <|
  (StableHlo.after_of_writes_sub hostOps1 _ hostOps1_writes h4).trans <|
  (W4_of_ne m ρ c r hr0).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The features array is staged by region 0 as an input window: the region hands it back as entered. -/
theorem W9_main_arg0 (c : Dev nD) : W9 m ρ c (Proc.devRef .tc main_arg0) = m ((c : Thread nD τ).loc main_arg0) :=
  (StableHlo.after_of_writes_sub hostOps3 _ hostOps3_writes (by decide)).trans <|
  (W8_of_ne m ρ c main_arg0 (by decide)).trans <|
  (StableHlo.after_of_writes_sub hostOps2 _ hostOps2_writes (by decide)).trans <|
  (W6_of_ne m ρ c main_arg0 (by decide)).trans <|
  (StableHlo.after_of_writes_sub hostOps1 _ hostOps1_writes (by decide)).trans <|
  ((W4_arr m ρ c 1).trans (((dat0 (Vr3 m ρ) c).arrAt_in 1 rfl _).trans (A_eq0 (Vr3 m ρ) c 1))).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

theorem W9_main_arg1 (c : Dev nD) : W9 m ρ c (Proc.devRef .tc main_arg1) = m ((c : Thread nD τ).loc main_arg1) :=
  W9_of_untouched m ρ c main_arg1 (by decide) (by decide) (by decide) (by decide) (by decide) (by decide) (by decide) (by decide) (by decide)
theorem W9_main_arg2 (c : Dev nD) : W9 m ρ c (Proc.devRef .tc main_arg2) = m ((c : Thread nD τ).loc main_arg2) :=
  W9_of_untouched m ρ c main_arg2 (by decide) (by decide) (by decide) (by decide) (by decide) (by decide) (by decide) (by decide) (by decide)
theorem W9_main_arg3 (c : Dev nD) : W9 m ρ c (Proc.devRef .tc main_arg3) = m ((c : Thread nD τ).loc main_arg3) :=
  W9_of_untouched m ρ c main_arg3 (by decide) (by decide) (by decide) (by decide) (by decide) (by decide) (by decide) (by decide) (by decide)
theorem W9_main_arg4 (c : Dev nD) : W9 m ρ c (Proc.devRef .tc main_arg4) = m ((c : Thread nD τ).loc main_arg4) :=
  W9_of_untouched m ρ c main_arg4 (by decide) (by decide) (by decide) (by decide) (by decide) (by decide) (by decide) (by decide) (by decide)
theorem W9_main_arg5 (c : Dev nD) : W9 m ρ c (Proc.devRef .tc main_arg5) = m ((c : Thread nD τ).loc main_arg5) :=
  W9_of_untouched m ρ c main_arg5 (by decide) (by decide) (by decide) (by decide) (by decide) (by decide) (by decide) (by decide) (by decide)
theorem W9_main_arg6 (c : Dev nD) : W9 m ρ c (Proc.devRef .tc main_arg6) = m ((c : Thread nD τ).loc main_arg6) :=
  W9_of_untouched m ρ c main_arg6 (by decide) (by decide) (by decide) (by decide) (by decide) (by decide) (by decide) (by decide) (by decide)
theorem W9_main_arg7 (c : Dev nD) : W9 m ρ c (Proc.devRef .tc main_arg7) = m ((c : Thread nD τ).loc main_arg7) :=
  W9_of_untouched m ρ c main_arg7 (by decide) (by decide) (by decide) (by decide) (by decide) (by decide) (by decide) (by decide) (by decide)
theorem W9_main_arg8 (c : Dev nD) : W9 m ρ c (Proc.devRef .tc main_arg8) = m ((c : Thread nD τ).loc main_arg8) :=
  W9_of_untouched m ρ c main_arg8 (by decide) (by decide) (by decide) (by decide) (by decide) (by decide) (by decide) (by decide) (by decide)
theorem W9_main_arg9 (c : Dev nD) : W9 m ρ c (Proc.devRef .tc main_arg9) = m ((c : Thread nD τ).loc main_arg9) :=
  W9_of_untouched m ρ c main_arg9 (by decide) (by decide) (by decide) (by decide) (by decide) (by decide) (by decide) (by decide) (by decide)
theorem W9_main_arg10 (c : Dev nD) : W9 m ρ c (Proc.devRef .tc main_arg10) = m ((c : Thread nD τ).loc main_arg10) :=
  W9_of_untouched m ρ c main_arg10 (by decide) (by decide) (by decide) (by decide) (by decide) (by decide) (by decide) (by decide) (by decide)
theorem W9_main_arg11 (c : Dev nD) : W9 m ρ c (Proc.devRef .tc main_arg11) = m ((c : Thread nD τ).loc main_arg11) :=
  W9_of_untouched m ρ c main_arg11 (by decide) (by decide) (by decide) (by decide) (by decide) (by decide) (by decide) (by decide) (by decide)
theorem W9_main_arg12 (c : Dev nD) : W9 m ρ c (Proc.devRef .tc main_arg12) = m ((c : Thread nD τ).loc main_arg12) :=
  W9_of_untouched m ρ c main_arg12 (by decide) (by decide) (by decide) (by decide) (by decide) (by decide) (by decide) (by decide) (by decide)
theorem W9_main_arg13 (c : Dev nD) : W9 m ρ c (Proc.devRef .tc main_arg13) = m ((c : Thread nD τ).loc main_arg13) :=
  W9_of_untouched m ρ c main_arg13 (by decide) (by decide) (by decide) (by decide) (by decide) (by decide) (by decide) (by decide) (by decide)
theorem W9_main_arg14 (c : Dev nD) : W9 m ρ c (Proc.devRef .tc main_arg14) = m ((c : Thread nD τ).loc main_arg14) :=
  W9_of_untouched m ρ c main_arg14 (by decide) (by decide) (by decide) (by decide) (by decide) (by decide) (by decide) (by decide) (by decide)
theorem W9_main_arg15 (c : Dev nD) : W9 m ρ c (Proc.devRef .tc main_arg15) = m ((c : Thread nD τ).loc main_arg15) :=
  W9_of_untouched m ρ c main_arg15 (by decide) (by decide) (by decide) (by decide) (by decide) (by decide) (by decide) (by decide) (by decide)

/-! ## The proof data family and the thread state -/

/-- The prefetched tables' admissible contents: no pipeline has a table. -/
abbrev admH : (p : Fin 3) → (pcfgs (F := F) p).Adm := fun p => (cfgs p).toPCfg_adm
/-- Every pipeline's proof data, each at its region's entry contents. -/
def pdatsH : (p : Fin 3) → (c : Dev nD) → Dat τ (Elt F) Unit ℕ (UR sig nD τ) ℕ (Pipeline.pin (pcfgs (F := F)) admH p) c
  | ⟨0, _⟩ => fun c => dat0 (Vr3 m ρ) c
  | ⟨1, _⟩ => fun c => dat1 (Vr5 m ρ) c
  | ⟨2, _⟩ => fun c => dat2 (Vr7 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core's `owes`, at nothing. -/
abbrev RH (c : Dev nD) : sProp 𝕄 := iprop((∃ r, prngReg c r) ∗ ∃ W, owes (c : Thread nD τ) (0 : CellTallies nD τ sig Unit) W)
/-- A host stretch as a segment. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W3`, left at `W4`.  Its arrays
    split out of the unscoped buffers and put back at the exit contents; the generator register into the region's
    invariant and out; nothing owed; no semaphore of the kernel's own. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vr3 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vr3 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vr3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vr3 m ρ c) (Vr4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`.  Its arrays
    split out of the unscoped buffers and put back at the exit contents; the generator register into the region's
    invariant and out; nothing owed; no semaphore of the kernel's own. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vr5 m ρ) c).loose
  hwaits := Pipeline.hwaits_of_owed_zero _ _ _ _ LH lvH 1 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vr5 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vr5 m ρ c) (Vr6 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`.  Its arrays
    split out of the unscoped buffers and put back at the exit contents; the generator register into the region's
    invariant and out; nothing owed; no semaphore of the kernel's own. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vr7 m ρ) c).loose
  hwaits := Pipeline.hwaits_of_owed_zero _ _ _ _ LH lvH 2 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vr7 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (Vr7 m ρ) c
    unfold Pipeline.ΦA at h
    rw [show (pdatsH m ρ 2 c).Φ 0 = (dat2 (Vr7 m ρ) c).Φ 0 from rfl]
    iintro ⟨Hp, -, Hr⟩
    iapply h
    isplitl [Hr]; · iexact Hr
    iexact Hp
  hout c := by
    have h := hout2 (Vr7 m ρ) c
    unfold Pipeline.ΦA at h
    rw [Pipeline.ownSems0_none, show (pdatsH m ρ 2 c).Φ (Fin.last _) = (dat2 (Vr7 m ρ) c).Φ (Fin.last _) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vr7 m ρ c) (Vr8 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segsH : List (Pipeline.Seg (pcfgs (F := F)) admH (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (regH0 m ρ),
    .host (hsegH hostOps1 hostOps1_sub hostOps1_fresh (W4 m ρ)),
    .region (regH1 m ρ),
    .host (hsegH hostOps2 hostOps2_sub hostOps2_fresh (W6 m ρ)),
    .region (regH2 m ρ),
    .host (hsegH hostOps3 hostOps3_sub hostOps3_fresh (W8 m ρ)) ]

/-- @main IS the run of the segments. -/
theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every unscoped buffer of every core ends at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ RH c) ⊢ _
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c =>
    ⟨(h c _ (mem_ucH main_arg0 (by decide))).trans (W9_main_arg0 m ρ c),
      (h c _ (mem_ucH main_arg1 (by decide))).trans (W9_main_arg1 m ρ c),
      (h c _ (mem_ucH main_arg2 (by decide))).trans (W9_main_arg2 m ρ c),
      (h c _ (mem_ucH main_arg3 (by decide))).trans (W9_main_arg3 m ρ c),
      (h c _ (mem_ucH main_arg4 (by decide))).trans (W9_main_arg4 m ρ c),
      (h c _ (mem_ucH main_arg5 (by decide))).trans (W9_main_arg5 m ρ c),
      (h c _ (mem_ucH main_arg6 (by decide))).trans (W9_main_arg6 m ρ c),
      (h c _ (mem_ucH main_arg7 (by decide))).trans (W9_main_arg7 m ρ c),
      (h c _ (mem_ucH main_arg8 (by decide))).trans (W9_main_arg8 m ρ c),
      (h c _ (mem_ucH main_arg9 (by decide))).trans (W9_main_arg9 m ρ c),
      (h c _ (mem_ucH main_arg10 (by decide))).trans (W9_main_arg10 m ρ c),
      (h c _ (mem_ucH main_arg11 (by decide))).trans (W9_main_arg11 m ρ c),
      (h c _ (mem_ucH main_arg12 (by decide))).trans (W9_main_arg12 m ρ c),
      (h c _ (mem_ucH main_arg13 (by decide))).trans (W9_main_arg13 m ρ c),
      (h c _ (mem_ucH main_arg14 (by decide))).trans (W9_main_arg14 m ρ c),
      (h c _ (mem_ucH main_arg15 (by decide))).trans (W9_main_arg15 m ρ c)⟩) (run m ρ)

end Cert.KernelIdeal.Hand

end
-- ==== Proof.Spec.lean ====
/-
  The mathematics both programs compute, as functions on the extended reals.

  A GraphSAGE stack with mean aggregation: three layers
      h ↦ (A h · d) Wlᵀ + bl + h Wrᵀ + br
  (the first two followed by max(·, 0)), where A sums the rows of h over each node's incoming edges and d is the
  reciprocal in-degree (zero for an isolated node); then a row-wise log-softmax of the last layer's 40 columns, the
  negative log-likelihood of each row's label, and its mean over the rows a mask selects.

  The aggregation `A` and the degree column `d` enter the layer formulas as PARAMETERS: nothing below looks inside
  them.  `AG` and `DG` are the two host computations that both programs instantiate them with.

  Two spellings of the loss are stated.  `lossK` is the tile-wise one: per row, (max + log Σ exp(· − max)) minus the
  label's logit picked by a one-hot product, summed over 40 tiles of 2000 rows into a running total.  `lossR` is the
  row-wise one: minus the label's entry of (z − max) − log Σ exp(z − max), summed over all 80000 rows at once.
-/
import proofs.«400073_j76287209112086_3_alg».proof.KernelIdeal
import Idealize.ShloMosaic.PureOps.Ideal
import Idealize.ShloMosaic.Lib.ValueIdx

noncomputable section

namespace Cert.Spec

open Idealize.ShloMosaic Idealize.ShloMosaic.ValueIdx
open Cert.KernelIdeal

variable [Cert.KernelIdeal.Facts]
open Cert.KernelIdeal.Facts₀ Cert.KernelIdeal.Facts

/-- The logits' shape: 80000 rows of 40 classes. -/
abbrev S80000x40 : Shape := ⟨2, ![80000, 40]⟩

/-- Every entry is a real number (neither infinity). -/
def IsFin {s : Shape} (v : s.Idx → EReal) : Prop := ∀ i, ∃ r : ℝ, v i = (r : EReal)

/-- The label array read by row, and the mask array read by row as a number (1 where set, 0 where clear). -/
def yOf (y : IVec S80000 32) (p : Fin 80000) : BitVec 32 := y (ix1 p)
def mOf (mk : IVec S80000 1) (p : Fin 80000) : EReal := (((mk (ix1 p)).toNat : ℝ) : EReal)

/-- Every label is one of the 40 classes. -/
def LabelsOk (yv : Fin 80000 → BitVec 32) : Prop := ∀ p : Fin 80000, (yv p).toNat < 40

/-! ## The aggregation and the degree column, as the host computes them from the edge list -/

/-- Row 0 of the edge list: each edge's destination node, as a column of scatter indices. -/
def dstIdx (e : IVec S2x1280000 32) : IVec S1280000x1 32 :=
  broadcastInDim S1280000x1 ![0] bcast_S1280000_S1280000x1_0
    (shapeCast S1280000 (extractStridedSlice S1x1280000 ![0, 0] e slices_S2x1280000_S1x1280000_0_0) shapeCasts_S1x1280000_S1280000)

/-- Row 1 of the edge list: each edge's source node. -/
def srcRaw (e : IVec S2x1280000 32) : IVec S1280000 32 :=
  shapeCast S1280000 (extractStridedSlice S1x1280000 ![1, 0] e slices_S2x1280000_S1x1280000_1_0) shapeCasts_S1x1280000_S1280000

/-- The source nodes as a column of gather indices, a negative one counted from the end. -/
def srcIdx (e : IVec S2x1280000 32) : IVec S1280000x1 32 :=
  broadcastInDim S1280000x1 ![0] bcast_S1280000_S1280000x1_0
    (select (cmpi .slt (srcRaw e) (broadcastInDim S1280000 ![] bcast_S_S1280000 (constantI S_ 32 0#32)))
      (addi (srcRaw e) (broadcastInDim S1280000 ![] bcast_S_S1280000 (constantI S_ 32 80000#32)))
      (srcRaw e))

/-- The aggregation: gather each edge's source row, add it into the edge's destination row. -/
def AG (e : IVec S2x1280000 32) (h : FVec Ideal S80000x64 .f32) : FVec Ideal S80000x64 .f32 :=
  Host.scatterAdd scatter_S80000x64_S1280000x1_S1280000x64_1_0_0_1
    (broadcastInDim S80000x64 ![] bcast_S_S80000x64 (constant (F := Ideal) S_ .f32 0x00000000#32))
    (dstIdx e)
    (Host.gather gather_S80000x64_S1280000x1_S1280000x64_1_0_n_n_0_1_164 h (srcIdx e))

/-- Each node's in-degree: a one added per incoming edge. -/
def deg (e : IVec S2x1280000 32) : FVec Ideal S80000 .f32 :=
  Host.scatterAdd scatter_S80000_S1280000x1_S1280000_n_0_0_1
    (broadcastInDim S80000 ![] bcast_S_S80000 (constant (F := Ideal) S_ .f32 0x00000000#32))
    (dstIdx e)
    (broadcastInDim S1280000 ![] bcast_S_S1280000 (constant (F := Ideal) S_ .f32 0x3F800000#32))

/-- The reciprocal in-degree, zero where the degree is zero. -/
def DG (e : IVec S2x1280000 32) : FVec Ideal S80000 .f32 :=
  select (cmpf .ogt (deg e) (broadcastInDim S80000 ![] bcast_S_S80000 (constant (F := Ideal) S_ .f32 0x00000000#32)))
    (Host.divf (broadcastInDim S80000 ![] bcast_S_S80000 (constant (F := Ideal) S_ .f32 0x3F800000#32))
      (maximumf (deg e) (broadcastInDim S80000 ![] bcast_S_S80000 (constant (F := Ideal) S_ .f32 0x3F800000#32))))
    (broadcastInDim S80000 ![] bcast_S_S80000 (constant (F := Ideal) S_ .f32 0x00000000#32))

/-! ## One layer -/

/-- One layer before its activation, at row `p` and column `q`:
    ((Σₖ (a[p,k]·d[p])·Wl[q,k] + bl[q]) + Σₖ h[p,k]·Wr[q,k]) + br[q]. -/
def lin {C : Nat} (a h : FVec Ideal S80000x64 .f32) (d : FVec Ideal S80000 .f32)
    (Wl Wr : FVec Ideal ⟨2, ![C, 64]⟩ .f32) (bl br : FVec Ideal ⟨1, ![C]⟩ .f32) (p : Fin 80000) (q : Fin C) : EReal :=
  (((∑ k : Fin 64, (a (ix2 p k) * d (ix1 p)) * Wl (ix2 q k)) + bl (ix1 q))
      + ∑ k : Fin 64, h (ix2 p k) * Wr (ix2 q k)) + br (ix1 q)

/-- A hidden layer: the layer followed by max(·, 0). -/
def hid (a h : FVec Ideal S80000x64 .f32) (d : FVec Ideal S80000 .f32)
    (Wl Wr : FVec Ideal S64x64 .f32) (bl br : FVec Ideal S64 .f32) : FVec Ideal S80000x64 .f32 :=
  fun i => max (lin a h d Wl Wr bl br (i 0) (i 1)) 0

/-- The last layer: 40 logits per row. -/
def logit (a h : FVec Ideal S80000x64 .f32) (d : FVec Ideal S80000 .f32)
    (Wl Wr : FVec Ideal S40x64 .f32) (bl br : FVec Ideal S40 .f32) : FVec Ideal S80000x40 .f32 :=
  fun i => lin a h d Wl Wr bl br (i 0) (i 1)

/-! ## The same layer as the kernels see their operands: the degree as a column, the weights transposed, the biases as rows -/

/-- ((Σₖ (a[p,k]·dc[p,0])·WlT[k,q] + blr[0,q]) + Σₖ h[p,k]·WrT[k,q]) + brr[0,q]. -/
def linK {C : Nat} (a h : FVec Ideal S80000x64 .f32) (dc : FVec Ideal S80000x1 .f32)
    (WlT WrT : FVec Ideal ⟨2, ![64, C]⟩ .f32) (blr brr : FVec Ideal ⟨2, ![1, C]⟩ .f32) (p : Fin 80000) (q : Fin C) : EReal :=
  (((∑ k : Fin 64, (a (ix2 p k) * dc (ix2 p (0 : Fin 1))) * WlT (ix2 k q)) + blr (ix2 (0 : Fin 1) q))
      + ∑ k : Fin 64, h (ix2 p k) * WrT (ix2 k q)) + brr (ix2 (0 : Fin 1) q)

def hidK (a h : FVec Ideal S80000x64 .f32) (dc : FVec Ideal S80000x1 .f32)
    (WlT WrT : FVec Ideal S64x64 .f32) (blr brr : FVec Ideal S1x64 .f32) : FVec Ideal S80000x64 .f32 :=
  fun i => max (linK a h dc WlT WrT blr brr (i 0) (i 1)) 0

def logitK (a h : FVec Ideal S80000x64 .f32) (dc : FVec Ideal S80000x1 .f32)
    (WlT WrT : FVec Ideal S64x40 .f32) (blr brr : FVec Ideal S1x40 .f32) : FVec Ideal S80000x40 .f32 :=
  fun i => linK a h dc WlT WrT blr brr (i 0) (i 1)

section Stack

variable (A : FVec Ideal S80000x64 .f32 → FVec Ideal S80000x64 .f32) (d : FVec Ideal S80000 .f32)
variable (x : FVec Ideal S80000x64 .f32)
  (Wl0 : FVec Ideal S64x64 .f32) (bl0 : FVec Ideal S64 .f32) (Wr0 : FVec Ideal S64x64 .f32) (br0 : FVec Ideal S64 .f32)
  (Wl1 : FVec Ideal S64x64 .f32) (bl1 : FVec Ideal S64 .f32) (Wr1 : FVec Ideal S64x64 .f32) (br1 : FVec Ideal S64 .f32)
  (Wl2 : FVec Ideal S40x64 .f32) (bl2 : FVec Ideal S40 .f32) (Wr2 : FVec Ideal S40x64 .f32) (br2 : FVec Ideal S40 .f32)

/-- The first hidden layer's output. -/
def H1 : FVec Ideal S80000x64 .f32 := hid (A x) x d Wl0 Wr0 bl0 br0
/-- The second hidden layer's output. -/
def H2 : FVec Ideal S80000x64 .f32 :=
  hid (A (H1 A d x Wl0 bl0 Wr0 br0)) (H1 A d x Wl0 bl0 Wr0 br0) d Wl1 Wr1 bl1 br1
/-- The logits. -/
def Z : FVec Ideal S80000x40 .f32 :=
  logit (A (H2 A d x Wl0 bl0 Wr0 br0 Wl1 bl1 Wr1 br1)) (H2 A d x Wl0 bl0 Wr0 br0 Wl1 bl1 Wr1 br1) d Wl2 Wr2 bl2 br2

end Stack

/-! ## The loss, from the logits `z`, the labels `y` and the mask `mk` -/

section Loss

/- The labels and the mask enter as READERS by row: `yv p` the row's label word, `mv p` the row's mask as a number
   (the two programs hold them in differently shaped arrays; `yOf`, `mOf` below read the arguments). -/
variable (z : FVec Ideal S80000x40 .f32) (yv : Fin 80000 → BitVec 32) (mv : Fin 80000 → EReal)

/-- A row's largest logit (the fold of max from −∞). -/
def rowMax (p : Fin 80000) : EReal := (Finset.univ : Finset (Fin 40)).fold max ⊥ (fun j => z (ix2 p j))

/-- The one-hot weight of column `j` at row `p`: 1 where `j` is the row's label. -/
def hot (p : Fin 80000) (j : Fin 40) : EReal := if BitVec.ofNat 32 j.val = yv p then 1 else 0

/-- The tile-wise row loss: (max + log Σⱼ exp(zⱼ − max)) − Σⱼ zⱼ·hotⱼ. -/
def nllK (p : Fin 80000) : EReal :=
  (rowMax z p + Ideal.log (∑ j : Fin 40, Ideal.exp (z (ix2 p j) - rowMax z p))) - ∑ j : Fin 40, z (ix2 p j) * hot yv p j

/-- Row `r` of tile `t` (tiles of 2000 rows). -/
def rowOf (t : ℕ) (r : Fin 2000) : Fin 80000 := ⟨(2000 * t + r.val) % 80000, Nat.mod_lt _ (by decide)⟩

/-- A tile's masked loss sum and its mask count. -/
def tileNll (t : ℕ) : EReal := ∑ r : Fin 2000, nllK z yv (rowOf t r) * mv (rowOf t r)
def tileMask (t : ℕ) : EReal := ∑ r : Fin 2000, mv (rowOf t r)

/-- A running total started at zero: ((0 + f 0) + f 1) + … + f n. -/
def accN (f : ℕ → EReal) : ℕ → EReal
  | 0 => 0 + f 0
  | n + 1 => accN f n + f (n + 1)

/-- The tile-wise loss: the running totals after the 40th tile, the first over max(the second, 1). -/
def lossK : EReal := Ideal.div (accN (tileNll z yv mv) 39) (max (accN (tileMask mv) 39) 1)

/-- The row's label as a column (meaningful under `LabelsOk`). -/
def lab (p : Fin 80000) : Fin 40 := ⟨(yv p).toNat % 40, Nat.mod_lt _ (by decide)⟩

/-- The row-wise log-softmax entry: (z − m) − log Σⱼ exp(zⱼ − m), with m = max(−∞, row maximum). -/
def logp (p : Fin 80000) (j : Fin 40) : EReal :=
  (z (ix2 p j) - max ⊥ (rowMax z p)) - Ideal.log (∑ j' : Fin 40, Ideal.exp (z (ix2 p j') - max ⊥ (rowMax z p)))

/-- The row-wise row loss: minus the label's log-softmax entry. -/
def nllR (p : Fin 80000) : EReal := -(logp z p (lab yv p))

/-- The row-wise loss: (0 + Σ over all rows of loss·mask) over max(0 + Σ mask, 1). -/
def lossR : EReal :=
  Ideal.div (0 + ∑ p : Fin 80000, nllR z yv p * mv p) (max (0 + ∑ p : Fin 80000, mv p) 1)

end Loss

end Cert.Spec

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.KVal01.lean ====
/-
  What the two hidden layers' dense kernels leave in their output arrays, at the ideal instance.

  Each kernel runs over ten tiles of 8000 rows. At a tile it stores one 8000 × 64 block whose entry (p, q) is
      max(((Σₖ (a[p,k]·d[p,0])·Wl[k,q] + bl[0,q]) + Σₖ h[p,k]·Wr[k,q]) + br[0,q], 0)
  of its blocks of the aggregate a, the features h and the degree column d, and of the whole weight matrices and bias rows.
  The blocks of a, h, d at tile t are rows 8000·t … 8000·t + 7999 of their arrays, and the stored block goes to the same
  rows of the output; the ten blocks cover the 80000 rows. So the output array ends holding the layer function of the
  whole arrays.
-/
import proofs.«400073_j76287209112086_3_alg».proof.Proof.KIReg0
import proofs.«400073_j76287209112086_3_alg».proof.Proof.KIReg1
import proofs.«400073_j76287209112086_3_alg».proof.Proof.Spec
import proofs.«400073_j76287209112086_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The payload at an entry -/

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 8000 × 64 by 64 × 64 product into a zero accumulator, at (p, q): Σₖ l[p,k]·r[k,q]. -/
theorem matmul_tile_apply {φ₁ φ₂ : FTy} (l : FVec Ideal S8000x64 φ₁) (r : FVec Ideal S64x64 φ₂) (p : Fin 8000) (q : Fin 64) :
    matmul dot_S8000x64_S64x64_S8000x64_1_0_0_1_n_n none l r (constant S8000x64 .f32 0x00000000#32) (ix2 p q)
      = ∑ k : Fin 64, l (ix2 p k) * r (ix2 k q) :=
  Cert.LibPlainDot.matmul_zero_apply dot_S8000x64_S64x64_S8000x64_1_0_0_1_n_n_wf none l r p q

/-- The first hidden layer's stored block at (p, q), from the seven blocks it reads. -/
theorem k0_pay1_apply (x0 : Vec Ideal S8000x64 .f32) (x2 : Vec Ideal S8000x1 .f32) (x1 : Vec Ideal S8000x64 .f32)
    (x3 : Vec Ideal S64x64 .f32) (x5 : Vec Ideal S64x64 .f32) (x4 : Vec Ideal S1x64 .f32) (x6 : Vec Ideal S1x64 .f32)
    (p : Fin 8000) (q : Fin 64) :
    k0_pay1 x0 x2 x1 x3 x5 x4 x6 (ix2 p q)
      = max ((((∑ k : Fin 64, (x0 (ix2 p k) * x2 (ix2 p (0 : Fin 1))) * x3 (ix2 k q)) + x4 (ix2 (0 : Fin 1) q))
          + ∑ k : Fin 64, x1 (ix2 p k) * x5 (ix2 k q)) + x6 (ix2 (0 : Fin 1) q)) 0 := by
  unfold k0_pay1
  rw [maximumf_apply, addf_apply, addf_apply, addf_apply, matmul_tile_apply, matmul_tile_apply,
    broadcastTo_1b_ab_apply, broadcastTo_1b_ab_apply, broadcast_apply]
  simp only [truncf_apply, mulf_apply, shapeCast_self, broadcastTo_a1_ab_apply]
  exact congrArg (max _) Ideal.ofBits_zero_f32

/-- The second hidden layer's stored block at (p, q), from the seven blocks it reads. -/
theorem k1_pay1_apply (x0 : Vec Ideal S8000x64 .f32) (x2 : Vec Ideal S8000x1 .f32) (x1 : Vec Ideal S8000x64 .f32)
    (x3 : Vec Ideal S64x64 .f32) (x5 : Vec Ideal S64x64 .f32) (x4 : Vec Ideal S1x64 .f32) (x6 : Vec Ideal S1x64 .f32)
    (p : Fin 8000) (q : Fin 64) :
    k1_pay1 x0 x2 x1 x3 x5 x4 x6 (ix2 p q)
      = max ((((∑ k : Fin 64, (x0 (ix2 p k) * x2 (ix2 p (0 : Fin 1))) * x3 (ix2 k q)) + x4 (ix2 (0 : Fin 1) q))
          + ∑ k : Fin 64, x1 (ix2 p k) * x5 (ix2 k q)) + x6 (ix2 (0 : Fin 1) q)) 0 := by
  unfold k1_pay1
  rw [maximumf_apply, addf_apply, addf_apply, addf_apply, matmul_tile_apply, matmul_tile_apply,
    broadcastTo_1b_ab_apply, broadcastTo_1b_ab_apply, broadcast_apply]
  simp only [truncf_apply, mulf_apply, shapeCast_self, broadcastTo_a1_ab_apply]
  exact congrArg (max _) Ideal.ofBits_zero_f32

/-! ## The first hidden layer: from the stored blocks to the array -/

theorem zero_offsets : (![0, 0] : Fin 2 → Nat) = fun _ => 0 := funext fun a => by fin_cases a <;> rfl

/-- A stored block is the layer function of the whole arrays, read at the tile's rows: when the blocks of the aggregate,
    the features and the degree column are rows n·8000 … of their arrays and the weights and biases are whole, the
    payload at (y₀, y₁) is the layer function at (n·8000 + y₀, y₁). -/
theorem hid_tile0 (a h : FVec Ideal S80000x64 .f32) (dc : FVec Ideal S80000x1 .f32) (WlT WrT : FVec Ideal S64x64 .f32)
    (blr brr : FVec Ideal S1x64 .f32)
    (x0 x1 : Vec Ideal S8000x64 .f32) (x2 : Vec Ideal S8000x1 .f32) (x3 x5 : Vec Ideal S64x64 .f32) (x4 x6 : Vec Ideal S1x64 .f32)
    (n : ℕ)
    (h0 : ∀ (y : S8000x64.Idx) (i : S80000x64.Idx), (i 0).val = n * 8000 + (y 0).val → (i 1).val = (y 1).val → x0 y = a i)
    (h1 : ∀ (y : S8000x64.Idx) (i : S80000x64.Idx), (i 0).val = n * 8000 + (y 0).val → (i 1).val = (y 1).val → x1 y = h i)
    (h2 : ∀ (y : S8000x1.Idx) (i : S80000x1.Idx), (i 0).val = n * 8000 + (y 0).val → (i 1).val = (y 1).val → x2 y = dc i)
    (h3 : x3 = WlT) (h4 : x4 = blr) (h5 : x5 = WrT) (h6 : x6 = brr)
    (j : S8000x64.Idx) (i : S80000x64.Idx) (hi0 : (i 0).val = n * 8000 + (j 0).val) (hi1 : (i 1).val = (j 1).val) :
    k0_pay1 x0 x2 x1 x3 x5 x4 x6 j = Cert.Spec.hidK a h dc WlT WrT blr brr i := by
  obtain ⟨p, q, rfl⟩ : ∃ (p : Fin 8000) (q : Fin 64), j = ix2 p q := ⟨j 0, j 1, eq_ix2 j⟩
  obtain ⟨P, Q, rfl⟩ : ∃ (P : Fin 80000) (Q : Fin 64), i = ix2 P Q := ⟨i 0, i 1, eq_ix2 i⟩
  obtain rfl : Q = q := Fin.ext hi1
  subst h3 h4 h5 h6
  rw [k0_pay1_apply]
  have e0 : ∀ k : Fin 64, x0 (ix2 p k) = a (ix2 P k) := fun k => h0 _ _ hi0 rfl
  have e1 : ∀ k : Fin 64, x1 (ix2 p k) = h (ix2 P k) := fun k => h1 _ _ hi0 rfl
  have e2 : x2 (ix2 p (0 : Fin 1)) = dc (ix2 P (0 : Fin 1)) := h2 _ _ hi0 rfl
  simp only [e0, e1, e2]
  rfl

/-- The block indices of the eight windows at a tile: the row-tiled arrays move with the tile, the weights and biases stay. -/
theorem tile_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

section Region0

variable (V : (c : Dev nD) → (b : Ref sig .tc) → Buf (Elt Ideal) ((c : Thread nD τ).loc b)) (c : Dev nD)

/-- The aggregate's block at tile t is rows 8000·t … of the aggregate. -/
theorem rows0_0 (t : Fin cfg0.N) (y : S8000x64.Idx) (i : S80000x64.Idx)
    (hi0 : (i 0).val = t.val * 8000 + (y 0).val) (hi1 : (i 1).val = (y 1).val) :
    (iblk0 V c 0 t : Vec Ideal S8000x64 .f32) y = (V c main_v39 : S80000x64.Idx → EReal) i := by
  obtain ⟨e00, e01, -⟩ := tile_index0 t
  unfold iblk0
  show V c main_v39 (((cfg0.win 0).blk t).view.emb y) = V c main_v39 i
  refine congrArg _ (funext fun a => Fin.ext ?_)
  match a with
  | ⟨0, _⟩ => show win0_0.index t (0 : Fin 2) * 8000 + 1 * (y 0).val = (i 0).val; omega
  | ⟨1, _⟩ => show win0_0.index t (1 : Fin 2) * 64 + 1 * (y 1).val = (i 1).val; omega

/-- The features' block at tile t is rows 8000·t … of the features. -/
theorem rows0_1 (t : Fin cfg0.N) (y : S8000x64.Idx) (i : S80000x64.Idx)
    (hi0 : (i 0).val = t.val * 8000 + (y 0).val) (hi1 : (i 1).val = (y 1).val) :
    (iblk0 V c 1 t : Vec Ideal S8000x64 .f32) y = (V c main_arg0 : S80000x64.Idx → EReal) i := by
  obtain ⟨-, -, e10, e11, -⟩ := tile_index0 t
  unfold iblk0
  show V c main_arg0 (((cfg0.win 1).blk t).view.emb y) = V c main_arg0 i
  refine congrArg _ (funext fun a => Fin.ext ?_)
  match a with
  | ⟨0, _⟩ => show win0_1.index t (0 : Fin 2) * 8000 + 1 * (y 0).val = (i 0).val; omega
  | ⟨1, _⟩ => show win0_1.index t (1 : Fin 2) * 64 + 1 * (y 1).val = (i 1).val; omega

/-- The degree column's block at tile t is rows 8000·t … of the degree column. -/
theorem rows0_2 (t : Fin cfg0.N) (y : S8000x1.Idx) (i : S80000x1.Idx)
    (hi0 : (i 0).val = t.val * 8000 + (y 0).val) (hi1 : (i 1).val = (y 1).val) :
    (iblk0 V c 2 t : Vec Ideal S8000x1 .f32) y = (V c main_v15 : S80000x1.Idx → EReal) i := by
  obtain ⟨-, -, -, -, e20, e21, -⟩ := tile_index0 t
  unfold iblk0
  show V c main_v15 (((cfg0.win 2).blk t).view.emb y) = V c main_v15 i
  refine congrArg _ (funext fun a => Fin.ext ?_)
  match a with
  | ⟨0, _⟩ => show win0_2.index t (0 : Fin 2) * 8000 + 1 * (y 0).val = (i 0).val; omega
  | ⟨1, _⟩ => show win0_2.index t (1 : Fin 2) * 1 + 1 * (y 1).val = (i 1).val; omega

/-- The left weights' block at every tile is the whole matrix. -/
theorem whole0_3 (t : Fin cfg0.N) : (iblk0 V c 3 t : Vec Ideal S64x64 .f32) = (V c main_v16 : S64x64.Idx → EReal) := by
  obtain ⟨-, -, -, -, -, -, e30, e31, -⟩ := tile_index0 t
  funext y
  unfold iblk0
  show V c main_v16 (((cfg0.win 3).blk t).view.emb y) = V c main_v16 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The left bias row's block at every tile is the whole row. -/
theorem whole0_4 (t : Fin cfg0.N) : (iblk0 V c 4 t : Vec Ideal S1x64 .f32) = (V c main_v22 : S1x64.Idx → EReal) := by
  obtain ⟨-, -, -, -, -, -, -, -, e40, e41, -⟩ := tile_index0 t
  funext y
  unfold iblk0
  show V c main_v22 (((cfg0.win 4).blk t).view.emb y) = V c main_v22 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- The right weights' block at every tile is the whole matrix. -/
theorem whole0_5 (t : Fin cfg0.N) : (iblk0 V c 5 t : Vec Ideal S64x64 .f32) = (V c main_v17 : S64x64.Idx → EReal) := by
  obtain ⟨-, -, -, -, -, -, -, -, -, -, e50, e51, -⟩ := tile_index0 t
  funext y
  unfold iblk0
  show V c main_v17 (((cfg0.win 5).blk t).view.emb y) = V c main_v17 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- The right bias row's block at every tile is the whole row. -/
theorem whole0_6 (t : Fin cfg0.N) : (iblk0 V c 6 t : Vec Ideal S1x64 .f32) = (V c main_v23 : S1x64.Idx → EReal) := by
  obtain ⟨-, -, -, -, -, -, -, -, -, -, -, -, e60, e61, -⟩ := tile_index0 t
  funext y
  unfold iblk0
  show V c main_v23 (((cfg0.win 6).blk t).view.emb y) = V c main_v23 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- What tile t writes back is rows 8000·t … of the layer function of the arrays as the kernel finds them. -/
theorem written0 (t : Fin cfg0.N) :
    (dat0 (F := Ideal) V c).flushed 7 t = ((cfg0.win 7).blk t).view.read (Elt Ideal)
      (Cert.Spec.hidK (V c main_v39) (V c main_arg0) (V c main_v15) (V c main_v16) (V c main_v17) (V c main_v22) (V c main_v23)) := by
  show (cfg0.win 7).cut (grid0.coords t) ((dat0 V c).after 7 t) = _
  rw [after0_7]
  unfold out0_7
  rw [View.canon_unit_zero zero_offsets]
  simp only [View.ld_unit_zero (S := S8000x64) zero_offsets, View.ld_unit_zero (S := S8000x1) zero_offsets,
    View.ld_unit_zero (S := S64x64) zero_offsets, View.ld_unit_zero (S := S1x64) zero_offsets]
  obtain ⟨-, -, -, -, -, -, -, -, -, -, -, -, -, -, e70, e71⟩ := tile_index0 t
  funext j
  show k0_pay1 (iblk0 V c 0 t) (iblk0 V c 2 t) (iblk0 V c 1 t) (iblk0 V c 3 t) (iblk0 V c 5 t) (iblk0 V c 4 t) (iblk0 V c 6 t) j
    = Cert.Spec.hidK (V c main_v39) (V c main_arg0) (V c main_v15) (V c main_v16) (V c main_v17) (V c main_v22) (V c main_v23)
        (((cfg0.win 7).blk t).view.emb j)
  refine hid_tile0 _ _ _ _ _ _ _ _ _ _ _ _ _ _ t.val (rows0_0 V c t) (rows0_1 V c t) (rows0_2 V c t)
    (whole0_3 V c t) (whole0_4 V c t) (whole0_5 V c t) (whole0_6 V c t) j _ ?_ ?_
  · show win0_7.index t (0 : Fin 2) * 8000 + 1 * (j 0).val = t.val * 8000 + (j 0).val; omega
  · show win0_7.index t (1 : Fin 2) * 64 + 1 * (j 1).val = (j 1).val; omega

/-- An index of the output array is in tile t's block iff each coordinate is in the block's range on its axis. -/
theorem mem_tile0 (t : Fin cfg0.N) (i : S80000x64.Idx) :
    i ∈ ((cfg0.win 7).blk t).view.set ↔ ∀ a : Fin 2, win0_7.index t a * S8000x64.size a ≤ (i a).val ∧ (i a).val < win0_7.index t a * S8000x64.size a + S8000x64.size a := by
  show i ∈ ((View.whole main_v40).slice (win0_7.rect t)).set ↔ _
  rw [View.set_slice_whole, Rect.mem_set_unit]
  exact Iff.rfl

/-- Row r of the output is in the block of tile r / 8000. -/
theorem tiles_cover0 (i : S80000x64.Idx) :
    ∃ t : Fin cfg0.N, (cfg0.win 7).flush t = true ∧ i ∈ ((cfg0.win 7).blk t).view.set := by
  have hi0 : (i 0).val < 80000 := (i 0).isLt
  have hi1 : (i 1).val < 64 := (i 1).isLt
  have hN : grid0.N = 10 := N_0
  obtain ⟨t, ht⟩ : ∃ t : Fin cfg0.N, t.val = (i 0).val / 8000 := ⟨⟨(i 0).val / 8000, by show _ < grid0.N; omega⟩, rfl⟩
  obtain ⟨-, -, -, -, -, -, -, -, -, -, -, -, -, -, e70, e71⟩ := tile_index0 t
  refine ⟨t, flush0_7 t, ?_⟩
  rw [mem_tile0]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 64 ≤ (i 1).val ∧ (i 1).val < win0_7.index t (1 : Fin 2) * 64 + 64; omega

/-- THE FIRST HIDDEN LAYER'S OUTPUT ARRAY after the kernel: the layer function of the arrays as the kernel finds them. -/
theorem final0 : (dat0 (F := Ideal) V c).arrAt 7 cfg0.N
    = Cert.Spec.hidK (V c main_v39) (V c main_arg0) (V c main_v15) (V c main_v16) (V c main_v17) (V c main_v22) (V c main_v23) :=
  (dat0 (F := Ideal) V c).arrAt_eq_of_cover 7 _ (fun t _ => written0 V c t) tiles_cover0

end Region0

/-! ## The second hidden layer: from the stored blocks to the array -/

/-- A stored block is the layer function of the whole arrays, read at the tile's rows: when the blocks of the aggregate,
    the features and the degree column are rows n·8000 … of their arrays and the weights and biases are whole, the
    payload at (y₀, y₁) is the layer function at (n·8000 + y₀, y₁). -/
theorem hid_tile1 (a h : FVec Ideal S80000x64 .f32) (dc : FVec Ideal S80000x1 .f32) (WlT WrT : FVec Ideal S64x64 .f32)
    (blr brr : FVec Ideal S1x64 .f32)
    (x0 x1 : Vec Ideal S8000x64 .f32) (x2 : Vec Ideal S8000x1 .f32) (x3 x5 : Vec Ideal S64x64 .f32) (x4 x6 : Vec Ideal S1x64 .f32)
    (n : ℕ)
    (h0 : ∀ (y : S8000x64.Idx) (i : S80000x64.Idx), (i 0).val = n * 8000 + (y 0).val → (i 1).val = (y 1).val → x0 y = a i)
    (h1 : ∀ (y : S8000x64.Idx) (i : S80000x64.Idx), (i 0).val = n * 8000 + (y 0).val → (i 1).val = (y 1).val → x1 y = h i)
    (h2 : ∀ (y : S8000x1.Idx) (i : S80000x1.Idx), (i 0).val = n * 8000 + (y 0).val → (i 1).val = (y 1).val → x2 y = dc i)
    (h3 : x3 = WlT) (h4 : x4 = blr) (h5 : x5 = WrT) (h6 : x6 = brr)
    (j : S8000x64.Idx) (i : S80000x64.Idx) (hi0 : (i 0).val = n * 8000 + (j 0).val) (hi1 : (i 1).val = (j 1).val) :
    k1_pay1 x0 x2 x1 x3 x5 x4 x6 j = Cert.Spec.hidK a h dc WlT WrT blr brr i := by
  obtain ⟨p, q, rfl⟩ : ∃ (p : Fin 8000) (q : Fin 64), j = ix2 p q := ⟨j 0, j 1, eq_ix2 j⟩
  obtain ⟨P, Q, rfl⟩ : ∃ (P : Fin 80000) (Q : Fin 64), i = ix2 P Q := ⟨i 0, i 1, eq_ix2 i⟩
  obtain rfl : Q = q := Fin.ext hi1
  subst h3 h4 h5 h6
  rw [k1_pay1_apply]
  have e0 : ∀ k : Fin 64, x0 (ix2 p k) = a (ix2 P k) := fun k => h0 _ _ hi0 rfl
  have e1 : ∀ k : Fin 64, x1 (ix2 p k) = h (ix2 P k) := fun k => h1 _ _ hi0 rfl
  have e2 : x2 (ix2 p (0 : Fin 1)) = dc (ix2 P (0 : Fin 1)) := h2 _ _ hi0 rfl
  simp only [e0, e1, e2]
  rfl

/-- The block indices of the eight windows at a tile: the row-tiled arrays move with the tile, the weights and biases stay. -/
theorem tile_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Region1

variable (V : (c : Dev nD) → (b : Ref sig .tc) → Buf (Elt Ideal) ((c : Thread nD τ).loc b)) (c : Dev nD)

/-- The aggregate's block at tile t is rows 8000·t … of the aggregate. -/
theorem rows1_0 (t : Fin cfg1.N) (y : S8000x64.Idx) (i : S80000x64.Idx)
    (hi0 : (i 0).val = t.val * 8000 + (y 0).val) (hi1 : (i 1).val = (y 1).val) :
    (iblk1 V c 0 t : Vec Ideal S8000x64 .f32) y = (V c main_v52 : S80000x64.Idx → EReal) i := by
  obtain ⟨e00, e01, -⟩ := tile_index1 t
  unfold iblk1
  show V c main_v52 (((cfg1.win 0).blk t).view.emb y) = V c main_v52 i
  refine congrArg _ (funext fun a => Fin.ext ?_)
  match a with
  | ⟨0, _⟩ => show win1_0.index t (0 : Fin 2) * 8000 + 1 * (y 0).val = (i 0).val; omega
  | ⟨1, _⟩ => show win1_0.index t (1 : Fin 2) * 64 + 1 * (y 1).val = (i 1).val; omega

/-- The first layer's output, this layer's features: its block at tile t is rows 8000·t … of it. -/
theorem rows1_1 (t : Fin cfg1.N) (y : S8000x64.Idx) (i : S80000x64.Idx)
    (hi0 : (i 0).val = t.val * 8000 + (y 0).val) (hi1 : (i 1).val = (y 1).val) :
    (iblk1 V c 1 t : Vec Ideal S8000x64 .f32) y = (V c main_v40 : S80000x64.Idx → EReal) i := by
  obtain ⟨-, -, e10, e11, -⟩ := tile_index1 t
  unfold iblk1
  show V c main_v40 (((cfg1.win 1).blk t).view.emb y) = V c main_v40 i
  refine congrArg _ (funext fun a => Fin.ext ?_)
  match a with
  | ⟨0, _⟩ => show win1_1.index t (0 : Fin 2) * 8000 + 1 * (y 0).val = (i 0).val; omega
  | ⟨1, _⟩ => show win1_1.index t (1 : Fin 2) * 64 + 1 * (y 1).val = (i 1).val; omega

/-- The degree column's block at tile t is rows 8000·t … of the degree column. -/
theorem rows1_2 (t : Fin cfg1.N) (y : S8000x1.Idx) (i : S80000x1.Idx)
    (hi0 : (i 0).val = t.val * 8000 + (y 0).val) (hi1 : (i 1).val = (y 1).val) :
    (iblk1 V c 2 t : Vec Ideal S8000x1 .f32) y = (V c main_v15 : S80000x1.Idx → EReal) i := by
  obtain ⟨-, -, -, -, e20, e21, -⟩ := tile_index1 t
  unfold iblk1
  show V c main_v15 (((cfg1.win 2).blk t).view.emb y) = V c main_v15 i
  refine congrArg _ (funext fun a => Fin.ext ?_)
  match a with
  | ⟨0, _⟩ => show win1_2.index t (0 : Fin 2) * 8000 + 1 * (y 0).val = (i 0).val; omega
  | ⟨1, _⟩ => show win1_2.index t (1 : Fin 2) * 1 + 1 * (y 1).val = (i 1).val; omega

/-- The left weights' block at every tile is the whole matrix. -/
theorem whole1_3 (t : Fin cfg1.N) : (iblk1 V c 3 t : Vec Ideal S64x64 .f32) = (V c main_v18 : S64x64.Idx → EReal) := by
  obtain ⟨-, -, -, -, -, -, e30, e31, -⟩ := tile_index1 t
  funext y
  unfold iblk1
  show V c main_v18 (((cfg1.win 3).blk t).view.emb y) = V c main_v18 y
  refine congrArg _ (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The left bias row's block at every tile is the whole row. -/
theorem whole1_4 (t : Fin cfg1.N) : (iblk1 V c 4 t : Vec Ideal S1x64 .f32) = (V c main_v24 : S1x64.Idx → EReal) := by
  obtain ⟨-, -, -, -, -, -, -, -, e40, e41, -⟩ := tile_index1 t
  funext y
  unfold iblk1
  show V c main_v24 (((cfg1.win 4).blk t).view.emb y) = V c main_v24 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The right weights' block at every tile is the whole matrix. -/
theorem whole1_5 (t : Fin cfg1.N) : (iblk1 V c 5 t : Vec Ideal S64x64 .f32) = (V c main_v19 : S64x64.Idx → EReal) := by
  obtain ⟨-, -, -, -, -, -, -, -, -, -, e50, e51, -⟩ := tile_index1 t
  funext y
  unfold iblk1
  show V c main_v19 (((cfg1.win 5).blk t).view.emb y) = V c main_v19 y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- The right bias row's block at every tile is the whole row. -/
theorem whole1_6 (t : Fin cfg1.N) : (iblk1 V c 6 t : Vec Ideal S1x64 .f32) = (V c main_v25 : S1x64.Idx → EReal) := by
  obtain ⟨-, -, -, -, -, -, -, -, -, -, -, -, e60, e61, -⟩ := tile_index1 t
  funext y
  unfold iblk1
  show V c main_v25 (((cfg1.win 6).blk t).view.emb y) = V c main_v25 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- What tile t writes back is rows 8000·t … of the layer function of the arrays as the kernel finds them. -/
theorem written1 (t : Fin cfg1.N) :
    (dat1 (F := Ideal) V c).flushed 7 t = ((cfg1.win 7).blk t).view.read (Elt Ideal)
      (Cert.Spec.hidK (V c main_v52) (V c main_v40) (V c main_v15) (V c main_v18) (V c main_v19) (V c main_v24) (V c main_v25)) := by
  show (cfg1.win 7).cut (grid1.coords t) ((dat1 V c).after 7 t) = _
  rw [after1_7]
  unfold out1_7
  rw [View.canon_unit_zero zero_offsets]
  simp only [View.ld_unit_zero (S := S8000x64) zero_offsets, View.ld_unit_zero (S := S8000x1) zero_offsets,
    View.ld_unit_zero (S := S64x64) zero_offsets, View.ld_unit_zero (S := S1x64) zero_offsets]
  obtain ⟨-, -, -, -, -, -, -, -, -, -, -, -, -, -, e70, e71⟩ := tile_index1 t
  funext j
  show k1_pay1 (iblk1 V c 0 t) (iblk1 V c 2 t) (iblk1 V c 1 t) (iblk1 V c 3 t) (iblk1 V c 5 t) (iblk1 V c 4 t) (iblk1 V c 6 t) j
    = Cert.Spec.hidK (V c main_v52) (V c main_v40) (V c main_v15) (V c main_v18) (V c main_v19) (V c main_v24) (V c main_v25)
        (((cfg1.win 7).blk t).view.emb j)
  refine hid_tile1 _ _ _ _ _ _ _ _ _ _ _ _ _ _ t.val (rows1_0 V c t) (rows1_1 V c t) (rows1_2 V c t)
    (whole1_3 V c t) (whole1_4 V c t) (whole1_5 V c t) (whole1_6 V c t) j _ ?_ ?_
  · show win1_7.index t (0 : Fin 2) * 8000 + 1 * (j 0).val = t.val * 8000 + (j 0).val; omega
  · show win1_7.index t (1 : Fin 2) * 64 + 1 * (j 1).val = (j 1).val; omega

/-- An index of the output array is in tile t's block iff each coordinate is in the block's range on its axis. -/
theorem mem_tile1 (t : Fin cfg1.N) (i : S80000x64.Idx) :
    i ∈ ((cfg1.win 7).blk t).view.set ↔ ∀ a : Fin 2, win1_7.index t a * S8000x64.size a ≤ (i a).val ∧ (i a).val < win1_7.index t a * S8000x64.size a + S8000x64.size a := by
  show i ∈ ((View.whole main_v53).slice (win1_7.rect t)).set ↔ _
  rw [View.set_slice_whole, Rect.mem_set_unit]
  exact Iff.rfl

/-- Row r of the output is in the block of tile r / 8000. -/
theorem tiles_cover1 (i : S80000x64.Idx) :
    ∃ t : Fin cfg1.N, (cfg1.win 7).flush t = true ∧ i ∈ ((cfg1.win 7).blk t).view.set := by
  have hi0 : (i 0).val < 80000 := (i 0).isLt
  have hi1 : (i 1).val < 64 := (i 1).isLt
  have hN : grid1.N = 10 := N_1
  obtain ⟨t, ht⟩ : ∃ t : Fin cfg1.N, t.val = (i 0).val / 8000 := ⟨⟨(i 0).val / 8000, by show _ < grid1.N; omega⟩, rfl⟩
  obtain ⟨-, -, -, -, -, -, -, -, -, -, -, -, -, -, e70, e71⟩ := tile_index1 t
  refine ⟨t, flush1_7 t, ?_⟩
  rw [mem_tile1]
  intro a
  match a with
  | ⟨0, _⟩ => show win1_7.index t (0 : Fin 2) * 8000 ≤ (i 0).val ∧ (i 0).val < win1_7.index t (0 : Fin 2) * 8000 + 8000; omega
  | ⟨1, _⟩ => show win1_7.index t (1 : Fin 2) * 64 ≤ (i 1).val ∧ (i 1).val < win1_7.index t (1 : Fin 2) * 64 + 64; omega

/-- THE SECOND HIDDEN LAYER'S OUTPUT ARRAY after the kernel: the layer function of the arrays as the kernel finds them. -/
theorem final1 : (dat1 (F := Ideal) V c).arrAt 7 cfg1.N
    = Cert.Spec.hidK (V c main_v52) (V c main_v40) (V c main_v15) (V c main_v18) (V c main_v19) (V c main_v24) (V c main_v25) :=
  (dat1 (F := Ideal) V c).arrAt_eq_of_cover 7 _ (fun t _ => written1 V c t) tiles_cover1

end Region1

end Cert.KernelIdeal.Hand

end
-- ==== Proof.KVal2a.lean ====
/-
  What the last layer's kernel computes on one tile of 2000 rows, read entry by entry on the extended reals.

  The tile's 2000 × 40 logits are the layer's formula on the tile's rows (two products of a [2000, 64] block with a
  [64, 40] matrix, summed over the 64 columns, plus the two bias rows; the degree enters as a column broadcast along the
  rows, and a change of float format is the identity). A row's maximum is the fold of max from −∞ over its 40 logits, its
  log-sum-exp remainder the logarithm of the sum of exp(logit − maximum). The tile adds to the running loss total the sum
  over its rows of ((maximum + remainder) − Σⱼ logitⱼ · one-hotⱼ) · mask, the one-hot weight being 1 exactly where the
  column's number is the row's label, and to the running mask total the sum of its mask entries; the result is the loss
  total over max(the mask total, 1). Every lemma is stated over variables of the literal array types.
-/
import proofs.«400073_j76287209112086_3_alg».proof.Proof.Gen.KernelIdeal.Skeleton
import proofs.«400073_j76287209112086_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-! ## Layout operations on a column, read at an index -/

section Layout
variable {α : Type}

/-- A column [a, 1] broadcast along its rows to [a, b] reads, at (p, q), the column's entry of row p. -/
theorem colBroadcast_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the vector's entry i. -/
theorem vecToCol_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

end Layout

/-! ## The tile's logits -/

/-- The first payload at (r, j): the layer's formula on the tile's rows, the degree a column, the weights transposed,
    the biases rows. -/
theorem pay7_apply (a : FVec Ideal S2000x64 .f32) (d : FVec Ideal S2000x1 .f32) (h : FVec Ideal S2000x64 .f32)
    (Wl Wr : FVec Ideal S64x40 .f32) (bl br : FVec Ideal S1x40 .f32) (r : Fin 2000) (j : Fin 40) :
    k2_pay7 (F := Ideal) a d h Wl Wr bl br (ix2 r j)
      = (((∑ k : Fin 64, (a (ix2 r k) * d (ix2 r (0 : Fin 1))) * Wl (ix2 k j)) + bl (ix2 (0 : Fin 1) j))
          + ∑ k : Fin 64, h (ix2 r k) * Wr (ix2 k j)) + br (ix2 (0 : Fin 1) j) := by
  unfold k2_pay7
  simp only [shapeCast_self]
  have hD : dot_S2000x64_S64x40_S2000x40_1_0_0_1_n_n
      = Cert.LibPlainDot.plainDims 2000 64 40 dot_S2000x64_S64x40_S2000x40_1_0_0_1_n_n_wf := rfl
  simp only [addf_apply, matmul]
  rw [broadcastTo_1b_ab_apply, broadcastTo_1b_ab_apply, hD, Cert.LibPlainDot.matmul_zero_apply,
    Cert.LibPlainDot.matmul_zero_apply]
  simp only [truncf_apply, mulf_apply, colBroadcast_apply]

/-! ## The rows' maxima and log-sum-exp remainders -/

section AtIndex
variable {s : Shape} {φ : FTy}
/-- The exponential and the logarithm act entry by entry. -/
theorem exp_apply (x : FVec Ideal s φ) (i : s.Idx) : exp x i = Ideal.exp (x i) := rfl
theorem log_apply (x : FVec Ideal s φ) (i : s.Idx) : log x i = Ideal.log (x i) := rfl
end AtIndex

/-- Row r of a [2000, 40] array with column k put back is the entry (r, k). -/
theorem lift_row (h : S2000x40.Reduces [1] S2000) (r : Fin 2000) (k : Fin 40) : h.lift (ix1 r) k = ix2 r k :=
  funext fun c => Fin.ext (match c with | ⟨0, _⟩ => rfl | ⟨1, _⟩ => rfl)

/-- The word 0xFF800000 is −∞. -/
theorem ofBits_neg_inf : Ideal.ofBits .f32 0xFF800000#32 = ⊥ := by
  simp [Ideal.ofBits, Ideal.ieee]

/-- The word 0x3F800000 is 1. -/
theorem ofBits_one : Ideal.ofBits .f32 0x3F800000#32 = 1 := by
  simp [Ideal.ofBits, Ideal.ieee]
  rw [← EReal.coe_mul, ← EReal.coe_one]
  exact congrArg _ (by norm_num)

/-- A maximum over the 40 lanes started from −∞, at row r. -/
theorem rowMax_apply (src : FVec Ideal S2000x40 .f32) (h : S2000x40.Reduces [1] S2000) (hφ : FKind.Formats .f32)
    (hacc : (0xFF800000#32 : BitVec 32) = FKind.maximumf.neutral .f32 hφ) (r : Fin 2000) :
    multiReduction .maximumf [1] S2000 src 0xFF800000#32 h hφ hacc (ix1 r)
      = (Finset.univ : Finset (Fin 40)).fold max ⊥ (fun j => src (ix2 r j)) := by
  refine (Ideal.multiReduction_maximumf_single src 0xFF800000#32 h hφ hacc (ix1 r)).trans ?_
  show (Finset.univ : Finset (Fin 40)).fold max (Ideal.ofBits .f32 0xFF800000#32) (src ∘ h.lift (ix1 r)) = _
  rw [ofBits_neg_inf]
  have e : (src ∘ h.lift (ix1 r)) = fun j : Fin 40 => src (ix2 r j) := funext fun k => congrArg src (lift_row h r k)
  rw [e]
  rfl

/-- A sum over the 40 lanes, at row r. -/
theorem rowSum_apply (src : FVec Ideal S2000x40 .f32) (h : S2000x40.Reduces [1] S2000) (hφ : FKind.Formats .f32)
    (hacc : (0x00000000#32 : BitVec 32) = FKind.add.neutral .f32 hφ) (r : Fin 2000) :
    multiReduction .add [1] S2000 src 0x00000000#32 h hφ hacc (ix1 r) = ∑ j : Fin 40, src (ix2 r j) := by
  refine (Ideal.multiReduction_add_single src 0x00000000#32 h hφ hacc (ix1 r)).trans ?_
  exact Finset.sum_congr rfl fun k _ => congrArg src (lift_row h r k)

/-- The second payload at (r, 0): the largest of the row's 40 logits. -/
theorem pay8_apply (a : FVec Ideal S2000x64 .f32) (d : FVec Ideal S2000x1 .f32) (h : FVec Ideal S2000x64 .f32)
    (Wl Wr : FVec Ideal S64x40 .f32) (bl br : FVec Ideal S1x40 .f32) (r : Fin 2000) (u : Fin 1) :
    k2_pay8 (F := Ideal) a d h Wl Wr bl br (ix2 r u)
      = (Finset.univ : Finset (Fin 40)).fold max ⊥ (fun j => k2_pay7 (F := Ideal) a d h Wl Wr bl br (ix2 r j)) := by
  unfold k2_pay8
  dsimp only
  refine (vecToCol_apply _ shapeCasts_S2000_S2000x1 r u).trans ?_
  exact rowMax_apply _ _ _ _ r

/-- The third payload at (r, 0): the logarithm of the sum over the row of exp(logit − the row's maximum). -/
theorem pay9_apply (a : FVec Ideal S2000x64 .f32) (d : FVec Ideal S2000x1 .f32) (h : FVec Ideal S2000x64 .f32)
    (Wl Wr : FVec Ideal S64x40 .f32) (bl br : FVec Ideal S1x40 .f32) (r : Fin 2000) (u : Fin 1) :
    k2_pay9 (F := Ideal) a d h Wl Wr bl br (ix2 r u)
      = Ideal.log (∑ j : Fin 40, Ideal.exp (k2_pay7 (F := Ideal) a d h Wl Wr bl br (ix2 r j)
          - k2_pay8 (F := Ideal) a d h Wl Wr bl br (ix2 r (0 : Fin 1)))) := by
  unfold k2_pay9
  dsimp only
  refine congrArg Ideal.log ?_
  refine (vecToCol_apply _ shapeCasts_S2000_S2000x1 r u).trans ?_
  refine (rowSum_apply _ _ _ _ r).trans ?_
  refine Finset.sum_congr rfl fun j _ => ?_
  refine congrArg Ideal.exp ?_
  exact congrArg (k2_pay7 (F := Ideal) a d h Wl Wr bl br (ix2 r j) - ·) (colBroadcast_apply _ broadcasts_S2000x1_S2000x40 r j)

/-! ## The tile's masked loss sum and mask count, added to the running totals -/

/-- The one-hot weight as the program computes it: the comparison bit, widened, read as a signed integer. -/
theorem onehot_word (x y : BitVec 32) :
    FloatOps.sitofp (F := Ideal) .f32 ((IntOp.cmpi .eq x y).setWidth 32) = (if x = y then 1 else 0 : EReal) := by
  show (((((IntOp.cmpi .eq x y).setWidth 32).toInt : ℝ)) : EReal) = _
  by_cases hxy : x = y
  · rw [if_pos hxy]; subst hxy
    have e : (IntOp.cmpi .eq x x).setWidth 32 = 1#32 := by simp [IntOp.cmpi]
    have h1 : (1#32 : BitVec 32).toInt = 1 := by decide
    rw [e, h1]; simp
  · rw [if_neg hxy]
    have hb : (x == y) = false := beq_eq_false_iff_ne.mpr hxy
    have e : (IntOp.cmpi .eq x y).setWidth 32 = 0#32 := by
      simp only [IntOp.cmpi, hb]
      rfl
    have h0 : (0#32 : BitVec 32).toInt = 0 := by decide
    rw [e, h0]; simp

/-- The [1, 2000, 1] index set is the 2000 rows. -/
def rowEquiv : Fin 2000 ≃ S1x2000x1.Idx where
  toFun r := ix3 (0 : Fin 1) r (0 : Fin 1)
  invFun i := i 1
  left_inv r := rfl
  right_inv i := by
    obtain ⟨a, b, c, rfl⟩ : ∃ (a : Fin 1) (b : Fin 2000) (c : Fin 1), i = ix3 a b c := ⟨i 0, i 1, i 2, eq_ix3 i⟩
    have ha : a = 0 := Subsingleton.elim _ _
    have hc : c = 0 := Subsingleton.elim _ _
    subst ha hc; rfl

/-- A sum over both axes of a [1, 2000, 1] array is the sum over the 2000 rows. -/
theorem total_apply (src : FVec Ideal S1x2000x1 .f32) (h : S1x2000x1.Reduces [1, 2] S1) (hφ : FKind.Formats .f32)
    (hacc : (0x00000000#32 : BitVec 32) = FKind.add.neutral .f32 hφ) (j : S1.Idx) :
    multiReduction .add [1, 2] S1 src 0x00000000#32 h hφ hacc j = ∑ r : Fin 2000, src (ix3 (0 : Fin 1) r (0 : Fin 1)) := by
  refine (Ideal.multiReduction_add_total src 0x00000000#32 h (fun b => match b with | ⟨0, _⟩ => rfl) hφ hacc j).trans ?_
  exact (Equiv.sum_comp rowEquiv src).symm

/-- The same total, taken out of its [1] array through a cast to [1, 1, 1] and an extraction. -/
theorem extract_total (src : FVec Ideal S1x2000x1 .f32) (h : S1x2000x1.Reduces [1, 2] S1) (hφ : FKind.Formats .f32)
    (hacc : (0x00000000#32 : BitVec 32) = FKind.add.neutral .f32 hφ) (hc : S1.ShapeCasts S1x1x1)
    (pos : Fin S1x1x1.rank → ℕ) (hp : ∀ a, pos a < S1x1x1.size a) :
    extractAt pos (shapeCast S1x1x1 (multiReduction .add [1, 2] S1 src 0x00000000#32 h hφ hacc) hc) hp
      = ∑ r : Fin 2000, src (ix3 (0 : Fin 1) r (0 : Fin 1)) := by
  unfold extractAt shapeCast
  exact total_apply src h hφ hacc _

/-- The loss total's payload at its one index: the previous total plus the sum over the tile's rows of
    ((maximum + remainder) − Σⱼ logitⱼ · one-hotⱼ) · mask. -/
theorem pay2_apply (z : FVec Ideal S2000x40 .f32) (m l : FVec Ideal S2000x1 .f32) (yb : IVec S2000x1 32)
    (mk : FVec Ideal S2000x1 .f32) (acc : FVec Ideal S1x1 .f32) (i : S1x1.Idx) :
    k2_pay2 (F := Ideal) z m l yb mk acc i
      = acc i + ∑ r : Fin 2000, ((m (ix2 r (0 : Fin 1)) + l (ix2 r (0 : Fin 1)))
          - ∑ j : Fin 40, z (ix2 r j) * (if BitVec.ofNat 32 j.val = yb (ix2 r (0 : Fin 1)) then 1 else 0))
            * mk (ix2 r (0 : Fin 1)) := by
  unfold k2_pay2 k2_pay1
  simp only [shapeCast_self, addf_apply, broadcast_apply]
  refine congrArg (acc i + ·) ?_
  refine (extract_total _ _ _ _ _ _ _).trans ?_
  refine Finset.sum_congr rfl fun r _ => ?_
  refine (shapeCast_ab_1ab_apply _ shapeCasts_S2000x1_S1x2000x1 (0 : Fin 1) r (0 : Fin 1)).trans ?_
  refine congrArg (· * mk (ix2 r (0 : Fin 1))) ?_
  refine congrArg ((m (ix2 r (0 : Fin 1)) + l (ix2 r (0 : Fin 1))) - ·) ?_
  refine (vecToCol_apply _ shapeCasts_S2000_S2000x1 r (0 : Fin 1)).trans ?_
  refine (rowSum_apply _ _ _ _ r).trans ?_
  refine Finset.sum_congr rfl fun j _ => ?_
  refine congrArg (z (ix2 r j) * ·) ?_
  show FloatOps.sitofp (F := Ideal) .f32 ((IntOp.cmpi .eq (iota .tc S2000x40 32 [1] iota_S2000x40_d1_w32 (ix2 r j))
    (broadcastTo S2000x40 yb broadcasts_S2000x1_S2000x40 (ix2 r j))).setWidth 32) = _
  rw [iota_single_apply, colBroadcast_apply]
  exact onehot_word _ _

/-- The mask total's payload at its one index: the previous total plus the sum of the tile's mask entries. -/
theorem pay3_apply (mk : FVec Ideal S2000x1 .f32) (acc : FVec Ideal S1x1 .f32) (i : S1x1.Idx) :
    k2_pay3 (F := Ideal) mk acc i = acc i + ∑ r : Fin 2000, mk (ix2 r (0 : Fin 1)) := by
  unfold k2_pay3 k2_pay1
  simp only [shapeCast_self, addf_apply, broadcast_apply]
  refine congrArg (acc i + ·) ?_
  refine (extract_total _ _ _ _ _ _ _).trans ?_
  exact Finset.sum_congr rfl fun r _ => shapeCast_ab_1ab_apply _ shapeCasts_S2000x1_S1x2000x1 (0 : Fin 1) r (0 : Fin 1)

/-- The output's payload at its one index: the loss total over max(the mask total, 1). -/
theorem pay4_apply (cnt tot : FVec Ideal S1x1 .f32) (i : S1x1.Idx) :
    k2_pay4 (F := Ideal) cnt tot i = Ideal.div (tot i) (max (cnt i) 1) := by
  unfold k2_pay4
  show Ideal.div (tot i) (max (cnt i) (Ideal.ofBits .f32 0x3F800000#32)) = _
  rw [ofBits_one]

/-- The two cleared scratch accumulators hold zero. -/
theorem pay5_apply (i : S1x1.Idx) : k2_pay5 (F := Ideal) i = 0 := by
  unfold k2_pay5
  simp only [shapeCast_self, broadcast_apply]
  exact Ideal.ofBits_zero_f32
theorem pay6_apply (i : S1x1.Idx) : k2_pay6 (F := Ideal) i = 0 := by
  unfold k2_pay6
  simp only [shapeCast_self, broadcast_apply]
  exact Ideal.ofBits_zero_f32

end Cert.KernelIdeal.Hand

end
-- ==== Proof.KVal2.lean ====
/-
  What the last layer's region leaves in its 1 × 1 output array, on the extended reals: the tile-wise loss.

  The region runs over 40 tiles of 2000 rows. At tile t the blocks of the aggregate, the features, the degree column, the
  labels and the mask are rows 2000 t … 2000 t + 1999 of their arrays, and the blocks of the two weight matrices and the two
  bias rows are the whole arrays; so the tile's logits, row maxima and log-sum-exp remainders are those of rows
  2000 t + r, and the tile adds its masked loss sum and its mask count to two running totals that start at zero. By
  induction on the tile the totals after tile n are the specification's running totals; after the last tile the output
  block holds (loss total) / max(mask total, 1), and since that block is the whole array and is written back only then,
  the array ends holding it.
-/
import proofs.«400073_j76287209112086_3_alg».proof.Proof.KIReg2
import proofs.«400073_j76287209112086_3_alg».proof.Proof.Spec
import proofs.«400073_j76287209112086_3_alg».proof.Proof.KVal2a
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The blocks the region stages at a point -/

/-- The block indices over the 40 points: the windows of the aggregate, the features, the degree column, the labels and
    the mask move down the rows with the point; the two weight matrices, the two bias rows and the output stay. -/
theorem idx_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_9.index t (0 : Fin 2) = 0 ∧ win2_9.index t (1 : Fin 2) = 0 :=
  (by decide +kernel : ∀ t : Fin grid2.N, _)

/-- Row r of tile t is row 2000 t + r of the array: below 80000, so the reduction modulo 80000 does nothing. -/
theorem rowOf_val (t : Fin cfg2.N) (r : Fin 2000) : (Cert.Spec.rowOf t.val r).val = 2000 * t.val + r.val := by
  have hN : cfg2.N = 40 := N_2
  have ht := t.isLt
  have hr := r.isLt
  show (2000 * t.val + r.val) % 80000 = _
  exact Nat.mod_eq_of_lt (by omega)

/-- The aggregate's block at point t holds rows 2000 t … 2000 t + 1999 of the aggregate. -/
theorem blk0_apply (c : Dev nD) (t : Fin cfg2.N) (r : Fin 2000) (k : Fin 64) :
    (iblk2 V c 0 t : Vec Ideal S2000x64 .f32) (ix2 r k) = V c main_v65 (ix2 (Cert.Spec.rowOf t.val r) k) := by
  obtain ⟨e0, e1, -⟩ := idx_facts2 t
  show V c main_v65 (((cfg2.win 0).blk t).view.emb (ix2 r k)) = _
  refine congrArg (V c main_v65) (funext fun a => Fin.ext ?_)
  match a with
  | ⟨0, _⟩ =>
    show win2_0.index t (0 : Fin 2) * 2000 + 1 * r.val = (Cert.Spec.rowOf t.val r).val
    rw [e0, rowOf_val]; omega
  | ⟨1, _⟩ =>
    show win2_0.index t (1 : Fin 2) * 64 + 1 * k.val = k.val
    rw [e1]; omega

/-- The features' block at point t holds the same rows of the features. -/
theorem blk1_apply (c : Dev nD) (t : Fin cfg2.N) (r : Fin 2000) (k : Fin 64) :
    (iblk2 V c 1 t : Vec Ideal S2000x64 .f32) (ix2 r k) = V c main_v53 (ix2 (Cert.Spec.rowOf t.val r) k) := by
  obtain ⟨-, -, e0, e1, -⟩ := idx_facts2 t
  show V c main_v53 (((cfg2.win 1).blk t).view.emb (ix2 r k)) = _
  refine congrArg (V c main_v53) (funext fun a => Fin.ext ?_)
  match a with
  | ⟨0, _⟩ =>
    show win2_1.index t (0 : Fin 2) * 2000 + 1 * r.val = (Cert.Spec.rowOf t.val r).val
    rw [e0, rowOf_val]; omega
  | ⟨1, _⟩ =>
    show win2_1.index t (1 : Fin 2) * 64 + 1 * k.val = k.val
    rw [e1]; omega

/-- The degree column's block at point t holds the same rows of the degree column. -/
theorem blk2_apply (c : Dev nD) (t : Fin cfg2.N) (r : Fin 2000) (u : Fin 1) :
    (iblk2 V c 2 t : Vec Ideal S2000x1 .f32) (ix2 r u) = V c main_v15 (ix2 (Cert.Spec.rowOf t.val r) u) := by
  obtain ⟨-, -, -, -, e0, e1, -⟩ := idx_facts2 t
  show V c main_v15 (((cfg2.win 2).blk t).view.emb (ix2 r u)) = _
  refine congrArg (V c main_v15) (funext fun a => Fin.ext ?_)
  match a with
  | ⟨0, _⟩ =>
    show win2_2.index t (0 : Fin 2) * 2000 + 1 * r.val = (Cert.Spec.rowOf t.val r).val
    rw [e0, rowOf_val]; omega
  | ⟨1, _⟩ =>
    show win2_2.index t (1 : Fin 2) * 1 + 1 * u.val = u.val
    rw [e1]; omega

/-- The first weight matrix's block is the whole matrix at every point. -/
theorem blk3_eq (c : Dev nD) (t : Fin cfg2.N) : (iblk2 V c 3 t : Vec Ideal S64x40 .f32) = V c main_v20 := by
  obtain ⟨-, -, -, -, -, -, e0, e1, -⟩ := idx_facts2 t
  funext y
  show V c main_v20 (((cfg2.win 3).blk t).view.emb y) = V c main_v20 y
  refine congrArg (V c main_v20) (funext fun a => Fin.ext ?_)
  match a with
  | ⟨0, _⟩ =>
    show win2_3.index t (0 : Fin 2) * 64 + 1 * (y 0).val = (y 0).val
    rw [e0]; omega
  | ⟨1, _⟩ =>
    show win2_3.index t (1 : Fin 2) * 40 + 1 * (y 1).val = (y 1).val
    rw [e1]; omega

/-- The first bias row's block is the whole row at every point. -/
theorem blk4_eq (c : Dev nD) (t : Fin cfg2.N) : (iblk2 V c 4 t : Vec Ideal S1x40 .f32) = V c main_v26 := by
  obtain ⟨-, -, -, -, -, -, -, -, e0, e1, -⟩ := idx_facts2 t
  funext y
  show V c main_v26 (((cfg2.win 4).blk t).view.emb y) = V c main_v26 y
  refine congrArg (V c main_v26) (funext fun a => Fin.ext ?_)
  match a with
  | ⟨0, _⟩ =>
    show win2_4.index t (0 : Fin 2) * 1 + 1 * (y 0).val = (y 0).val
    rw [e0]; omega
  | ⟨1, _⟩ =>
    show win2_4.index t (1 : Fin 2) * 40 + 1 * (y 1).val = (y 1).val
    rw [e1]; omega

/-- The second weight matrix's block is the whole matrix at every point. -/
theorem blk5_eq (c : Dev nD) (t : Fin cfg2.N) : (iblk2 V c 5 t : Vec Ideal S64x40 .f32) = V c main_v21 := by
  obtain ⟨-, -, -, -, -, -, -, -, -, -, e0, e1, -⟩ := idx_facts2 t
  funext y
  show V c main_v21 (((cfg2.win 5).blk t).view.emb y) = V c main_v21 y
  refine congrArg (V c main_v21) (funext fun a => Fin.ext ?_)
  match a with
  | ⟨0, _⟩ =>
    show win2_5.index t (0 : Fin 2) * 64 + 1 * (y 0).val = (y 0).val
    rw [e0]; omega
  | ⟨1, _⟩ =>
    show win2_5.index t (1 : Fin 2) * 40 + 1 * (y 1).val = (y 1).val
    rw [e1]; omega

/-- The second bias row's block is the whole row at every point. -/
theorem blk6_eq (c : Dev nD) (t : Fin cfg2.N) : (iblk2 V c 6 t : Vec Ideal S1x40 .f32) = V c main_v27 := by
  obtain ⟨-, -, -, -, -, -, -, -, -, -, -, -, e0, e1, -⟩ := idx_facts2 t
  funext y
  show V c main_v27 (((cfg2.win 6).blk t).view.emb y) = V c main_v27 y
  refine congrArg (V c main_v27) (funext fun a => Fin.ext ?_)
  match a with
  | ⟨0, _⟩ =>
    show win2_6.index t (0 : Fin 2) * 1 + 1 * (y 0).val = (y 0).val
    rw [e0]; omega
  | ⟨1, _⟩ =>
    show win2_6.index t (1 : Fin 2) * 40 + 1 * (y 1).val = (y 1).val
    rw [e1]; omega

/-- The labels' block at point t holds the same rows of the label column. -/
theorem blk7_apply (c : Dev nD) (t : Fin cfg2.N) (r : Fin 2000) (u : Fin 1) :
    (iblk2 V c 7 t : IVec S2000x1 32) (ix2 r u) = V c main_v66 (ix2 (Cert.Spec.rowOf t.val r) u) := by
  obtain ⟨-, -, -, -, -, -, -, -, -, -, -, -, -, -, e0, e1, -⟩ := idx_facts2 t
  show V c main_v66 (((cfg2.win 7).blk t).view.emb (ix2 r u)) = _
  refine congrArg (V c main_v66) (funext fun a => Fin.ext ?_)
  match a with
  | ⟨0, _⟩ =>
    show win2_7.index t (0 : Fin 2) * 2000 + 1 * r.val = (Cert.Spec.rowOf t.val r).val
    rw [e0, rowOf_val]; omega
  | ⟨1, _⟩ =>
    show win2_7.index t (1 : Fin 2) * 1 + 1 * u.val = u.val
    rw [e1]; omega

/-- The mask's block at point t holds the same rows of the mask column. -/
theorem blk8_apply (c : Dev nD) (t : Fin cfg2.N) (r : Fin 2000) (u : Fin 1) :
    (iblk2 V c 8 t : Vec Ideal S2000x1 .f32) (ix2 r u) = V c main_v68 (ix2 (Cert.Spec.rowOf t.val r) u) := by
  obtain ⟨-, -, -, -, -, -, -, -, -, -, -, -, -, -, -, -, e0, e1, -⟩ := idx_facts2 t
  show V c main_v68 (((cfg2.win 8).blk t).view.emb (ix2 r u)) = _
  refine congrArg (V c main_v68) (funext fun a => Fin.ext ?_)
  match a with
  | ⟨0, _⟩ =>
    show win2_8.index t (0 : Fin 2) * 2000 + 1 * r.val = (Cert.Spec.rowOf t.val r).val
    rw [e0, rowOf_val]; omega
  | ⟨1, _⟩ =>
    show win2_8.index t (1 : Fin 2) * 1 + 1 * u.val = u.val
    rw [e1]; omega

/-! ## The tile's logits, maxima and remainders as the specification's -/

/-- The logits of all 80000 rows, and the labels and the mask read by row, from the arrays the region is entered with. -/
abbrev Zof (c : Dev nD) : FVec Ideal Cert.Spec.S80000x40 .f32 :=
  Cert.Spec.logitK (V c main_v65) (V c main_v53) (V c main_v15) (V c main_v20) (V c main_v21) (V c main_v26) (V c main_v27)
abbrev yvOf (c : Dev nD) : Fin 80000 → BitVec 32 := fun p => (V c main_v66) (ix2 p (0 : Fin 1))
abbrev mvOf (c : Dev nD) : Fin 80000 → EReal := fun p => (V c main_v68) (ix2 p (0 : Fin 1))

/-- The tile's logits at (r, j) are the logits of row 2000 t + r. -/
theorem zb_apply (c : Dev nD) (t : Fin cfg2.N) (r : Fin 2000) (j : Fin 40) :
    zb V c t (ix2 r j) = Zof V c (ix2 (Cert.Spec.rowOf t.val r) j) := by
  refine (pay7_apply (iblk2 V c 0 t) (iblk2 V c 2 t) (iblk2 V c 1 t) (iblk2 V c 3 t) (iblk2 V c 5 t) (iblk2 V c 4 t)
    (iblk2 V c 6 t) r j).trans ?_
  simp only [blk0_apply V c t, blk1_apply V c t, blk2_apply V c t, blk3_eq V c t, blk4_eq V c t, blk5_eq V c t,
    blk6_eq V c t]
  rfl

/-- The tile's row maxima are the rows' largest logits. -/
theorem mb_apply (c : Dev nD) (t : Fin cfg2.N) (r : Fin 2000) (u : Fin 1) :
    mb V c t (ix2 r u) = Cert.Spec.rowMax (Zof V c) (Cert.Spec.rowOf t.val r) := by
  refine (pay8_apply (iblk2 V c 0 t) (iblk2 V c 2 t) (iblk2 V c 1 t) (iblk2 V c 3 t) (iblk2 V c 5 t) (iblk2 V c 4 t)
    (iblk2 V c 6 t) r u).trans ?_
  have e : (fun j : Fin 40 => k2_pay7 (F := Ideal) (iblk2 V c 0 t) (iblk2 V c 2 t) (iblk2 V c 1 t) (iblk2 V c 3 t)
        (iblk2 V c 5 t) (iblk2 V c 4 t) (iblk2 V c 6 t) (ix2 r j))
      = fun j : Fin 40 => Zof V c (ix2 (Cert.Spec.rowOf t.val r) j) := funext fun j => zb_apply V c t r j
  exact congrArg (fun f => (Finset.univ : Finset (Fin 40)).fold max ⊥ f) e

/-- The tile's remainders are the logarithms of the rows' sums of exp(logit − maximum). -/
theorem lb_apply (c : Dev nD) (t : Fin cfg2.N) (r : Fin 2000) (u : Fin 1) :
    lb V c t (ix2 r u) = Ideal.log (∑ j : Fin 40, Ideal.exp (Zof V c (ix2 (Cert.Spec.rowOf t.val r) j)
      - Cert.Spec.rowMax (Zof V c) (Cert.Spec.rowOf t.val r))) := by
  refine (pay9_apply (iblk2 V c 0 t) (iblk2 V c 2 t) (iblk2 V c 1 t) (iblk2 V c 3 t) (iblk2 V c 5 t) (iblk2 V c 4 t)
    (iblk2 V c 6 t) r u).trans ?_
  refine congrArg Ideal.log (Finset.sum_congr rfl fun j _ => ?_)
  refine congrArg Ideal.exp ?_
  exact congrArg₂ (· - ·) (zb_apply V c t r j) (mb_apply V c t r (0 : Fin 1))

/-! ## One tile's contribution to the two running totals -/

/-- The loss total after tile t is the total before it plus the tile's masked loss sum. -/
theorem tile_loss (c : Dev nD) (t : Fin cfg2.N) (acc : FVec Ideal S1x1 .f32) (i : S1x1.Idx) :
    k2_pay2 (F := Ideal) (zb V c t) (mb V c t) (lb V c t) (iblk2 V c 7 t) (iblk2 V c 8 t) acc i
      = acc i + Cert.Spec.tileNll (Zof V c) (yvOf V c) (mvOf V c) t.val := by
  refine (pay2_apply (zb V c t) (mb V c t) (lb V c t) (iblk2 V c 7 t) (iblk2 V c 8 t) acc i).trans ?_
  refine congrArg (acc i + ·) (Finset.sum_congr rfl fun r _ => ?_)
  rw [mb_apply V c t r 0, lb_apply V c t r 0, blk7_apply V c t r 0, blk8_apply V c t r 0]
  simp only [zb_apply V c t r]
  rfl

/-- The mask total after tile t is the total before it plus the tile's mask count. -/
theorem tile_mask (c : Dev nD) (t : Fin cfg2.N) (acc : FVec Ideal S1x1 .f32) (i : S1x1.Idx) :
    k2_pay3 (F := Ideal) (iblk2 V c 8 t) acc i = acc i + Cert.Spec.tileMask (mvOf V c) t.val := by
  refine (pay3_apply (iblk2 V c 8 t) acc i).trans ?_
  exact congrArg (acc i + ·) (Finset.sum_congr rfl fun r _ => blk8_apply V c t r 0)

/-! ## The running totals after each tile, by induction on the point -/

/-- The loss total after point n is the running total of the tiles' masked loss sums, started at zero. -/
theorem loss_total (c : Dev nD) : ∀ (n : ℕ) (hn : n < cfg2.N),
    (outsAt2 V c n hn).2.1 = fun _ => Cert.Spec.accN (Cert.Spec.tileNll (Zof V c) (yvOf V c) (mvOf V c)) n
  | 0, h => by
    rw [nll_acc_zero V c h]
    funext i
    rw [tile_loss V c ⟨0, h⟩ _ i, pay5_apply]
    rfl
  | n + 1, h => by
    rw [nll_acc_succ V c n h]
    funext i
    rw [tile_loss V c ⟨n + 1, h⟩ _ i, loss_total c n (Nat.lt_of_succ_lt h)]
    rfl

/-- The mask total after point n is the running total of the tiles' mask counts, started at zero. -/
theorem mask_total (c : Dev nD) : ∀ (n : ℕ) (hn : n < cfg2.N),
    (outsAt2 V c n hn).2.2 = fun _ => Cert.Spec.accN (Cert.Spec.tileMask (mvOf V c)) n
  | 0, h => by
    rw [mask_acc_zero V c h]
    funext i
    rw [tile_mask V c ⟨0, h⟩ _ i, pay6_apply]
    rfl
  | n + 1, h => by
    rw [mask_acc_succ V c n h]
    funext i
    rw [tile_mask V c ⟨n + 1, h⟩ _ i, mask_total c n (Nat.lt_of_succ_lt h)]
    rfl

/-- After the last tile the output block holds the tile-wise loss. -/
theorem out_eq (c : Dev nD) (h : 39 < cfg2.N) :
    (outsAt2 V c 39 h).1 = fun _ => Cert.Spec.lossK (Zof V c) (yvOf V c) (mvOf V c) := by
  rw [out_last V c h]
  funext i
  rw [pay4_apply, mask_total V c 39 h, loss_total V c 39 h]
  rfl

/-! ## The output array after the run -/

/-- The output's block at the last point is the whole 1 × 1 array. -/
theorem cover9 (h39 : 39 < cfg2.N) (i : S1x1.Idx) : i ∈ ((cfg2.win 9).blk ⟨39, h39⟩).view.set := by
  obtain ⟨-, -, -, -, -, -, -, -, -, -, -, -, -, -, -, -, -, -, e0, e1⟩ := idx_facts2 ⟨39, h39⟩
  show i ∈ ((View.whole main_v69).slice (win2_9.rect ⟨39, h39⟩)).set
  rw [View.set_slice_whole, Rect.mem_set_unit]
  intro a
  have h0 : (i 0).val < 1 := (i 0).isLt
  have h1 : (i 1).val < 1 := (i 1).isLt
  match a with
  | ⟨0, _⟩ =>
    show win2_9.index ⟨39, h39⟩ (0 : Fin 2) * 1 ≤ (i 0).val ∧ (i 0).val < win2_9.index ⟨39, h39⟩ (0 : Fin 2) * 1 + 1
    rw [e0]; omega
  | ⟨1, _⟩ =>
    show win2_9.index ⟨39, h39⟩ (1 : Fin 2) * 1 ≤ (i 1).val ∧ (i 1).val < win2_9.index ⟨39, h39⟩ (1 : Fin 2) * 1 + 1
    rw [e1]; omega

/-- The output's one block is written back only after the last tile, and that block is the whole array: the array
    ends holding the tile-wise loss. -/
theorem final2 (c : Dev nD) : (dat2 (F := Ideal) V c).arrAt 9 cfg2.N
      = fun _ => Cert.Spec.lossK
          (Cert.Spec.logitK (V c main_v65) (V c main_v53) (V c main_v15) (V c main_v20) (V c main_v21) (V c main_v26) (V c main_v27))
          (fun p => (V c main_v66) (ValueIdx.ix2 p (0 : Fin 1))) (fun p => (V c main_v68) (ValueIdx.ix2 p (0 : Fin 1))) := by
  have hN : cfg2.N = 40 := N_2
  have h39 : 39 < cfg2.N := by omega
  refine (dat2 (F := Ideal) V c).arrAt_eq_of_cover 9 _ (fun t hf => ?_)
    (fun i => ⟨⟨39, h39⟩, (flush2_9 ⟨39, h39⟩).mpr rfl, cover9 h39 i⟩)
  have ht : t.val = 39 := by
    have h1 := (flush2_9 t).mp hf
    have h2 := t.isLt
    omega
  obtain rfl : t = ⟨39, h39⟩ := Fin.ext ht
  show (cfg2.win 9).cut (cfg2.grid.coords ⟨39, h39⟩) ((dat2 (F := Ideal) V c).after 9 ⟨39, h39⟩) = _
  rw [after2_9 V c ⟨39, h39⟩, out_eq V c h39]
  rfl

end Cert.KernelIdeal.Hand

end
-- ==== Proof.KHost.lean ====
/-
  The host stretches of the kernel program read on the extended reals, and the two spellings of a layer.

  Between its three kernel regions the program runs straight lines of whole-array operations.  Read at exact arithmetic,
  each line's result buffers are plain terms over the contents it started from:

  * the opening three lines cut the edge list into its destination row and its source row, count each node's incoming
    edges and take the reciprocal count (zero for an isolated node), lay the reciprocal out as a column, transpose the six
    weight matrices, lay the six biases out as rows, and form the first aggregation — gather each edge's source row of
    the features, add it into the edge's destination row.  The gather runs on the features rounded to a narrower float
    format and widened back; at exact arithmetic a change of format is the identity, so the aggregation is the one the
    specification states;
  * the line before the second region and the line before the third form the same aggregation of the previous region's
    output, from the two edge rows the opening lines left; the latter also lays the labels out as a column and the mask,
    converted to numbers, as a column;
  * the closing line reads the 1×1 result as a scalar.

  Every line leaves each buffer it does not write as it was; in particular the sixteen argument arrays pass through the
  opening lines unchanged.

  The second half is index bookkeeping: a layer evaluated on the operands as the regions see them (the reciprocal degree
  as a column, each weight matrix transposed, each bias as a row) is the layer evaluated on the arguments themselves,
  because a column read at (p, 0) is the vector at p, a transpose read at (k, q) is the matrix at (q, k), and a row read
  at (0, q) is the vector at q.  The label column and the mask column read at (p, 0) are the label and the mask of row p.
-/
import proofs.«400073_j76287209112086_3_alg».proof.Proof.Gen.KernelIdeal.Launch
import proofs.«400073_j76287209112086_3_alg».proof.Proof.Gen.KernelIdeal.Regions
import proofs.«400073_j76287209112086_3_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## The destination row of the edge list -/

/-- Row 0 of the edge list as a vector: each edge's destination node. -/
def dstRaw (e : IVec S2x1280000 32) : IVec S1280000 32 :=
  shapeCast S1280000 (extractStridedSlice S1x1280000 ![0, 0] e slices_S2x1280000_S1x1280000_0_0) shapeCasts_S1x1280000_S1280000

/-- The column of scatter indices is the destination row laid out as a column. -/
theorem dstIdx_eq (e : IVec S2x1280000 32) :
    Spec.dstIdx e = broadcastInDim S1280000x1 ![0] bcast_S1280000_S1280000x1_0 (dstRaw e) := rfl

/-! ## The first stretch: the edge rows, the degree's comparison and quotient -/

theorem host0_v1 (W : Valuation τ sig (Elt Ideal)) :
    (StableHlo.after hostOps0 W main_v1 : IVec S1280000 32) = dstRaw (W main_arg13) := by
  simp only [hostOps0]
  after_results_simp
  rfl

theorem host0_v3 (W : Valuation τ sig (Elt Ideal)) :
    (StableHlo.after hostOps0 W main_v3 : IVec S1280000 32) = Spec.srcRaw (W main_arg13) := by
  simp only [hostOps0]
  after_results_simp
  rfl

theorem host0_v9 (W : Valuation τ sig (Elt Ideal)) :
    (StableHlo.after hostOps0 W main_v9 : IVec S80000 1)
      = cmpf .ogt (Spec.deg (W main_arg13)) (broadcastInDim S80000 ![] bcast_S_S80000 (constant (F := Ideal) S_ .f32 0x00000000#32)) := by
  simp only [hostOps0]
  after_results_simp
  rfl

theorem host0_v13 (W : Valuation τ sig (Elt Ideal)) :
    (StableHlo.after hostOps0 W main_v13 : FVec Ideal S80000 .f32)
      = Host.divf (broadcastInDim S80000 ![] bcast_S_S80000 (constant (F := Ideal) S_ .f32 0x3F800000#32))
          (maximumf (Spec.deg (W main_arg13)) (broadcastInDim S80000 ![] bcast_S_S80000 (constant (F := Ideal) S_ .f32 0x3F800000#32))) := by
  simp only [hostOps0]
  after_results_simp
  rfl

theorem host0_cst4 (W : Valuation τ sig (Elt Ideal)) :
    (StableHlo.after hostOps0 W main_cst_4 : FVec Ideal S_ .f32) = constant (F := Ideal) S_ .f32 0x00000000#32 := by
  simp only [hostOps0]
  after_results_simp

/-! ## The second stretch: the degree's selection -/

theorem host01_v14 (W : Valuation τ sig (Elt Ideal)) :
    (StableHlo.after hostOps0_1 W main_v14 : FVec Ideal S80000 .f32)
      = select (W main_v9 : IVec S80000 1) (W main_v13 : FVec Ideal S80000 .f32)
          (broadcastInDim S80000 ![] bcast_S_S80000 (W main_cst_4 : FVec Ideal S_ .f32)) := by
  simp only [hostOps0_1]
  after_results_simp
  rfl

/-! ## The third stretch: the operands' reshapes and transposes, and the first aggregation -/

theorem host02_v39 (W : Valuation τ sig (Elt Ideal)) (e : IVec S2x1280000 32)
    (h1 : (W main_v1 : IVec S1280000 32) = dstRaw e) (h3 : (W main_v3 : IVec S1280000 32) = Spec.srcRaw e) :
    (StableHlo.after hostOps0_2 W main_v39 : FVec Ideal S80000x64 .f32) = Spec.AG e (W main_arg0) := by
  simp only [hostOps0_2]
  after_results_simp
  rw [h1, h3]
  rfl

theorem host02_v15 (W : Valuation τ sig (Elt Ideal)) :
    (StableHlo.after hostOps0_2 W main_v15 : FVec Ideal S80000x1 .f32)
      = shapeCast S80000x1 (W main_v14 : FVec Ideal S80000 .f32) shapeCasts_S80000_S80000x1 := by
  simp only [hostOps0_2]
  after_results_simp
  rfl

theorem host02_v1 (W : Valuation τ sig (Elt Ideal)) :
    StableHlo.after hostOps0_2 W main_v1 = W main_v1 :=
  StableHlo.after_of_writes_sub hostOps0_2 _ hostOps0_2_writes (by decide)

/-! ### The weights transposed and the biases as rows, after the third stretch -/

theorem host02_v16 (W : Valuation τ sig (Elt Ideal)) :
    (StableHlo.after hostOps0_2 W main_v16 : FVec Ideal S64x64 .f32)
      = transpose S64x64 [1, 0] (W main_arg1 : FVec Ideal S64x64 .f32) transposes_S64x64_S64x64_1_0 := by
  simp only [hostOps0_2]
  after_results_simp

theorem host02_v17 (W : Valuation τ sig (Elt Ideal)) :
    (StableHlo.after hostOps0_2 W main_v17 : FVec Ideal S64x64 .f32)
      = transpose S64x64 [1, 0] (W main_arg3 : FVec Ideal S64x64 .f32) transposes_S64x64_S64x64_1_0 := by
  simp only [hostOps0_2]
  after_results_simp

theorem host02_v18 (W : Valuation τ sig (Elt Ideal)) :
    (StableHlo.after hostOps0_2 W main_v18 : FVec Ideal S64x64 .f32)
      = transpose S64x64 [1, 0] (W main_arg5 : FVec Ideal S64x64 .f32) transposes_S64x64_S64x64_1_0 := by
  simp only [hostOps0_2]
  after_results_simp

theorem host02_v19 (W : Valuation τ sig (Elt Ideal)) :
    (StableHlo.after hostOps0_2 W main_v19 : FVec Ideal S64x64 .f32)
      = transpose S64x64 [1, 0] (W main_arg7 : FVec Ideal S64x64 .f32) transposes_S64x64_S64x64_1_0 := by
  simp only [hostOps0_2]
  after_results_simp

theorem host02_v20 (W : Valuation τ sig (Elt Ideal)) :
    (StableHlo.after hostOps0_2 W main_v20 : FVec Ideal S64x40 .f32)
      = transpose S64x40 [1, 0] (W main_arg9 : FVec Ideal S40x64 .f32) transposes_S40x64_S64x40_1_0 := by
  simp only [hostOps0_2]
  after_results_simp

theorem host02_v21 (W : Valuation τ sig (Elt Ideal)) :
    (StableHlo.after hostOps0_2 W main_v21 : FVec Ideal S64x40 .f32)
      = transpose S64x40 [1, 0] (W main_arg11 : FVec Ideal S40x64 .f32) transposes_S40x64_S64x40_1_0 := by
  simp only [hostOps0_2]
  after_results_simp

theorem host02_v22 (W : Valuation τ sig (Elt Ideal)) :
    (StableHlo.after hostOps0_2 W main_v22 : FVec Ideal S1x64 .f32)
      = shapeCast S1x64 (W main_arg2 : FVec Ideal S64 .f32) shapeCasts_S64_S1x64 := by
  simp only [hostOps0_2]
  after_results_simp
  rfl

theorem host02_v23 (W : Valuation τ sig (Elt Ideal)) :
    (StableHlo.after hostOps0_2 W main_v23 : FVec Ideal S1x64 .f32)
      = shapeCast S1x64 (W main_arg4 : FVec Ideal S64 .f32) shapeCasts_S64_S1x64 := by
  simp only [hostOps0_2]
  after_results_simp
  rfl

theorem host02_v24 (W : Valuation τ sig (Elt Ideal)) :
    (StableHlo.after hostOps0_2 W main_v24 : FVec Ideal S1x64 .f32)
      = shapeCast S1x64 (W main_arg6 : FVec Ideal S64 .f32) shapeCasts_S64_S1x64 := by
  simp only [hostOps0_2]
  after_results_simp
  rfl

theorem host02_v25 (W : Valuation τ sig (Elt Ideal)) :
    (StableHlo.after hostOps0_2 W main_v25 : FVec Ideal S1x64 .f32)
      = shapeCast S1x64 (W main_arg8 : FVec Ideal S64 .f32) shapeCasts_S64_S1x64 := by
  simp only [hostOps0_2]
  after_results_simp
  rfl

theorem host02_v26 (W : Valuation τ sig (Elt Ideal)) :
    (StableHlo.after hostOps0_2 W main_v26 : FVec Ideal S1x40 .f32)
      = shapeCast S1x40 (W main_arg10 : FVec Ideal S40 .f32) shapeCasts_S40_S1x40 := by
  simp only [hostOps0_2]
  after_results_simp
  rfl

theorem host02_v27 (W : Valuation τ sig (Elt Ideal)) :
    (StableHlo.after hostOps0_2 W main_v27 : FVec Ideal S1x40 .f32)
      = shapeCast S1x40 (W main_arg12 : FVec Ideal S40 .f32) shapeCasts_S40_S1x40 := by
  simp only [hostOps0_2]
  after_results_simp
  rfl

/-! ## What a stretch does not write, it leaves -/

theorem host0_of (W : Valuation τ sig (Elt Ideal)) (r : Ref sig .tc) (h : r ∉ hostOps0_W) :
    StableHlo.after hostOps0 W r = W r :=
  StableHlo.after_of_writes_sub hostOps0 _ hostOps0_writes h

theorem host01_of (W : Valuation τ sig (Elt Ideal)) (r : Ref sig .tc) (h : r ∉ hostOps0_1_W) :
    StableHlo.after hostOps0_1 W r = W r :=
  StableHlo.after_of_writes_sub hostOps0_1 _ hostOps0_1_writes h

theorem host02_of (W : Valuation τ sig (Elt Ideal)) (r : Ref sig .tc) (h : r ∉ hostOps0_2_W) :
    StableHlo.after hostOps0_2 W r = W r :=
  StableHlo.after_of_writes_sub hostOps0_2 _ hostOps0_2_writes h

theorem host_mid1_of (W : Valuation τ sig (Elt Ideal)) (r : Ref sig .tc) (h : r ∉ hostOps1_W) :
    StableHlo.after hostOps1 W r = W r :=
  StableHlo.after_of_writes_sub hostOps1 _ hostOps1_writes h

theorem host_mid2_of (W : Valuation τ sig (Elt Ideal)) (r : Ref sig .tc) (h : r ∉ hostOps2_W) :
    StableHlo.after hostOps2 W r = W r :=
  StableHlo.after_of_writes_sub hostOps2 _ hostOps2_writes h

theorem host_exit_of (W : Valuation τ sig (Elt Ideal)) (r : Ref sig .tc) (h : r ∉ hostOps3_W) :
    StableHlo.after hostOps3 W r = W r :=
  StableHlo.after_of_writes_sub hostOps3 _ hostOps3_writes h

/-- Through the first two stretches. -/
theorem host_pre_of (W : Valuation τ sig (Elt Ideal)) (r : Ref sig .tc) (h0 : r ∉ hostOps0_W) (h1 : r ∉ hostOps0_1_W) :
    StableHlo.after hostOps0_1 (StableHlo.after hostOps0 W) r = W r :=
  (host01_of _ r h1).trans (host0_of W r h0)

/-- Through the three opening stretches. -/
theorem host_entry_of (W : Valuation τ sig (Elt Ideal)) (r : Ref sig .tc) (h0 : r ∉ hostOps0_W) (h1 : r ∉ hostOps0_1_W)
    (h2 : r ∉ hostOps0_2_W) : StableHlo.after hostOps0_2 (StableHlo.after hostOps0_1 (StableHlo.after hostOps0 W)) r = W r :=
  (host02_of _ r h2).trans (host_pre_of W r h0 h1)

/-! ## The contents at the first region's entry -/

/-- The reciprocal in-degree, after the second stretch. -/
theorem host_pre_v14 (W : Valuation τ sig (Elt Ideal)) :
    (StableHlo.after hostOps0_1 (StableHlo.after hostOps0 W) main_v14 : FVec Ideal S80000 .f32) = Spec.DG (W main_arg13) := by
  rw [host01_v14, host0_v9, host0_v13, host0_cst4]
  rfl

theorem host_entry_v39 (W : Valuation τ sig (Elt Ideal)) :
    (StableHlo.after hostOps0_2 (StableHlo.after hostOps0_1 (StableHlo.after hostOps0 W)) main_v39 : FVec Ideal S80000x64 .f32) = Spec.AG (W main_arg13) (W main_arg0) :=
  (host02_v39 _ (W main_arg13)
    ((host01_of _ main_v1 (by decide)).trans (host0_v1 W))
    ((host01_of _ main_v3 (by decide)).trans (host0_v3 W))).trans
  (congrArg (Spec.AG (W main_arg13)) (host_pre_of W main_arg0 (by decide) (by decide)))

theorem host_entry_v15 (W : Valuation τ sig (Elt Ideal)) :
    (StableHlo.after hostOps0_2 (StableHlo.after hostOps0_1 (StableHlo.after hostOps0 W)) main_v15 : FVec Ideal S80000x1 .f32)
      = shapeCast S80000x1 (Spec.DG (W main_arg13)) shapeCasts_S80000_S80000x1 :=
  (host02_v15 _).trans (congrArg (fun v => shapeCast S80000x1 v shapeCasts_S80000_S80000x1) (host_pre_v14 W))

theorem host_entry_v1 (W : Valuation τ sig (Elt Ideal)) :
    (StableHlo.after hostOps0_2 (StableHlo.after hostOps0_1 (StableHlo.after hostOps0 W)) main_v1 : IVec S1280000 32) = dstRaw (W main_arg13) :=
  (host02_of _ main_v1 (by decide)).trans ((host01_of _ main_v1 (by decide)).trans (host0_v1 W))

theorem host_entry_v3 (W : Valuation τ sig (Elt Ideal)) :
    (StableHlo.after hostOps0_2 (StableHlo.after hostOps0_1 (StableHlo.after hostOps0 W)) main_v3 : IVec S1280000 32) = Spec.srcRaw (W main_arg13) :=
  (host02_of _ main_v3 (by decide)).trans ((host01_of _ main_v3 (by decide)).trans (host0_v3 W))

/-! ### The weights transposed and the biases as rows, at the first region's entry -/

theorem host_entry_v16 (W : Valuation τ sig (Elt Ideal)) :
    (StableHlo.after hostOps0_2 (StableHlo.after hostOps0_1 (StableHlo.after hostOps0 W)) main_v16 : FVec Ideal S64x64 .f32)
      = transpose S64x64 [1, 0] (W main_arg1 : FVec Ideal S64x64 .f32) transposes_S64x64_S64x64_1_0 :=
  (host02_v16 _).trans (congrArg (fun v => transpose S64x64 [1, 0] v transposes_S64x64_S64x64_1_0) (host_pre_of W main_arg1 (by decide) (by decide)))

theorem host_entry_v17 (W : Valuation τ sig (Elt Ideal)) :
    (StableHlo.after hostOps0_2 (StableHlo.after hostOps0_1 (StableHlo.after hostOps0 W)) main_v17 : FVec Ideal S64x64 .f32)
      = transpose S64x64 [1, 0] (W main_arg3 : FVec Ideal S64x64 .f32) transposes_S64x64_S64x64_1_0 :=
  (host02_v17 _).trans (congrArg (fun v => transpose S64x64 [1, 0] v transposes_S64x64_S64x64_1_0) (host_pre_of W main_arg3 (by decide) (by decide)))

theorem host_entry_v18 (W : Valuation τ sig (Elt Ideal)) :
    (StableHlo.after hostOps0_2 (StableHlo.after hostOps0_1 (StableHlo.after hostOps0 W)) main_v18 : FVec Ideal S64x64 .f32)
      = transpose S64x64 [1, 0] (W main_arg5 : FVec Ideal S64x64 .f32) transposes_S64x64_S64x64_1_0 :=
  (host02_v18 _).trans (congrArg (fun v => transpose S64x64 [1, 0] v transposes_S64x64_S64x64_1_0) (host_pre_of W main_arg5 (by decide) (by decide)))

theorem host_entry_v19 (W : Valuation τ sig (Elt Ideal)) :
    (StableHlo.after hostOps0_2 (StableHlo.after hostOps0_1 (StableHlo.after hostOps0 W)) main_v19 : FVec Ideal S64x64 .f32)
      = transpose S64x64 [1, 0] (W main_arg7 : FVec Ideal S64x64 .f32) transposes_S64x64_S64x64_1_0 :=
  (host02_v19 _).trans (congrArg (fun v => transpose S64x64 [1, 0] v transposes_S64x64_S64x64_1_0) (host_pre_of W main_arg7 (by decide) (by decide)))

theorem host_entry_v20 (W : Valuation τ sig (Elt Ideal)) :
    (StableHlo.after hostOps0_2 (StableHlo.after hostOps0_1 (StableHlo.after hostOps0 W)) main_v20 : FVec Ideal S64x40 .f32)
      = transpose S64x40 [1, 0] (W main_arg9 : FVec Ideal S40x64 .f32) transposes_S40x64_S64x40_1_0 :=
  (host02_v20 _).trans (congrArg (fun v => transpose S64x40 [1, 0] v transposes_S40x64_S64x40_1_0) (host_pre_of W main_arg9 (by decide) (by decide)))

theorem host_entry_v21 (W : Valuation τ sig (Elt Ideal)) :
    (StableHlo.after hostOps0_2 (StableHlo.after hostOps0_1 (StableHlo.after hostOps0 W)) main_v21 : FVec Ideal S64x40 .f32)
      = transpose S64x40 [1, 0] (W main_arg11 : FVec Ideal S40x64 .f32) transposes_S40x64_S64x40_1_0 :=
  (host02_v21 _).trans (congrArg (fun v => transpose S64x40 [1, 0] v transposes_S40x64_S64x40_1_0) (host_pre_of W main_arg11 (by decide) (by decide)))

theorem host_entry_v22 (W : Valuation τ sig (Elt Ideal)) :
    (StableHlo.after hostOps0_2 (StableHlo.after hostOps0_1 (StableHlo.after hostOps0 W)) main_v22 : FVec Ideal S1x64 .f32)
      = shapeCast S1x64 (W main_arg2 : FVec Ideal S64 .f32) shapeCasts_S64_S1x64 :=
  (host02_v22 _).trans (congrArg (fun v => shapeCast S1x64 v shapeCasts_S64_S1x64) (host_pre_of W main_arg2 (by decide) (by decide)))

theorem host_entry_v23 (W : Valuation τ sig (Elt Ideal)) :
    (StableHlo.after hostOps0_2 (StableHlo.after hostOps0_1 (StableHlo.after hostOps0 W)) main_v23 : FVec Ideal S1x64 .f32)
      = shapeCast S1x64 (W main_arg4 : FVec Ideal S64 .f32) shapeCasts_S64_S1x64 :=
  (host02_v23 _).trans (congrArg (fun v => shapeCast S1x64 v shapeCasts_S64_S1x64) (host_pre_of W main_arg4 (by decide) (by decide)))

theorem host_entry_v24 (W : Valuation τ sig (Elt Ideal)) :
    (StableHlo.after hostOps0_2 (StableHlo.after hostOps0_1 (StableHlo.after hostOps0 W)) main_v24 : FVec Ideal S1x64 .f32)
      = shapeCast S1x64 (W main_arg6 : FVec Ideal S64 .f32) shapeCasts_S64_S1x64 :=
  (host02_v24 _).trans (congrArg (fun v => shapeCast S1x64 v shapeCasts_S64_S1x64) (host_pre_of W main_arg6 (by decide) (by decide)))

theorem host_entry_v25 (W : Valuation τ sig (Elt Ideal)) :
    (StableHlo.after hostOps0_2 (StableHlo.after hostOps0_1 (StableHlo.after hostOps0 W)) main_v25 : FVec Ideal S1x64 .f32)
      = shapeCast S1x64 (W main_arg8 : FVec Ideal S64 .f32) shapeCasts_S64_S1x64 :=
  (host02_v25 _).trans (congrArg (fun v => shapeCast S1x64 v shapeCasts_S64_S1x64) (host_pre_of W main_arg8 (by decide) (by decide)))

theorem host_entry_v26 (W : Valuation τ sig (Elt Ideal)) :
    (StableHlo.after hostOps0_2 (StableHlo.after hostOps0_1 (StableHlo.after hostOps0 W)) main_v26 : FVec Ideal S1x40 .f32)
      = shapeCast S1x40 (W main_arg10 : FVec Ideal S40 .f32) shapeCasts_S40_S1x40 :=
  (host02_v26 _).trans (congrArg (fun v => shapeCast S1x40 v shapeCasts_S40_S1x40) (host_pre_of W main_arg10 (by decide) (by decide)))

theorem host_entry_v27 (W : Valuation τ sig (Elt Ideal)) :
    (StableHlo.after hostOps0_2 (StableHlo.after hostOps0_1 (StableHlo.after hostOps0 W)) main_v27 : FVec Ideal S1x40 .f32)
      = shapeCast S1x40 (W main_arg12 : FVec Ideal S40 .f32) shapeCasts_S40_S1x40 :=
  (host02_v27 _).trans (congrArg (fun v => shapeCast S1x40 v shapeCasts_S40_S1x40) (host_pre_of W main_arg12 (by decide) (by decide)))

/-- The contents at the first region's entry, together. -/
theorem host_entry (W : Valuation τ sig (Elt Ideal)) :
    (StableHlo.after hostOps0_2 (StableHlo.after hostOps0_1 (StableHlo.after hostOps0 W)) main_v39 : FVec Ideal S80000x64 .f32) = Spec.AG (W main_arg13) (W main_arg0)
    ∧ (StableHlo.after hostOps0_2 (StableHlo.after hostOps0_1 (StableHlo.after hostOps0 W)) main_v15 : FVec Ideal S80000x1 .f32)
        = shapeCast S80000x1 (Spec.DG (W main_arg13)) shapeCasts_S80000_S80000x1
    ∧ (StableHlo.after hostOps0_2 (StableHlo.after hostOps0_1 (StableHlo.after hostOps0 W)) main_v16 : FVec Ideal S64x64 .f32)
        = transpose S64x64 [1, 0] (W main_arg1 : FVec Ideal S64x64 .f32) transposes_S64x64_S64x64_1_0
    ∧ (StableHlo.after hostOps0_2 (StableHlo.after hostOps0_1 (StableHlo.after hostOps0 W)) main_v17 : FVec Ideal S64x64 .f32)
        = transpose S64x64 [1, 0] (W main_arg3 : FVec Ideal S64x64 .f32) transposes_S64x64_S64x64_1_0
    ∧ (StableHlo.after hostOps0_2 (StableHlo.after hostOps0_1 (StableHlo.after hostOps0 W)) main_v18 : FVec Ideal S64x64 .f32)
        = transpose S64x64 [1, 0] (W main_arg5 : FVec Ideal S64x64 .f32) transposes_S64x64_S64x64_1_0
    ∧ (StableHlo.after hostOps0_2 (StableHlo.after hostOps0_1 (StableHlo.after hostOps0 W)) main_v19 : FVec Ideal S64x64 .f32)
        = transpose S64x64 [1, 0] (W main_arg7 : FVec Ideal S64x64 .f32) transposes_S64x64_S64x64_1_0
    ∧ (StableHlo.after hostOps0_2 (StableHlo.after hostOps0_1 (StableHlo.after hostOps0 W)) main_v20 : FVec Ideal S64x40 .f32)
        = transpose S64x40 [1, 0] (W main_arg9 : FVec Ideal S40x64 .f32) transposes_S40x64_S64x40_1_0
    ∧ (StableHlo.after hostOps0_2 (StableHlo.after hostOps0_1 (StableHlo.after hostOps0 W)) main_v21 : FVec Ideal S64x40 .f32)
        = transpose S64x40 [1, 0] (W main_arg11 : FVec Ideal S40x64 .f32) transposes_S40x64_S64x40_1_0
    ∧ (StableHlo.after hostOps0_2 (StableHlo.after hostOps0_1 (StableHlo.after hostOps0 W)) main_v22 : FVec Ideal S1x64 .f32)
        = shapeCast S1x64 (W main_arg2 : FVec Ideal S64 .f32) shapeCasts_S64_S1x64
    ∧ (StableHlo.after hostOps0_2 (StableHlo.after hostOps0_1 (StableHlo.after hostOps0 W)) main_v23 : FVec Ideal S1x64 .f32)
        = shapeCast S1x64 (W main_arg4 : FVec Ideal S64 .f32) shapeCasts_S64_S1x64
    ∧ (StableHlo.after hostOps0_2 (StableHlo.after hostOps0_1 (StableHlo.after hostOps0 W)) main_v24 : FVec Ideal S1x64 .f32)
        = shapeCast S1x64 (W main_arg6 : FVec Ideal S64 .f32) shapeCasts_S64_S1x64
    ∧ (StableHlo.after hostOps0_2 (StableHlo.after hostOps0_1 (StableHlo.after hostOps0 W)) main_v25 : FVec Ideal S1x64 .f32)
        = shapeCast S1x64 (W main_arg8 : FVec Ideal S64 .f32) shapeCasts_S64_S1x64
    ∧ (StableHlo.after hostOps0_2 (StableHlo.after hostOps0_1 (StableHlo.after hostOps0 W)) main_v26 : FVec Ideal S1x40 .f32)
        = shapeCast S1x40 (W main_arg10 : FVec Ideal S40 .f32) shapeCasts_S40_S1x40
    ∧ (StableHlo.after hostOps0_2 (StableHlo.after hostOps0_1 (StableHlo.after hostOps0 W)) main_v27 : FVec Ideal S1x40 .f32)
        = shapeCast S1x40 (W main_arg12 : FVec Ideal S40 .f32) shapeCasts_S40_S1x40
    ∧ (StableHlo.after hostOps0_2 (StableHlo.after hostOps0_1 (StableHlo.after hostOps0 W)) main_v1 : IVec S1280000 32) = dstRaw (W main_arg13)
    ∧ (StableHlo.after hostOps0_2 (StableHlo.after hostOps0_1 (StableHlo.after hostOps0 W)) main_v3 : IVec S1280000 32) = Spec.srcRaw (W main_arg13) :=
  ⟨host_entry_v39 W, host_entry_v15 W, host_entry_v16 W, host_entry_v17 W, host_entry_v18 W, host_entry_v19 W, host_entry_v20 W, host_entry_v21 W, host_entry_v22 W, host_entry_v23 W, host_entry_v24 W, host_entry_v25 W, host_entry_v26 W, host_entry_v27 W,
    host_entry_v1 W, host_entry_v3 W⟩

/-! ### The arguments are as they were -/

theorem host_entry_arg0 (W : Valuation τ sig (Elt Ideal)) : StableHlo.after hostOps0_2 (StableHlo.after hostOps0_1 (StableHlo.after hostOps0 W)) main_arg0 = W main_arg0 :=
  host_entry_of W main_arg0 (by decide) (by decide) (by decide)

theorem host_entry_arg1 (W : Valuation τ sig (Elt Ideal)) : StableHlo.after hostOps0_2 (StableHlo.after hostOps0_1 (StableHlo.after hostOps0 W)) main_arg1 = W main_arg1 :=
  host_entry_of W main_arg1 (by decide) (by decide) (by decide)

theorem host_entry_arg2 (W : Valuation τ sig (Elt Ideal)) : StableHlo.after hostOps0_2 (StableHlo.after hostOps0_1 (StableHlo.after hostOps0 W)) main_arg2 = W main_arg2 :=
  host_entry_of W main_arg2 (by decide) (by decide) (by decide)

theorem host_entry_arg3 (W : Valuation τ sig (Elt Ideal)) : StableHlo.after hostOps0_2 (StableHlo.after hostOps0_1 (StableHlo.after hostOps0 W)) main_arg3 = W main_arg3 :=
  host_entry_of W main_arg3 (by decide) (by decide) (by decide)

theorem host_entry_arg4 (W : Valuation τ sig (Elt Ideal)) : StableHlo.after hostOps0_2 (StableHlo.after hostOps0_1 (StableHlo.after hostOps0 W)) main_arg4 = W main_arg4 :=
  host_entry_of W main_arg4 (by decide) (by decide) (by decide)

theorem host_entry_arg5 (W : Valuation τ sig (Elt Ideal)) : StableHlo.after hostOps0_2 (StableHlo.after hostOps0_1 (StableHlo.after hostOps0 W)) main_arg5 = W main_arg5 :=
  host_entry_of W main_arg5 (by decide) (by decide) (by decide)

theorem host_entry_arg6 (W : Valuation τ sig (Elt Ideal)) : StableHlo.after hostOps0_2 (StableHlo.after hostOps0_1 (StableHlo.after hostOps0 W)) main_arg6 = W main_arg6 :=
  host_entry_of W main_arg6 (by decide) (by decide) (by decide)

theorem host_entry_arg7 (W : Valuation τ sig (Elt Ideal)) : StableHlo.after hostOps0_2 (StableHlo.after hostOps0_1 (StableHlo.after hostOps0 W)) main_arg7 = W main_arg7 :=
  host_entry_of W main_arg7 (by decide) (by decide) (by decide)

theorem host_entry_arg8 (W : Valuation τ sig (Elt Ideal)) : StableHlo.after hostOps0_2 (StableHlo.after hostOps0_1 (StableHlo.after hostOps0 W)) main_arg8 = W main_arg8 :=
  host_entry_of W main_arg8 (by decide) (by decide) (by decide)

theorem host_entry_arg9 (W : Valuation τ sig (Elt Ideal)) : StableHlo.after hostOps0_2 (StableHlo.after hostOps0_1 (StableHlo.after hostOps0 W)) main_arg9 = W main_arg9 :=
  host_entry_of W main_arg9 (by decide) (by decide) (by decide)

theorem host_entry_arg10 (W : Valuation τ sig (Elt Ideal)) : StableHlo.after hostOps0_2 (StableHlo.after hostOps0_1 (StableHlo.after hostOps0 W)) main_arg10 = W main_arg10 :=
  host_entry_of W main_arg10 (by decide) (by decide) (by decide)

theorem host_entry_arg11 (W : Valuation τ sig (Elt Ideal)) : StableHlo.after hostOps0_2 (StableHlo.after hostOps0_1 (StableHlo.after hostOps0 W)) main_arg11 = W main_arg11 :=
  host_entry_of W main_arg11 (by decide) (by decide) (by decide)

theorem host_entry_arg12 (W : Valuation τ sig (Elt Ideal)) : StableHlo.after hostOps0_2 (StableHlo.after hostOps0_1 (StableHlo.after hostOps0 W)) main_arg12 = W main_arg12 :=
  host_entry_of W main_arg12 (by decide) (by decide) (by decide)

theorem host_entry_arg13 (W : Valuation τ sig (Elt Ideal)) : StableHlo.after hostOps0_2 (StableHlo.after hostOps0_1 (StableHlo.after hostOps0 W)) main_arg13 = W main_arg13 :=
  host_entry_of W main_arg13 (by decide) (by decide) (by decide)

theorem host_entry_arg14 (W : Valuation τ sig (Elt Ideal)) : StableHlo.after hostOps0_2 (StableHlo.after hostOps0_1 (StableHlo.after hostOps0 W)) main_arg14 = W main_arg14 :=
  host_entry_of W main_arg14 (by decide) (by decide) (by decide)

theorem host_entry_arg15 (W : Valuation τ sig (Elt Ideal)) : StableHlo.after hostOps0_2 (StableHlo.after hostOps0_1 (StableHlo.after hostOps0 W)) main_arg15 = W main_arg15 :=
  host_entry_of W main_arg15 (by decide) (by decide) (by decide)

/-! ## The stretch before the second region, the stretch before the third, and the closing operation -/

/-- Before the second region: the aggregation of the first region's output. -/
theorem host_mid1 (W : Valuation τ sig (Elt Ideal)) (e : IVec S2x1280000 32)
    (h1 : (W main_v1 : IVec S1280000 32) = dstRaw e) (h3 : (W main_v3 : IVec S1280000 32) = Spec.srcRaw e) :
    (StableHlo.after hostOps1 W main_v52 : FVec Ideal S80000x64 .f32) = Spec.AG e (W main_v40) := by
  simp only [hostOps1]
  after_results_simp
  rw [h1, h3]
  rfl

/-- Before the third region: the aggregation of the second region's output, the labels as a column, and the mask,
    converted to numbers, as a column. -/
theorem host_mid2 (W : Valuation τ sig (Elt Ideal)) (e : IVec S2x1280000 32)
    (h1 : (W main_v1 : IVec S1280000 32) = dstRaw e) (h3 : (W main_v3 : IVec S1280000 32) = Spec.srcRaw e) :
    (StableHlo.after hostOps2 W main_v65 : FVec Ideal S80000x64 .f32) = Spec.AG e (W main_v53)
    ∧ (StableHlo.after hostOps2 W main_v66 : IVec S80000x1 32)
        = shapeCast S80000x1 (W main_arg14 : IVec S80000 32) shapeCasts_S80000_S80000x1
    ∧ (StableHlo.after hostOps2 W main_v68 : FVec Ideal S80000x1 .f32)
        = shapeCast S80000x1 (uitofp (F := Ideal) .f32 (W main_arg15 : IVec S80000 1)) shapeCasts_S80000_S80000x1 := by
  refine ⟨?_, ?_, ?_⟩
  · simp only [hostOps2]
    after_results_simp
    rw [h1, h3]
    rfl
  · simp only [hostOps2]
    after_results_simp
    rfl
  · simp only [hostOps2]
    after_results_simp
    rfl

/-- The closing operation: the 1×1 result read as a scalar. -/
theorem host_exit (W : Valuation τ sig (Elt Ideal)) :
    (StableHlo.after hostOps3 W main_v70 : FVec Ideal S_ .f32)
      = shapeCast S_ (W main_v69 : FVec Ideal S1x1 .f32) shapeCasts_S1x1_S_ := by
  simp only [hostOps3]
  after_results_simp
  rfl

/-! ## A vector read as a one-column matrix -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The layer in the kernels' operand shapes is the layer in the arguments' shapes -/

/-- The degree read from its column, the weights from their transposes, the biases from their rows: the same sums. -/
theorem linK_eq_lin {C : Nat} (a h : FVec Ideal S80000x64 .f32) (d : FVec Ideal S80000 .f32)
    (Wl Wr : FVec Ideal ⟨2, ![C, 64]⟩ .f32) (bl br : FVec Ideal ⟨1, ![C]⟩ .f32)
    (hd : S80000.ShapeCasts S80000x1) (hT : (⟨2, ![C, 64]⟩ : Shape).Transposes [1, 0] ⟨2, ![64, C]⟩)
    (hb : (⟨1, ![C]⟩ : Shape).ShapeCasts ⟨2, ![1, C]⟩) (p : Fin 80000) (q : Fin C) :
    Spec.linK a h (shapeCast S80000x1 d hd) (transpose ⟨2, ![64, C]⟩ [1, 0] Wl hT) (transpose ⟨2, ![64, C]⟩ [1, 0] Wr hT)
        (shapeCast ⟨2, ![1, C]⟩ bl hb) (shapeCast ⟨2, ![1, C]⟩ br hb) p q
      = Spec.lin a h d Wl Wr bl br p q := by
  have ht : ∀ (X : FVec Ideal ⟨2, ![C, 64]⟩ .f32) (k : Fin 64),
      transpose ⟨2, ![64, C]⟩ [1, 0] X hT (ix2 k q) = X (ix2 q k) := fun X k => transpose_ix2_apply X hT k q
  unfold Spec.linK Spec.lin
  simp only [ht, shapeCast_a_1a_apply, shapeCast_a_a1_apply]

theorem hidK_eq_hid (a h : FVec Ideal S80000x64 .f32) (d : FVec Ideal S80000 .f32) (Wl Wr : FVec Ideal S64x64 .f32)
    (bl br : FVec Ideal S64 .f32) :
    Spec.hidK a h (shapeCast S80000x1 d shapeCasts_S80000_S80000x1)
        (transpose S64x64 [1, 0] Wl transposes_S64x64_S64x64_1_0) (transpose S64x64 [1, 0] Wr transposes_S64x64_S64x64_1_0)
        (shapeCast S1x64 bl shapeCasts_S64_S1x64) (shapeCast S1x64 br shapeCasts_S64_S1x64)
      = Spec.hid a h d Wl Wr bl br := by
  funext i
  exact congrArg (fun v => max v 0) (linK_eq_lin a h d Wl Wr bl br _ _ _ (i 0) (i 1))

theorem logitK_eq_logit (a h : FVec Ideal S80000x64 .f32) (d : FVec Ideal S80000 .f32) (Wl Wr : FVec Ideal S40x64 .f32)
    (bl br : FVec Ideal S40 .f32) :
    Spec.logitK a h (shapeCast S80000x1 d shapeCasts_S80000_S80000x1)
        (transpose S64x40 [1, 0] Wl transposes_S40x64_S64x40_1_0) (transpose S64x40 [1, 0] Wr transposes_S40x64_S64x40_1_0)
        (shapeCast S1x40 bl shapeCasts_S40_S1x40) (shapeCast S1x40 br shapeCasts_S40_S1x40)
      = Spec.logit a h d Wl Wr bl br := by
  funext i
  exact linK_eq_lin a h d Wl Wr bl br _ _ _ (i 0) (i 1)

/-! ## The labels and the mask read from their columns -/

theorem ycol_apply (y : IVec S80000 32) (p : Fin 80000) :
    (shapeCast S80000x1 y shapeCasts_S80000_S80000x1) (ix2 p (0 : Fin 1)) = Spec.yOf y p :=
  shapeCast_a_a1_apply y shapeCasts_S80000_S80000x1 p 0

theorem mcol_apply (mk : IVec S80000 1) (p : Fin 80000) :
    (shapeCast S80000x1 (uitofp (F := Ideal) .f32 mk) shapeCasts_S80000_S80000x1) (ix2 p (0 : Fin 1)) = Spec.mOf mk p :=
  shapeCast_a_a1_apply (uitofp (F := Ideal) .f32 mk) shapeCasts_S80000_S80000x1 p 0

end Cert.KernelIdeal.Hand

end
-- ==== Proof.KValue.lean ====
/-
  The kernel program's result, at the ideal instance.  The buffer contents at the boundaries of @main are followed
  forward: the host stretches before region 0 compute the aggregate of the features, the reciprocal in-degree as a
  column, the transposed weights and the biases as rows; region 0 leaves the first hidden layer in its output array;
  the next stretch aggregates it; region 1 leaves the second hidden layer; the next stretch aggregates that and lays
  the labels and the mask out as columns; region 2 leaves the tile-wise loss of the logits in its 1 × 1 output; the
  last operation reshapes it to a scalar.  A region hands back every buffer but its output as it found it, and a host
  stretch every buffer it does not write, so the operands of the later layers are still those the first stretches made.
-/
import proofs.«400073_j76287209112086_3_alg».proof.Proof.KIRun
import proofs.«400073_j76287209112086_3_alg».proof.Proof.KVal01
import proofs.«400073_j76287209112086_3_alg».proof.Proof.KVal2
import proofs.«400073_j76287209112086_3_alg».proof.Proof.KHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

section Kept

variable {F : FTy → Type} [FloatOps F]
variable (m : (ℓ : Loc nD τ sig) → Buf (Elt F) ℓ) (ρ : Dev nD → PrngReg)

/-- Region 0 hands every buffer but its output array back as entered. -/
theorem W4_kept (c : Dev nD) (b : Ref sig .tc) (hb : b ≠ main_v40) :
    W4 m ρ c (Proc.devRef .tc b) = W3 m ρ c (Proc.devRef .tc b) := by
  by_cases h : ∃ w, Pipeline.arrRef spec0 w = b
  · obtain ⟨w, rfl⟩ := h
    fin_cases w
    case «7» => exact absurd rfl hb
    all_goals exact (W4_arr m ρ c _).trans (((dat0 (Vr3 m ρ) c).arrAt_in _ rfl _).trans (A_eq0 (Vr3 m ρ) c _))
  · exact W4_of_ne m ρ c b fun w e => h ⟨w, e⟩

/-- So does region 1. -/
theorem W6_kept (c : Dev nD) (b : Ref sig .tc) (hb : b ≠ main_v53) :
    W6 m ρ c (Proc.devRef .tc b) = W5 m ρ c (Proc.devRef .tc b) := by
  by_cases h : ∃ w, Pipeline.arrRef spec1 w = b
  · obtain ⟨w, rfl⟩ := h
    fin_cases w
    case «7» => exact absurd rfl hb
    all_goals exact (W6_arr m ρ c _).trans (((dat1 (Vr5 m ρ) c).arrAt_in _ rfl _).trans (A_eq1 (Vr5 m ρ) c _))
  · exact W6_of_ne m ρ c b fun w e => h ⟨w, e⟩

end Kept

variable (m : (ℓ : Loc nD τ sig) → Buf (Elt Ideal) ℓ) (ρ : Dev nD → PrngReg) (c : Dev nD)

/-- A buffer the stretch after region 0 does not write, other than region 0's output, is at region 1's entry what it
    was at region 0's. -/
theorem W5_keep (b : Ref sig .tc) (h1 : b ∉ hostOps1_W) (h0 : b ≠ main_v40) :
    W5 m ρ c (Proc.devRef .tc b) = W3 m ρ c (Proc.devRef .tc b) :=
  (host_mid1_of (W4 m ρ c) b h1).trans (W4_kept m ρ c b h0)

/-- And at region 2's entry, if the next stretch does not write it either and it is not region 1's output. -/
theorem W7_keep (b : Ref sig .tc) (h2 : b ∉ hostOps2_W) (h53 : b ≠ main_v53) (h1 : b ∉ hostOps1_W) (h0 : b ≠ main_v40) :
    W7 m ρ c (Proc.devRef .tc b) = W3 m ρ c (Proc.devRef .tc b) :=
  (host_mid2_of (W6 m ρ c) b h2).trans ((W6_kept m ρ c b h53).trans (W5_keep m ρ c b h1 h0))

/-- Region 0's output array holds the first hidden layer. -/
theorem out0_is_H1 :
    (W4 m ρ c (Proc.devRef .tc main_v40) : FVec Ideal S80000x64 .f32) = (Spec.H1 (Spec.AG (W0 m ρ c main_arg13)) (Spec.DG (W0 m ρ c main_arg13)) (W0 m ρ c main_arg0) (W0 m ρ c main_arg1) (W0 m ρ c main_arg2) (W0 m ρ c main_arg3) (W0 m ρ c main_arg4)) := by
  refine (W4_arr m ρ c 7).trans ((final0 (Vr3 m ρ) c).trans ?_)
  show Spec.hidK (StableHlo.after hostOps0_2 (StableHlo.after hostOps0_1 (StableHlo.after hostOps0 (W0 m ρ c))) main_v39) (StableHlo.after hostOps0_2 (StableHlo.after hostOps0_1 (StableHlo.after hostOps0 (W0 m ρ c))) main_arg0) (StableHlo.after hostOps0_2 (StableHlo.after hostOps0_1 (StableHlo.after hostOps0 (W0 m ρ c))) main_v15) (StableHlo.after hostOps0_2 (StableHlo.after hostOps0_1 (StableHlo.after hostOps0 (W0 m ρ c))) main_v16) (StableHlo.after hostOps0_2 (StableHlo.after hostOps0_1 (StableHlo.after hostOps0 (W0 m ρ c))) main_v17) (StableHlo.after hostOps0_2 (StableHlo.after hostOps0_1 (StableHlo.after hostOps0 (W0 m ρ c))) main_v22) (StableHlo.after hostOps0_2 (StableHlo.after hostOps0_1 (StableHlo.after hostOps0 (W0 m ρ c))) main_v23) = _
  rw [host_entry_v39, host_entry_arg0, host_entry_v15, host_entry_v16, host_entry_v17, host_entry_v22, host_entry_v23]
  exact hidK_eq_hid _ _ _ _ _ _ _

/-- The edge rows are still in place at region 0's exit. -/
theorem dst_at4 : (W4 m ρ c (Proc.devRef .tc main_v1) : IVec S1280000 32) = dstRaw (W0 m ρ c main_arg13) :=
  (W4_kept m ρ c main_v1 (by decide)).trans (host_entry_v1 (W0 m ρ c))
theorem src_at4 : (W4 m ρ c (Proc.devRef .tc main_v3) : IVec S1280000 32) = Spec.srcRaw (W0 m ρ c main_arg13) :=
  (W4_kept m ρ c main_v3 (by decide)).trans (host_entry_v3 (W0 m ρ c))

/-- Region 1's output array holds the second hidden layer. -/
theorem out1_is_H2 :
    (W6 m ρ c (Proc.devRef .tc main_v53) : FVec Ideal S80000x64 .f32) = (Spec.H2 (Spec.AG (W0 m ρ c main_arg13)) (Spec.DG (W0 m ρ c main_arg13)) (W0 m ρ c main_arg0) (W0 m ρ c main_arg1) (W0 m ρ c main_arg2) (W0 m ρ c main_arg3) (W0 m ρ c main_arg4) (W0 m ρ c main_arg5) (W0 m ρ c main_arg6) (W0 m ρ c main_arg7) (W0 m ρ c main_arg8)) := by
  refine (W6_arr m ρ c 7).trans ((final1 (Vr5 m ρ) c).trans ?_)
  have a52 : (W5 m ρ c (Proc.devRef .tc main_v52) : FVec Ideal S80000x64 .f32) = Spec.AG (W0 m ρ c main_arg13) (Spec.H1 (Spec.AG (W0 m ρ c main_arg13)) (Spec.DG (W0 m ρ c main_arg13)) (W0 m ρ c main_arg0) (W0 m ρ c main_arg1) (W0 m ρ c main_arg2) (W0 m ρ c main_arg3) (W0 m ρ c main_arg4)) :=
    (host_mid1 (W4 m ρ c) (W0 m ρ c main_arg13) (dst_at4 m ρ c) (src_at4 m ρ c)).trans (congrArg (Spec.AG (W0 m ρ c main_arg13)) (out0_is_H1 m ρ c))
  have a40 : (W5 m ρ c (Proc.devRef .tc main_v40) : FVec Ideal S80000x64 .f32) = (Spec.H1 (Spec.AG (W0 m ρ c main_arg13)) (Spec.DG (W0 m ρ c main_arg13)) (W0 m ρ c main_arg0) (W0 m ρ c main_arg1) (W0 m ρ c main_arg2) (W0 m ρ c main_arg3) (W0 m ρ c main_arg4)) :=
    (host_mid1_of (W4 m ρ c) main_v40 (by decide)).trans (out0_is_H1 m ρ c)
  have a15 := (W5_keep m ρ c main_v15 (by decide) (by decide)).trans (host_entry_v15 (W0 m ρ c))
  have a18 := (W5_keep m ρ c main_v18 (by decide) (by decide)).trans (host_entry_v18 (W0 m ρ c))
  have a19 := (W5_keep m ρ c main_v19 (by decide) (by decide)).trans (host_entry_v19 (W0 m ρ c))
  have a24 := (W5_keep m ρ c main_v24 (by decide) (by decide)).trans (host_entry_v24 (W0 m ρ c))
  have a25 := (W5_keep m ρ c main_v25 (by decide) (by decide)).trans (host_entry_v25 (W0 m ρ c))
  show Spec.hidK (W5 m ρ c (Proc.devRef .tc main_v52)) (W5 m ρ c (Proc.devRef .tc main_v40)) (W5 m ρ c (Proc.devRef .tc main_v15)) (W5 m ρ c (Proc.devRef .tc main_v18)) (W5 m ρ c (Proc.devRef .tc main_v19)) (W5 m ρ c (Proc.devRef .tc main_v24)) (W5 m ρ c (Proc.devRef .tc main_v25)) = _
  rw [a52, a40, a15, a18, a19, a24, a25]
  exact hidK_eq_hid _ _ _ _ _ _ _

theorem dst_at6 : (W6 m ρ c (Proc.devRef .tc main_v1) : IVec S1280000 32) = dstRaw (W0 m ρ c main_arg13) :=
  (W6_kept m ρ c main_v1 (by decide)).trans ((host_mid1_of (W4 m ρ c) main_v1 (by decide)).trans (dst_at4 m ρ c))
theorem src_at6 : (W6 m ρ c (Proc.devRef .tc main_v3) : IVec S1280000 32) = Spec.srcRaw (W0 m ρ c main_arg13) :=
  (W6_kept m ρ c main_v3 (by decide)).trans ((host_mid1_of (W4 m ρ c) main_v3 (by decide)).trans (src_at4 m ρ c))

/-- Region 2's output holds the tile-wise loss of the logits. -/
theorem out2_is_loss :
    (W8 m ρ c (Proc.devRef .tc main_v69) : FVec Ideal S1x1 .f32) = fun _ => Spec.lossK (Spec.Z (Spec.AG (W0 m ρ c main_arg13)) (Spec.DG (W0 m ρ c main_arg13)) (W0 m ρ c main_arg0) (W0 m ρ c main_arg1) (W0 m ρ c main_arg2) (W0 m ρ c main_arg3) (W0 m ρ c main_arg4) (W0 m ρ c main_arg5) (W0 m ρ c main_arg6) (W0 m ρ c main_arg7) (W0 m ρ c main_arg8) (W0 m ρ c main_arg9) (W0 m ρ c main_arg10) (W0 m ρ c main_arg11) (W0 m ρ c main_arg12)) (Spec.yOf (W0 m ρ c main_arg14)) (Spec.mOf (W0 m ρ c main_arg15)) := by
  refine (W8_arr m ρ c 9).trans ((final2 (Vr7 m ρ) c).trans ?_)
  obtain ⟨b65, b66, b68⟩ := host_mid2 (W6 m ρ c) (W0 m ρ c main_arg13) (dst_at6 m ρ c) (src_at6 m ρ c)
  have a65 : (W7 m ρ c (Proc.devRef .tc main_v65) : FVec Ideal S80000x64 .f32) = Spec.AG (W0 m ρ c main_arg13) (Spec.H2 (Spec.AG (W0 m ρ c main_arg13)) (Spec.DG (W0 m ρ c main_arg13)) (W0 m ρ c main_arg0) (W0 m ρ c main_arg1) (W0 m ρ c main_arg2) (W0 m ρ c main_arg3) (W0 m ρ c main_arg4) (W0 m ρ c main_arg5) (W0 m ρ c main_arg6) (W0 m ρ c main_arg7) (W0 m ρ c main_arg8)) :=
    b65.trans (congrArg (Spec.AG (W0 m ρ c main_arg13)) (out1_is_H2 m ρ c))
  have a53 : (W7 m ρ c (Proc.devRef .tc main_v53) : FVec Ideal S80000x64 .f32) = (Spec.H2 (Spec.AG (W0 m ρ c main_arg13)) (Spec.DG (W0 m ρ c main_arg13)) (W0 m ρ c main_arg0) (W0 m ρ c main_arg1) (W0 m ρ c main_arg2) (W0 m ρ c main_arg3) (W0 m ρ c main_arg4) (W0 m ρ c main_arg5) (W0 m ρ c main_arg6) (W0 m ρ c main_arg7) (W0 m ρ c main_arg8)) :=
    (host_mid2_of (W6 m ρ c) main_v53 (by decide)).trans (out1_is_H2 m ρ c)
  have a15 := (W7_keep m ρ c main_v15 (by decide) (by decide) (by decide) (by decide)).trans (host_entry_v15 (W0 m ρ c))
  have a20 := (W7_keep m ρ c main_v20 (by decide) (by decide) (by decide) (by decide)).trans (host_entry_v20 (W0 m ρ c))
  have a21 := (W7_keep m ρ c main_v21 (by decide) (by decide) (by decide) (by decide)).trans (host_entry_v21 (W0 m ρ c))
  have a26 := (W7_keep m ρ c main_v26 (by decide) (by decide) (by decide) (by decide)).trans (host_entry_v26 (W0 m ρ c))
  have a27 := (W7_keep m ρ c main_v27 (by decide) (by decide) (by decide) (by decide)).trans (host_entry_v27 (W0 m ρ c))
  have y14 : (W6 m ρ c (Proc.devRef .tc main_arg14) : IVec S80000 32) = (W0 m ρ c main_arg14) :=
    (W6_kept m ρ c main_arg14 (by decide)).trans ((W5_keep m ρ c main_arg14 (by decide) (by decide)).trans (host_entry_arg14 (W0 m ρ c)))
  have m15 : (W6 m ρ c (Proc.devRef .tc main_arg15) : IVec S80000 1) = (W0 m ρ c main_arg15) :=
    (W6_kept m ρ c main_arg15 (by decide)).trans ((W5_keep m ρ c main_arg15 (by decide) (by decide)).trans (host_entry_arg15 (W0 m ρ c)))
  have a66 : (W7 m ρ c (Proc.devRef .tc main_v66) : IVec S80000x1 32) = shapeCast S80000x1 ((W0 m ρ c main_arg14) : IVec S80000 32) shapeCasts_S80000_S80000x1 :=
    b66.trans (by rw [y14])
  have a68 : (W7 m ρ c (Proc.devRef .tc main_v68) : FVec Ideal S80000x1 .f32) = shapeCast S80000x1 (uitofp (F := Ideal) .f32 ((W0 m ρ c main_arg15) : IVec S80000 1)) shapeCasts_S80000_S80000x1 :=
    b68.trans (by rw [m15])
  show (fun _ => Spec.lossK (Spec.logitK (W7 m ρ c (Proc.devRef .tc main_v65)) (W7 m ρ c (Proc.devRef .tc main_v53)) (W7 m ρ c (Proc.devRef .tc main_v15)) (W7 m ρ c (Proc.devRef .tc main_v20)) (W7 m ρ c (Proc.devRef .tc main_v21)) (W7 m ρ c (Proc.devRef .tc main_v26)) (W7 m ρ c (Proc.devRef .tc main_v27)))
      (fun p => (W7 m ρ c (Proc.devRef .tc main_v66) : IVec S80000x1 32) (ix2 p (0 : Fin 1))) (fun p => (W7 m ρ c (Proc.devRef .tc main_v68) : FVec Ideal S80000x1 .f32) (ix2 p (0 : Fin 1)))) = _
  rw [a65, a53, a15, a20, a21, a26, a27, a66, a68, logitK_eq_logit]
  refine funext fun _ => ?_
  congr 1
  · exact funext fun p => ycol_apply _ p
  · exact funext fun p => mcol_apply _ p

/-- THE KERNEL PROGRAM'S RESULT: the scalar it returns is the tile-wise loss of the network's logits. -/
theorem kernel_value :
    W9 m ρ c (Proc.devRef .tc main_v70) = fun _ => Spec.lossK (Spec.Z (Spec.AG (m ((c.tc : Thread nD τ).loc main_arg13))) (Spec.DG (m ((c.tc : Thread nD τ).loc main_arg13))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (Spec.yOf (m ((c.tc : Thread nD τ).loc main_arg14))) (Spec.mOf (m ((c.tc : Thread nD τ).loc main_arg15))) := by
  refine (host_exit (W8 m ρ c)).trans ?_
  rw [out2_is_loss m ρ c]
  rfl

end Cert.KernelIdeal.Hand

end
-- ==== Proof.RLayers.lean ====
/-
  The reference's three layers, read as the specification's.

  Each layer of the reference is a chain of host operations: the aggregated rows times the reciprocal in-degree
  (a column, repeated along the 64 features), a contraction with the transposed left weights, the left bias repeated
  along the rows, a contraction of the layer's input with the transposed right weights, the right bias, and (for the
  first two layers) a maximum with zero.  Read at row p and column q that chain is
      ((Σₖ (a[p,k]·d[p])·Wl[q,k] + bl[q]) + Σₖ h[p,k]·Wr[q,k]) + br[q],
  the specification's `lin`; under max(·, 0) it is `hid`, and the last layer, with 40 columns and no maximum, is
  `logit`.

  The aggregation and the degree column are never opened: the reference's slice / reshape / wrap-around / gather /
  scatter-add stages are, operation for operation and in the same order, the specification's `AG` and `DG`, so those
  equations hold by unfolding.  For the second and third layers the gathered array is the previous layer's output; it is
  replaced by a variable before the two sides are compared, so nothing of its size is unfolded.
-/
import proofs.«400073_j76287209112086_3_alg».proof.Proof.RefStages
import proofs.«400073_j76287209112086_3_alg».proof.Proof.Spec

noncomputable section

namespace Cert.ReferenceIdeal.Hand

open Idealize.ShloMosaic Idealize.ShloMosaic.ValueIdx
open Cert.ReferenceIdeal Cert.ReferenceIdeal.ReadP

section Stages

variable [hK : Cert.KernelIdeal.Facts] [hR : Cert.ReferenceIdeal.Facts]

variable (x0 : (⟨S80000x64, .f32⟩ : BufTy).Contents (Elt Ideal))
  (x1 : (⟨S64x64, .f32⟩ : BufTy).Contents (Elt Ideal))
  (x2 : (⟨S64, .f32⟩ : BufTy).Contents (Elt Ideal))
  (x3 : (⟨S64x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S64x64, .f32⟩ : BufTy).Contents (Elt Ideal))
  (x8 : (⟨S64, .f32⟩ : BufTy).Contents (Elt Ideal))
  (x9 : (⟨S40x64, .f32⟩ : BufTy).Contents (Elt Ideal))
  (x10 : (⟨S40, .f32⟩ : BufTy).Contents (Elt Ideal))
  (x11 : (⟨S40x64, .f32⟩ : BufTy).Contents (Elt Ideal))
  (x12 : (⟨S40, .f32⟩ : BufTy).Contents (Elt Ideal))
  (x13 : (⟨S2x1280000, .i32⟩ : BufTy).Contents (Elt Ideal))

/-! ## The degree column and the aggregation are the specification's -/

/-- The reciprocal in-degree column: the same operations in the same order. -/
theorem dg_eq : val_main_v14 (F := Ideal) x13 = Cert.Spec.DG x13 := rfl

/-- The first layer's aggregated rows. -/
theorem ag0_eq : val_main_v24 (F := Ideal) x0 x13 = Cert.Spec.AG x13 x0 := rfl
/-- The second layer's aggregated rows: the aggregation of the first hidden layer. -/
theorem ag1_eq : val_main_v49 (F := Ideal) x0 x1 x2 x3 x4 x13 = Cert.Spec.AG x13 (val_main_v39 (F := Ideal) x0 x1 x2 x3 x4 x13) := by
  unfold val_main_v49 val_main_v46
  generalize val_main_v39 (F := Ideal) x0 x1 x2 x3 x4 x13 = h
  rfl
/-- The third layer's aggregated rows: the aggregation of the second hidden layer. -/
theorem ag2_eq : val_main_v74 (F := Ideal) x0 x1 x2 x3 x4 x5 x6 x7 x8 x13 = Cert.Spec.AG x13 (val_main_v64 (F := Ideal) x0 x1 x2 x3 x4 x5 x6 x7 x8 x13) := by
  unfold val_main_v74 val_main_v71
  generalize val_main_v64 (F := Ideal) x0 x1 x2 x3 x4 x5 x6 x7 x8 x13 = h
  rfl

/-! ## Layer 0 -/

theorem ia0 (p : Fin 80000) (q : Fin 64) (k : Fin 64) : lidx_main_v29 (ix2 p q) k = ix2 p k :=
  funext fun a => Fin.ext (by match a with | ⟨0, _⟩ => rfl | ⟨1, _⟩ => rfl)
theorem id0 (p : Fin 80000) (k : Fin 64) : idx_main_v25 (idx_main_v26 (ix2 p k)) = ix1 p :=
  funext fun a => Fin.ext (by match a with | ⟨0, _⟩ => rfl)
theorem iwl0 (p : Fin 80000) (q : Fin 64) (k : Fin 64) : idx_main_v28 (ridx_main_v29 (ix2 p q) k) = ix2 q k :=
  funext fun a => Fin.ext (by match a with | ⟨0, _⟩ => rfl | ⟨1, _⟩ => rfl)
theorem ibl0 (p : Fin 80000) (q : Fin 64) : idx_main_v30 (idx_main_v31 (ix2 p q)) = ix1 q :=
  funext fun a => Fin.ext (by match a with | ⟨0, _⟩ => rfl)
theorem ih0 (p : Fin 80000) (q : Fin 64) (k : Fin 64) : lidx_main_v34 (ix2 p q) k = ix2 p k :=
  funext fun a => Fin.ext (by match a with | ⟨0, _⟩ => rfl | ⟨1, _⟩ => rfl)
theorem iwr0 (p : Fin 80000) (q : Fin 64) (k : Fin 64) : idx_main_v33 (ridx_main_v34 (ix2 p q) k) = ix2 q k :=
  funext fun a => Fin.ext (by match a with | ⟨0, _⟩ => rfl | ⟨1, _⟩ => rfl)
theorem ibr0 (p : Fin 80000) (q : Fin 64) : idx_main_v36 (idx_main_v37 (ix2 p q)) = ix1 q :=
  funext fun a => Fin.ext (by match a with | ⟨0, _⟩ => rfl)

/-- The layer before its activation, at row p and column q. -/
theorem lin0_apply (p : Fin 80000) (q : Fin 64) :
    val_main_v38 (F := Ideal) x0 x1 x2 x3 x4 x13 (ix2 p q)
      = Cert.Spec.lin (val_main_v24 (F := Ideal) x0 x13) (x0) (val_main_v14 (F := Ideal) x13) x1 x3 x2 x4 p q := by
  unfold Cert.Spec.lin
  rw [val_main_v38_apply, val_main_v35_apply, val_main_v32_apply, val_main_v29_apply, val_main_v34_apply,
    val_main_v31_apply, val_main_v30_apply, val_main_v37_apply, val_main_v36_apply, ibl0, ibr0]
  simp only [Ideal.addf_def]
  refine congrArg₂ (· + ·) (congrArg₂ (· + ·) (congrArg₂ (· + ·) (Finset.sum_congr rfl fun k _ => ?_) rfl)
    (Finset.sum_congr rfl fun k _ => ?_)) rfl
  · rw [ia0, val_main_v27_apply, val_main_v26_apply, val_main_v25_apply, id0, val_main_v28_apply, iwl0, Ideal.mulf_def]
  · rw [ih0, val_main_v33_apply, iwr0]

/-- The layer with its activation: the specification's hidden layer. -/
theorem hid0_eq :
    val_main_v39 (F := Ideal) x0 x1 x2 x3 x4 x13 = Cert.Spec.hid (val_main_v24 (F := Ideal) x0 x13) (x0) (val_main_v14 (F := Ideal) x13) x1 x3 x2 x4 := by
  funext i
  obtain ⟨p, q, rfl⟩ : ∃ (p : Fin 80000) (q : Fin 64), i = ix2 p q := ⟨i 0, i 1, eq_ix2 i⟩
  rw [val_main_v39_apply, lin0_apply, val_main_call1_v0_apply, val_main_call1_cst_apply]
  simp only [Ideal.maximumf_def, Ideal.ofBits_def, Ideal.ofBits_zero_f32]
  rfl

/-! ## Layer 1 -/

theorem ia1 (p : Fin 80000) (q : Fin 64) (k : Fin 64) : lidx_main_v54 (ix2 p q) k = ix2 p k :=
  funext fun a => Fin.ext (by match a with | ⟨0, _⟩ => rfl | ⟨1, _⟩ => rfl)
theorem id1 (p : Fin 80000) (k : Fin 64) : idx_main_v50 (idx_main_v51 (ix2 p k)) = ix1 p :=
  funext fun a => Fin.ext (by match a with | ⟨0, _⟩ => rfl)
theorem iwl1 (p : Fin 80000) (q : Fin 64) (k : Fin 64) : idx_main_v53 (ridx_main_v54 (ix2 p q) k) = ix2 q k :=
  funext fun a => Fin.ext (by match a with | ⟨0, _⟩ => rfl | ⟨1, _⟩ => rfl)
theorem ibl1 (p : Fin 80000) (q : Fin 64) : idx_main_v55 (idx_main_v56 (ix2 p q)) = ix1 q :=
  funext fun a => Fin.ext (by match a with | ⟨0, _⟩ => rfl)
theorem ih1 (p : Fin 80000) (q : Fin 64) (k : Fin 64) : lidx_main_v59 (ix2 p q) k = ix2 p k :=
  funext fun a => Fin.ext (by match a with | ⟨0, _⟩ => rfl | ⟨1, _⟩ => rfl)
theorem iwr1 (p : Fin 80000) (q : Fin 64) (k : Fin 64) : idx_main_v58 (ridx_main_v59 (ix2 p q) k) = ix2 q k :=
  funext fun a => Fin.ext (by match a with | ⟨0, _⟩ => rfl | ⟨1, _⟩ => rfl)
theorem ibr1 (p : Fin 80000) (q : Fin 64) : idx_main_v61 (idx_main_v62 (ix2 p q)) = ix1 q :=
  funext fun a => Fin.ext (by match a with | ⟨0, _⟩ => rfl)

/-- The layer before its activation, at row p and column q. -/
theorem lin1_apply (p : Fin 80000) (q : Fin 64) :
    val_main_v63 (F := Ideal) x0 x1 x2 x3 x4 x5 x6 x7 x8 x13 (ix2 p q)
      = Cert.Spec.lin (val_main_v49 (F := Ideal) x0 x1 x2 x3 x4 x13) (val_main_v39 (F := Ideal) x0 x1 x2 x3 x4 x13) (val_main_v14 (F := Ideal) x13) x5 x7 x6 x8 p q := by
  unfold Cert.Spec.lin
  rw [val_main_v63_apply, val_main_v60_apply, val_main_v57_apply, val_main_v54_apply, val_main_v59_apply,
    val_main_v56_apply, val_main_v55_apply, val_main_v62_apply, val_main_v61_apply, ibl1, ibr1]
  simp only [Ideal.addf_def]
  refine congrArg₂ (· + ·) (congrArg₂ (· + ·) (congrArg₂ (· + ·) (Finset.sum_congr rfl fun k _ => ?_) rfl)
    (Finset.sum_congr rfl fun k _ => ?_)) rfl
  · rw [ia1, val_main_v52_apply, val_main_v51_apply, val_main_v50_apply, id1, val_main_v53_apply, iwl1, Ideal.mulf_def]
  · rw [ih1, val_main_v58_apply, iwr1]

/-- The layer with its activation: the specification's hidden layer. -/
theorem hid1_eq :
    val_main_v64 (F := Ideal) x0 x1 x2 x3 x4 x5 x6 x7 x8 x13 = Cert.Spec.hid (val_main_v49 (F := Ideal) x0 x1 x2 x3 x4 x13) (val_main_v39 (F := Ideal) x0 x1 x2 x3 x4 x13) (val_main_v14 (F := Ideal) x13) x5 x7 x6 x8 := by
  funext i
  obtain ⟨p, q, rfl⟩ : ∃ (p : Fin 80000) (q : Fin 64), i = ix2 p q := ⟨i 0, i 1, eq_ix2 i⟩
  rw [val_main_v64_apply, lin1_apply, val_main_call2_v0_apply, val_main_call2_cst_apply]
  simp only [Ideal.maximumf_def, Ideal.ofBits_def, Ideal.ofBits_zero_f32]
  rfl

/-! ## Layer 2 -/

theorem ia2 (p : Fin 80000) (q : Fin 40) (k : Fin 64) : lidx_main_v79 (ix2 p q) k = ix2 p k :=
  funext fun a => Fin.ext (by match a with | ⟨0, _⟩ => rfl | ⟨1, _⟩ => rfl)
theorem id2 (p : Fin 80000) (k : Fin 64) : idx_main_v75 (idx_main_v76 (ix2 p k)) = ix1 p :=
  funext fun a => Fin.ext (by match a with | ⟨0, _⟩ => rfl)
theorem iwl2 (p : Fin 80000) (q : Fin 40) (k : Fin 64) : idx_main_v78 (ridx_main_v79 (ix2 p q) k) = ix2 q k :=
  funext fun a => Fin.ext (by match a with | ⟨0, _⟩ => rfl | ⟨1, _⟩ => rfl)
theorem ibl2 (p : Fin 80000) (q : Fin 40) : idx_main_v80 (idx_main_v81 (ix2 p q)) = ix1 q :=
  funext fun a => Fin.ext (by match a with | ⟨0, _⟩ => rfl)
theorem ih2 (p : Fin 80000) (q : Fin 40) (k : Fin 64) : lidx_main_v84 (ix2 p q) k = ix2 p k :=
  funext fun a => Fin.ext (by match a with | ⟨0, _⟩ => rfl | ⟨1, _⟩ => rfl)
theorem iwr2 (p : Fin 80000) (q : Fin 40) (k : Fin 64) : idx_main_v83 (ridx_main_v84 (ix2 p q) k) = ix2 q k :=
  funext fun a => Fin.ext (by match a with | ⟨0, _⟩ => rfl | ⟨1, _⟩ => rfl)
theorem ibr2 (p : Fin 80000) (q : Fin 40) : idx_main_v86 (idx_main_v87 (ix2 p q)) = ix1 q :=
  funext fun a => Fin.ext (by match a with | ⟨0, _⟩ => rfl)

/-- The layer before its activation, at row p and column q. -/
theorem lin2_apply (p : Fin 80000) (q : Fin 40) :
    val_main_v88 (F := Ideal) x0 x1 x2 x3 x4 x5 x6 x7 x8 x9 x10 x11 x12 x13 (ix2 p q)
      = Cert.Spec.lin (val_main_v74 (F := Ideal) x0 x1 x2 x3 x4 x5 x6 x7 x8 x13) (val_main_v64 (F := Ideal) x0 x1 x2 x3 x4 x5 x6 x7 x8 x13) (val_main_v14 (F := Ideal) x13) x9 x11 x10 x12 p q := by
  unfold Cert.Spec.lin
  rw [val_main_v88_apply, val_main_v85_apply, val_main_v82_apply, val_main_v79_apply, val_main_v84_apply,
    val_main_v81_apply, val_main_v80_apply, val_main_v87_apply, val_main_v86_apply, ibl2, ibr2]
  simp only [Ideal.addf_def]
  refine congrArg₂ (· + ·) (congrArg₂ (· + ·) (congrArg₂ (· + ·) (Finset.sum_congr rfl fun k _ => ?_) rfl)
    (Finset.sum_congr rfl fun k _ => ?_)) rfl
  · rw [ia2, val_main_v77_apply, val_main_v76_apply, val_main_v75_apply, id2, val_main_v78_apply, iwl2, Ideal.mulf_def]
  · rw [ih2, val_main_v83_apply, iwr2]

/-! ## The stack -/

/-- The first hidden layer's output. -/
theorem h1_eq : val_main_v39 (F := Ideal) x0 x1 x2 x3 x4 x13 = Cert.Spec.H1 (Cert.Spec.AG x13) (Cert.Spec.DG x13) x0 x1 x2 x3 x4 := by
  rw [hid0_eq, ag0_eq, dg_eq]; rfl

/-- The second hidden layer's output. -/
theorem h2_eq : val_main_v64 (F := Ideal) x0 x1 x2 x3 x4 x5 x6 x7 x8 x13
    = Cert.Spec.H2 (Cert.Spec.AG x13) (Cert.Spec.DG x13) x0 x1 x2 x3 x4 x5 x6 x7 x8 := by
  rw [hid1_eq, ag1_eq, dg_eq, h1_eq]; rfl

/-- The last layer's output, entry by entry, is the specification's logits. -/
theorem z_eq : val_main_v88 (F := Ideal) x0 x1 x2 x3 x4 x5 x6 x7 x8 x9 x10 x11 x12 x13
    = Cert.Spec.Z (Cert.Spec.AG x13) (Cert.Spec.DG x13) x0 x1 x2 x3 x4 x5 x6 x7 x8 x9 x10 x11 x12 := by
  funext i
  obtain ⟨p, q, rfl⟩ : ∃ (p : Fin 80000) (q : Fin 40), i = ix2 p q := ⟨i 0, i 1, eq_ix2 i⟩
  rw [lin2_apply, ag2_eq, dg_eq, h2_eq]; rfl

end Stages

/-- The reference's pre-softmax output (80000 rows of 40 logits) is the specification's `Z` at the aggregation and the
    degree column the host computes from the edge list. -/
theorem logits_stage [hK : Cert.KernelIdeal.Facts] [hR : Cert.ReferenceIdeal.Facts]
    (x0 : (⟨S80000x64, .f32⟩ : BufTy).Contents (Elt Ideal))
    (x1 : (⟨S64x64, .f32⟩ : BufTy).Contents (Elt Ideal))
    (x2 : (⟨S64, .f32⟩ : BufTy).Contents (Elt Ideal))
    (x3 : (⟨S64x64, .f32⟩ : BufTy).Contents (Elt Ideal))
    (x4 : (⟨S64, .f32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S40x64, .f32⟩ : BufTy).Contents (Elt Ideal))
    (x10 : (⟨S40, .f32⟩ : BufTy).Contents (Elt Ideal))
    (x11 : (⟨S40x64, .f32⟩ : BufTy).Contents (Elt Ideal))
    (x12 : (⟨S40, .f32⟩ : BufTy).Contents (Elt Ideal))
    (x13 : (⟨S2x1280000, .i32⟩ : BufTy).Contents (Elt Ideal)) :
    Cert.ReferenceIdeal.ReadP.val_main_v88 (F := Ideal) x0 x1 x2 x3 x4 x5 x6 x7 x8 x9 x10 x11 x12 x13
      = Cert.Spec.Z (Cert.Spec.AG x13) (Cert.Spec.DG x13) x0 x1 x2 x3 x4 x5 x6 x7 x8 x9 x10 x11 x12 :=
  z_eq x0 x1 x2 x3 x4 x5 x6 x7 x8 x9 x10 x11 x12 x13

end Cert.ReferenceIdeal.Hand

end
-- ==== Proof.LibTakeAlong.lean ====
/-
  `stablehlo.gather` as `jnp.take_along_axis(x, idx, axis=1)` lowers it, read at an entry.

  For a matrix `x : [N, C]` and one column index per row, `idx : [N, 1]`, the lowering reshapes the indices to
  `[N, 1, 1]` and gathers with offset_dims `[]`, collapsed_slice_dims `[1]`, operand_batching_dims `[0]`,
  start_indices_batching_dims `[0]`, start_index_map `[1]`, index_vector_dim 2 and slice_sizes `[1, 1]`; the result
  is `[N, 1]`.  Axis 0 of the operand is a batching axis: result entry `(r, 0)` reads row `r` of the operand, the
  row of its own start index.  Axis 1 is the one the start index names: the column is the start index `idx[r, 0, 0]`,
  read as a signed integer and clamped into `[0, C - 1]`, as StableHLO clamps every start index so that the slice
  (here one element) fits.  Both slice sizes are 1, so no offset is added on either axis.

  `takeAlongDims N C wf` is that record of dimension numbers for any `N` and `C`; `gather_takeAlong_apply` reads
  `Host.gather` of it at a result index, and `gather_takeAlong_ix2` is the same at an index given by coordinates.
-/
import Idealize.ShloMosaic.Lib.ValueIdx

noncomputable section

namespace Cert.Proof.LibTakeAlong

open Idealize.ShloMosaic Idealize.ShloMosaic.ValueIdx

variable {α : Type}

/-- The dimension numbers of the batched gather for an operand `[N, C]`, start indices `[N, 1, 1]` and result
    `[N, 1]`. The well-formedness conditions are taken as a hypothesis `wf`, so the record exists for every `N` and `C`
    for which they hold. -/
abbrev takeAlongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index `[r, 0, 0]` at which result index `(r, 0)` reads its column. -/
abbrev takeAlongIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- On the batching axis the operand coordinate is the result's row. -/
theorem takeAlong_coord0 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 0 + (takeAlongDims N C wf).batchCoord y 0 + (takeAlongDims N C wf).offCoord y 0
      = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ (takeAlongDims N C wf).operandBatchingDims from List.mem_singleton.mpr rfl)]
  rfl

/-- On the indexed axis the operand coordinate is the clamped start index. -/
theorem takeAlong_coord1 {N C w : Nat}
    (wf : GatherDims.WF ⟨2, ![N, C]⟩ ⟨3, ![N, 1, 1]⟩ ⟨2, ![N, 1]⟩ [] [1] [0] [1] [0] 2 ![1, 1])
    (idx : IVec ⟨3, ![N, 1, 1]⟩ w) (y : (⟨2, ![N, 1]⟩ : Shape).Idx) :
    (takeAlongDims N C wf).start y idx 1 + (takeAlongDims N C wf).batchCoord y 1 + (takeAlongDims N C wf).offCoord y 1
      = min (idx (takeAlongIdx y)).toInt.toNat (C - 1) := by
  rw [GatherDims.batchCoord_eq_zero _ _ _ (show (1 : Fin 2) ∉ ([0] : List (Fin 2)) by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (takeAlongDims N C wf).startIndexMap from List.mem_singleton.mpr rfl)]
  have hsi : (takeAlongDims N C wf).siIdx y ⟨List.idxOf (1 : Fin 2) (takeAlongDims N C wf).startIndexMap,
      List.idxOf_lt_length_iff.2 (List.mem_singleton.mpr rfl)⟩ = takeAlongIdx y := by
    funext b; refine Fin.ext ?_
    match b with
    | ⟨0, _⟩ => rfl
    | ⟨1, hb⟩ =>
      have h1 : (y 1).val < 1 := idx2_lt1 y
      show (y 1).val = 0
      omega
    | ⟨2, _⟩ => rfl
  rw [hsi]
  rfl

/-- The batched gather at result index `y` is the operand at row `y 0` and at the column given by the start index
    `idx[y 0, 0, 0]`, taken as a signed integer and clamped into `[0, C − 1]`. -/
theorem gather_takeAlong_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (takeAlongDims N C wf) x idx y
      = x (ix2 (⟨(y 0).val, idx2_lt0 y⟩ : Fin N)
            (⟨min (idx (takeAlongIdx y)).toInt.toNat (C - 1), by omega⟩ : Fin C)) := by
  unfold Host.gather
  congr 1
  funext a
  refine Fin.ext ?_
  match a with
  | ⟨0, _⟩ => exact takeAlong_coord0 wf idx y
  | ⟨1, _⟩ => exact takeAlong_coord1 wf idx y

/-- The same at a result index given by its coordinates: row `r`, and the one column. -/
theorem gather_takeAlong_ix2 {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (r : Fin N) (c : Fin 1) :
    Host.gather (takeAlongDims N C wf) x idx (ix2 r c)
      = x (ix2 r (⟨min (idx (ix3 r (0 : Fin 1) (0 : Fin 1))).toInt.toNat (C - 1), by omega⟩ : Fin C)) := by
  rw [gather_takeAlong_apply hC wf x idx (ix2 r c)]
  have h : takeAlongIdx (ix2 r c) = ix3 r (0 : Fin 1) (0 : Fin 1) := by
    funext b; match b with | ⟨0, _⟩ => rfl | ⟨1, _⟩ => rfl | ⟨2, _⟩ => rfl
  refine congrArg x (funext fun a => Fin.ext ?_)
  match a with
  | ⟨0, _⟩ => rfl
  | ⟨1, _⟩ =>
    show min (idx (takeAlongIdx (ix2 r c))).toInt.toNat (C - 1) = min (idx (ix3 r (0 : Fin 1) (0 : Fin 1))).toInt.toNat (C - 1)
    rw [h]

end Cert.Proof.LibTakeAlong

end
-- ==== Proof.RLoss.lean ====
/-
  From the logits to the loss, on the reference's side.

  The reference takes, row by row, the maximum of the 40 logits from −∞, the maximum of that with −∞, subtracts it,
  exponentiates, sums from zero, takes the logarithm and subtracts again: the specification's `logp`.  It then picks each
  row's label entry by a batched gather whose start index is the label, a negative one counted from the end and the
  result replaced by a fill value where the index is out of range.  For a label in 0 … 39 the wrap keeps the label, the
  range test holds and the gather's clamp is the identity, so the entry read is column `lab`.  Negated, times the mask as
  a number, summed over all rows from zero, over the larger of the mask count and one: the specification's `lossR`.
-/
import proofs.«400073_j76287209112086_3_alg».proof.Proof.RefStages
import proofs.«400073_j76287209112086_3_alg».proof.Proof.Spec
import proofs.«400073_j76287209112086_3_alg».proof.Proof.LibTakeAlong
import Idealize.ShloMosaic.PureOps.Reduce
import Idealize.ShloMosaic.Lib.ValueIdxRank1
import Idealize.ShloMosaic.Lib.IdealHost
import Mathlib.Tactic.FinCases

noncomputable section

namespace Cert.ReferenceIdeal.Hand

open Idealize.ShloMosaic Idealize.ShloMosaic.ValueIdx
open Cert.ReferenceIdeal Cert.ReferenceIdeal.Gen Cert.ReferenceIdeal.ReadP

/-! ## Small facts: the −∞ word, a label word below 40, a fold over one point, sums and lifted indices -/

/-- The f32 word of −∞. -/
theorem neg_inf_word : Ideal.ofBits .f32 0xFF800000#32 = (⊥ : EReal) := by
  simp [Ideal.ofBits, Ideal.ieee]

/-- A word below 40 read as a signed integer is its unsigned value. -/
theorem toInt_small {y : BitVec 32} (h : y.toNat < 40) : y.toInt = (y.toNat : Int) := by
  rw [BitVec.toInt_eq_toNat_cond]; split <;> omega

/-- Counting a non-negative label from the end changes nothing. -/
theorem wrap_small {y : BitVec 32} (h : y.toNat < 40) :
    Scalar.select (IntOp.cmpi .slt y 0#32) (IntOp.addi y 40#32) y = y := by
  have h0 : IntOp.cmpi .slt y 0#32 = 0#1 := by
    have : y.slt 0#32 = false := by simp [BitVec.slt, toInt_small h]
    simp [IntOp.cmpi, this]
  rw [h0, select_zero]

/-- A label below 40 passes the range test 0 ≤ · ≤ 39. -/
theorem inrange_small {y : BitVec 32} (h : y.toNat < 40) :
    IntOp.andi (IntOp.andi (IntOp.cmpi .sge y 0#32) (IntOp.cmpi .sle y 39#32)) 1#1 = 1#1 := by
  have h1 : (0#32).sle y = true := by simp [BitVec.sle, toInt_small h]
  have h2 : y.sle 39#32 = true := by simp [BitVec.sle, toInt_small h]; omega
  simp [IntOp.cmpi, IntOp.andi, h1, h2]

/-- Clamping a label below 40 into 0 … 39 gives the label. -/
theorem clamp_small {y : BitVec 32} (h : y.toNat < 40) : min y.toInt.toNat (40 - 1) = y.toNat % 40 := by
  rw [toInt_small h, Int.toNat_natCast, Nat.mod_eq_of_lt h]; omega

/-- A fold over a one-point range. -/
theorem fold_fin1 {α : Type} (op : α → α → α) [Std.Commutative op] [Std.Associative op] (b : α) (f : Fin 1 → α) :
    (Finset.univ : Finset (Fin 1)).fold op b f = op (f 0) b := by
  rw [show (Finset.univ : Finset (Fin 1)) = {0} from rfl, Finset.fold_singleton]

/-- A sum over a rank-1 shape's indices is the sum over its coordinate range. -/
theorem sum_idx1 {n : Nat} (f : (⟨1, ![n]⟩ : Shape).Idx → EReal) : ∑ j, f j = ∑ p : Fin n, f (ix1 p) :=
  (Equiv.sum_comp idxEquiv1.symm f).symm

/-- Row p with column k put back. -/
theorem lift_row {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Entry (p, c) with the last coordinate put back. -/
theorem lift_last {m : Nat} (h : (⟨3, ![m, 1, 1]⟩ : Shape).Reduces [2] (⟨2, ![m, 1]⟩ : Shape)) (p : Fin m) (c : Fin 1)
    (k : Fin ((⟨3, ![m, 1, 1]⟩ : Shape).size 2)) : h.lift (ix2 p c) k = ix3 p c (⟨k.val, k.isLt⟩ : Fin 1) := by
  funext a; apply Fin.ext
  fin_cases a <;> rfl

/-- From −∞ the host's reduce with a maximum body over the columns, at row `p`, is the fold of max from ⊥ over the row. -/
theorem hostReduce_max_row {m n : Nat} (z : FVec Ideal ⟨2, ![m, n]⟩ .f32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (p : Fin m) :
    Host.reduce FloatOps.maximumf z (constant (⟨0, ![]⟩ : Shape) .f32 0xFF800000#32) h' hu (ix1 p)
      = (Finset.univ : Finset (Fin n)).fold max ⊥ (fun j => z (ix2 p j)) := by
  rw [Host.reduce_eq_fold_single FloatOps.maximumf z _ h' h hu]
  have hf : (z ∘ h.lift (ix1 p)) = fun k : Fin n => z (ix2 p k) := funext fun k => congrArg z (lift_row h p k)
  refine (congrArg (fun f => Finset.fold max (Ideal.ofBits .f32 0xFF800000#32) f (Finset.univ : Finset (Fin n))) hf).trans ?_
  exact congrArg (fun b => Finset.fold max b (fun k : Fin n => z (ix2 p k)) Finset.univ) neg_inf_word

/-- The host's reduce with an `and` body from `true` over a last axis of one entry is that entry and `true`. -/
theorem hostReduce_and_last {m : Nat} (x : IVec ⟨3, ![m, 1, 1]⟩ 1)
    (h' : (⟨3, ![m, 1, 1]⟩ : Shape).ReducesTo [2] (⟨2, ![m, 1]⟩ : Shape))
    (h : (⟨3, ![m, 1, 1]⟩ : Shape).Reduces [2] (⟨2, ![m, 1]⟩ : Shape)) (hu : 0 < (⟨0, ![]⟩ : Shape).numel)
    (p : Fin m) (c : Fin 1) :
    Host.reduce IntOp.andi x (constantI (⟨0, ![]⟩ : Shape) 1 1#1) h' hu (ix2 p c)
      = IntOp.andi (x (ix3 p c (0 : Fin 1))) 1#1 := by
  rw [Host.reduce_eq_fold_single IntOp.andi x _ h' h hu]
  have hf : (x ∘ h.lift (ix2 p c)) = fun k : Fin 1 => x (ix3 p c k) := funext fun k => congrArg x (lift_last h p c k)
  refine (congrArg (fun f => Finset.fold IntOp.andi (1#1) f (Finset.univ : Finset (Fin 1))) hf).trans ?_
  exact fold_fin1 IntOp.andi _ _

section Stages

variable (x0 : (⟨S80000x64, .f32⟩ : BufTy).Contents (Elt Ideal))
  (x1 : (⟨S64x64, .f32⟩ : BufTy).Contents (Elt Ideal))
  (x2 : (⟨S64, .f32⟩ : BufTy).Contents (Elt Ideal))
  (x3 : (⟨S64x64, .f32⟩ : BufTy).Contents (Elt Ideal))
  (x4 : (⟨S64, .f32⟩ : BufTy).Contents (Elt Ideal))
  (x5 : (⟨S64x64, .f32⟩ : BufTy).Contents (Elt Ideal))
  (x6 : (⟨S64, .f32⟩ : BufTy).Contents (Elt Ideal))
  (x7 : (⟨S64x64, .f32⟩ : BufTy).Contents (Elt Ideal))
  (x8 : (⟨S64, .f32⟩ : BufTy).Contents (Elt Ideal))
  (x9 : (⟨S40x64, .f32⟩ : BufTy).Contents (Elt Ideal))
  (x10 : (⟨S40, .f32⟩ : BufTy).Contents (Elt Ideal))
  (x11 : (⟨S40x64, .f32⟩ : BufTy).Contents (Elt Ideal))
  (x12 : (⟨S40, .f32⟩ : BufTy).Contents (Elt Ideal))
  (x13 : (⟨S2x1280000, .i32⟩ : BufTy).Contents (Elt Ideal))
  (x14 : (⟨S80000, .i32⟩ : BufTy).Contents (Elt Ideal)) (x15 : (⟨S80000, .i1⟩ : BufTy).Contents (Elt Ideal))

/-! ## The row-wise log-softmax -/

/-- The row maximum from −∞. -/
theorem rmax_apply (p : Fin 80000) :
    val_main_call3_v0 (F := Ideal) x0 x1 x2 x3 x4 x5 x6 x7 x8 x9 x10 x11 x12 x13 (ix1 p) = Cert.Spec.rowMax (val_main_v88 (F := Ideal) x0 x1 x2 x3 x4 x5 x6 x7 x8 x9 x10 x11 x12 x13) p := by
  unfold val_main_call3_v0 Cert.Spec.rowMax
  generalize val_main_v88 (F := Ideal) x0 x1 x2 x3 x4 x5 x6 x7 x8 x9 x10 x11 x12 x13 = z
  have h : S80000x40.Reduces [1] S80000 := by decide
  exact hostReduce_max_row z reducesTo_S80000x40_S80000_d1 h h_S_ p

/-- The maximum of −∞ and the row maximum. -/
theorem m2_apply (p : Fin 80000) :
    val_main_call3_v2 (F := Ideal) x0 x1 x2 x3 x4 x5 x6 x7 x8 x9 x10 x11 x12 x13 (ix1 p) = max ⊥ (Cert.Spec.rowMax (val_main_v88 (F := Ideal) x0 x1 x2 x3 x4 x5 x6 x7 x8 x9 x10 x11 x12 x13) p) := by
  rw [val_main_call3_v2_apply, val_main_call3_v1_apply, val_main_call3_cst_0_apply, rmax_apply]
  exact congrArg (fun b => max b (Cert.Spec.rowMax (val_main_v88 (F := Ideal) x0 x1 x2 x3 x4 x5 x6 x7 x8 x9 x10 x11 x12 x13) p)) neg_inf_word

theorem i43 (p : Fin 80000) (j : Fin 40) : idx_main_call3_v3 (idx_main_call3_v4 (ix2 p j)) = ix1 p :=
  funext fun a => Fin.ext (by match a with | ⟨0, _⟩ => rfl)
theorem i810 (p : Fin 80000) (j : Fin 40) : idx_main_call3_v8 (idx_main_call3_v10 (ix2 p j)) = ix1 p :=
  funext fun a => Fin.ext (by match a with | ⟨0, _⟩ => rfl)
theorem i7 (p : Fin 80000) (k : Fin 40) : idx_main_call3_v7 (ix1 p) k = ix2 p k :=
  funext fun a => Fin.ext (by match a with | ⟨0, _⟩ => rfl | ⟨1, _⟩ => rfl)

/-- A logit minus the row's shift. -/
theorem shift_apply (p : Fin 80000) (j : Fin 40) :
    val_main_call3_v5 (F := Ideal) x0 x1 x2 x3 x4 x5 x6 x7 x8 x9 x10 x11 x12 x13 (ix2 p j) = (val_main_v88 (F := Ideal) x0 x1 x2 x3 x4 x5 x6 x7 x8 x9 x10 x11 x12 x13) (ix2 p j) - max ⊥ (Cert.Spec.rowMax (val_main_v88 (F := Ideal) x0 x1 x2 x3 x4 x5 x6 x7 x8 x9 x10 x11 x12 x13) p) := by
  rw [val_main_call3_v5_apply, val_main_call3_v4_apply, val_main_call3_v3_apply, i43, m2_apply, Ideal.subf_def]

/-- The log-softmax entry. -/
theorem logp_apply (p : Fin 80000) (j : Fin 40) :
    val_main_v89 (F := Ideal) x0 x1 x2 x3 x4 x5 x6 x7 x8 x9 x10 x11 x12 x13 (ix2 p j) = Cert.Spec.logp (val_main_v88 (F := Ideal) x0 x1 x2 x3 x4 x5 x6 x7 x8 x9 x10 x11 x12 x13) p j := by
  unfold Cert.Spec.logp
  rw [val_main_v89_apply, shift_apply, val_main_call3_v10_apply, val_main_call3_v9_apply, val_main_call3_v8_apply, i810,
    val_main_call3_v7_apply, val_main_call3_cst_1_apply, Ideal.subf_def, Ideal.hostUnary_log_def, Ideal.ofBits_def,
    Ideal.ofBits_zero_f32, zero_add]
  have hs : (∑ k : Fin 40, val_main_call3_v6 (F := Ideal) x0 x1 x2 x3 x4 x5 x6 x7 x8 x9 x10 x11 x12 x13 (idx_main_call3_v7 (ix1 p) k))
      = ∑ j' : Fin 40, Ideal.exp ((val_main_v88 (F := Ideal) x0 x1 x2 x3 x4 x5 x6 x7 x8 x9 x10 x11 x12 x13) (ix2 p j') - max ⊥ (Cert.Spec.rowMax (val_main_v88 (F := Ideal) x0 x1 x2 x3 x4 x5 x6 x7 x8 x9 x10 x11 x12 x13) p)) :=
    Finset.sum_congr rfl fun k _ => by rw [i7, val_main_call3_v6_apply, shift_apply, Ideal.hostUnary_exp_def]
  rw [hs]

/-! ## The label's entry -/

theorem i92 (p : Fin 80000) : idx_main_v92 (ix1 p) = ix2 p (0 : Fin 1) :=
  funext fun a => Fin.ext (by match a with | ⟨0, _⟩ => exact Nat.div_one _ | ⟨1, _⟩ => rfl)
theorem i5 (p : Fin 80000) : idx_main_call4_v5 (ix3 p (0 : Fin 1) (0 : Fin 1)) = ix2 p (0 : Fin 1) :=
  funext fun a => Fin.ext (by
    match a with
    | ⟨0, _⟩ => show ((p.val * 1 + 0) * 1 + 0) / 1 = p.val; omega
    | ⟨1, _⟩ => rfl)
theorem i90 (p : Fin 80000) : idx_main_v90 (ix2 p (0 : Fin 1)) = ix1 p :=
  funext fun a => Fin.ext (by match a with | ⟨0, _⟩ => rfl)

/-- The start index of row p is the row's label. -/
theorem start_apply (p : Fin 80000) (hy : (x14 (ix1 p)).toNat < 40) :
    val_main_call4_v5 (F := Ideal) x14 (ix3 p (0 : Fin 1) (0 : Fin 1)) = x14 (ix1 p) := by
  rw [val_main_call4_v5_apply, i5, val_main_call4_v4_apply, val_main_call4_v1_apply, val_main_call4_v3_apply,
    val_main_v90_apply, i90, val_main_call4_v0_apply, val_main_call4_c_apply, val_main_call4_v2_apply,
    val_main_call4_c_0_apply]
  exact wrap_small hy

/-- The range test holds at every row. -/
theorem inrange_apply (p : Fin 80000) (hy : (x14 (ix1 p)).toNat < 40) :
    val_main_call4_v12 (F := Ideal) x14 (ix2 p (0 : Fin 1)) = 1#1 := by
  unfold val_main_call4_v12
  have h : S80000x1x1.Reduces [2] S80000x1 := by decide
  refine (hostReduce_and_last (val_main_call4_v11 (F := Ideal) x14) reducesTo_S80000x1x1_S80000x1_d2 h h_S_ p (0 : Fin 1)).trans ?_
  rw [val_main_call4_v11_apply, val_main_call4_v7_apply, val_main_call4_v10_apply, start_apply x14 p hy,
    val_main_call4_v6_apply, val_main_call4_c_2_apply, val_main_call4_v9_apply, val_main_call4_v8_apply,
    val_main_call4_c_1_apply]
  exact inrange_small hy

/-- The gathered entry of row p is the log-softmax entry at the label's column. -/
theorem take_apply [hK : Cert.KernelIdeal.Facts] (p : Fin 80000) (hy : (x14 (ix1 p)).toNat < 40) :
    val_main_call4_v13 (F := Ideal) x0 x1 x2 x3 x4 x5 x6 x7 x8 x9 x10 x11 x12 x13 x14 (ix2 p (0 : Fin 1))
      = val_main_v89 (F := Ideal) x0 x1 x2 x3 x4 x5 x6 x7 x8 x9 x10 x11 x12 x13 (ix2 p (Cert.Spec.lab (Cert.Spec.yOf x14) p)) := by
  unfold val_main_call4_v13
  refine (Cert.Proof.LibTakeAlong.gather_takeAlong_ix2 (N := 80000) (C := 40) (by decide)
    gather_S80000x40_S80000x1x1_S80000x1_n_1_0_0_1_2_11_wf (val_main_v89 (F := Ideal) x0 x1 x2 x3 x4 x5 x6 x7 x8 x9 x10 x11 x12 x13)
    (val_main_call4_v5 (F := Ideal) x14) p (0 : Fin 1)).trans ?_
  refine congrArg (fun q => val_main_v89 (F := Ideal) x0 x1 x2 x3 x4 x5 x6 x7 x8 x9 x10 x11 x12 x13 (ix2 p q)) (Fin.ext ?_)
  show min (val_main_call4_v5 (F := Ideal) x14 (ix3 p (0 : Fin 1) (0 : Fin 1))).toInt.toNat (40 - 1) = (x14 (ix1 p)).toNat % 40
  rw [start_apply x14 p hy]
  exact clamp_small hy

/-! ## The masked mean -/

/-- A row's masked loss. -/
theorem nll_apply [hK : Cert.KernelIdeal.Facts] (p : Fin 80000) (hy : (x14 (ix1 p)).toNat < 40) :
    val_main_v95 (F := Ideal) x0 x1 x2 x3 x4 x5 x6 x7 x8 x9 x10 x11 x12 x13 x14 x15 (ix1 p)
      = Cert.Spec.nllR (val_main_v88 (F := Ideal) x0 x1 x2 x3 x4 x5 x6 x7 x8 x9 x10 x11 x12 x13) (Cert.Spec.yOf x14) p * Cert.Spec.mOf x15 p := by
  rw [val_main_v95_apply, val_main_v93_apply, val_main_v92_apply, i92, val_main_v91_apply, inrange_apply x14 p hy,
    select_one, take_apply x0 x1 x2 x3 x4 x5 x6 x7 x8 x9 x10 x11 x12 x13 x14 p hy, logp_apply, val_main_v94_apply]
  rfl

end Stages

/-- The reference's result from the logits: the row-wise loss of the logits stage. -/
theorem loss_stage [hK : Cert.KernelIdeal.Facts] [hR : Cert.ReferenceIdeal.Facts]
    (x0 : (⟨S80000x64, .f32⟩ : BufTy).Contents (Elt Ideal))
    (x1 : (⟨S64x64, .f32⟩ : BufTy).Contents (Elt Ideal))
    (x2 : (⟨S64, .f32⟩ : BufTy).Contents (Elt Ideal))
    (x3 : (⟨S64x64, .f32⟩ : BufTy).Contents (Elt Ideal))
    (x4 : (⟨S64, .f32⟩ : BufTy).Contents (Elt Ideal))
    (x5 : (⟨S64x64, .f32⟩ : BufTy).Contents (Elt Ideal))
    (x6 : (⟨S64, .f32⟩ : BufTy).Contents (Elt Ideal))
    (x7 : (⟨S64x64, .f32⟩ : BufTy).Contents (Elt Ideal))
    (x8 : (⟨S64, .f32⟩ : BufTy).Contents (Elt Ideal))
    (x9 : (⟨S40x64, .f32⟩ : BufTy).Contents (Elt Ideal))
    (x10 : (⟨S40, .f32⟩ : BufTy).Contents (Elt Ideal))
    (x11 : (⟨S40x64, .f32⟩ : BufTy).Contents (Elt Ideal))
    (x12 : (⟨S40, .f32⟩ : BufTy).Contents (Elt Ideal))
    (x13 : (⟨S2x1280000, .i32⟩ : BufTy).Contents (Elt Ideal))
    (x14 : (⟨S80000, .i32⟩ : BufTy).Contents (Elt Ideal)) (x15 : (⟨S80000, .i1⟩ : BufTy).Contents (Elt Ideal))
    (hy : Cert.Spec.LabelsOk (Cert.Spec.yOf x14)) :
    Cert.ReferenceIdeal.ReadP.val_main_v99 (F := Ideal) x0 x1 x2 x3 x4 x5 x6 x7 x8 x9 x10 x11 x12 x13 x14 x15
      = fun _ => Cert.Spec.lossR (Cert.ReferenceIdeal.ReadP.val_main_v88 (F := Ideal) x0 x1 x2 x3 x4 x5 x6 x7 x8 x9 x10 x11 x12 x13)
          (Cert.Spec.yOf x14) (Cert.Spec.mOf x15) := by
  funext i
  unfold Cert.Spec.lossR
  rw [val_main_v99_apply, val_main_v96_apply, val_main_v98_apply, val_main_v97_apply, val_main_cst_13_apply,
    val_main_cst_14_apply, val_main_cst_15_apply, sum_idx1, sum_idx1, Ideal.hostDivf_def, Ideal.maximumf_def, Ideal.ofBits_def,
    Ideal.ofBits_def, Ideal.ofBits_zero_f32, Ideal.ofBits_one_f32]
  exact congrArg₂ Ideal.div
    (congrArg (fun s => (0 : EReal) + s) (Finset.sum_congr rfl fun p _ => nll_apply x0 x1 x2 x3 x4 x5 x6 x7 x8 x9 x10 x11 x12 x13 x14 x15 p (hy p)))
    (congrArg (fun s => max ((0 : EReal) + s) 1) (Finset.sum_congr rfl fun p _ => rfl))

end Cert.ReferenceIdeal.Hand

end
-- ==== Proof.RValue.lean ====
/-
  The reference's run read as the specification.

  Every weakly fair execution of the reference ends with its result buffer at the row-wise loss of the specification's
  logits — the three layers over the host's aggregation and reciprocal-degree column, the labels and the mask read by
  row — and with its sixteen arguments unchanged, provided every label is one of the 40 classes.
-/
import proofs.«400073_j76287209112086_3_alg».proof.Proof.RefRead
import proofs.«400073_j76287209112086_3_alg».proof.Proof.RLayers
import proofs.«400073_j76287209112086_3_alg».proof.Proof.RLoss
import proofs.«400073_j76287209112086_3_alg».proof.Proof.Spec

noncomputable section

namespace Cert.Hand

open Idealize.ShloMosaic Idealize.ShloMosaic.TcCoe Idealize.SL.Sem Idealize.ShloMosaic.StableHlo

theorem ref_value [hK : Cert.KernelIdeal.Facts] [hR : Cert.ReferenceIdeal.Facts]
    (m' : (ℓ : Loc Cert.ReferenceIdeal.nD Cert.ReferenceIdeal.τ Cert.ReferenceIdeal.sig) → Buf (Elt Ideal) ℓ) (ρ' : Dev Cert.ReferenceIdeal.nD → PrngReg)
    (hy : ∀ c : Dev Cert.ReferenceIdeal.nD, Cert.Spec.LabelsOk (Cert.Spec.yOf (m' ((c.tc : Thread Cert.ReferenceIdeal.nD Cert.ReferenceIdeal.τ).loc Cert.ReferenceIdeal.main_arg14)))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v99)
        = (fun _ => Cert.Spec.lossR (Cert.Spec.Z (Cert.Spec.AG (m' ((c.tc : Thread Cert.ReferenceIdeal.nD Cert.ReferenceIdeal.τ).loc Cert.ReferenceIdeal.main_arg13))) (Cert.Spec.DG (m' ((c.tc : Thread Cert.ReferenceIdeal.nD Cert.ReferenceIdeal.τ).loc Cert.ReferenceIdeal.main_arg13)))
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            (m' ((c.tc : Thread Cert.ReferenceIdeal.nD Cert.ReferenceIdeal.τ).loc Cert.ReferenceIdeal.main_arg8))
            (m' ((c.tc : Thread Cert.ReferenceIdeal.nD Cert.ReferenceIdeal.τ).loc Cert.ReferenceIdeal.main_arg9))
            (m' ((c.tc : Thread Cert.ReferenceIdeal.nD Cert.ReferenceIdeal.τ).loc Cert.ReferenceIdeal.main_arg10))
            (m' ((c.tc : Thread Cert.ReferenceIdeal.nD Cert.ReferenceIdeal.τ).loc Cert.ReferenceIdeal.main_arg11))
            (m' ((c.tc : Thread Cert.ReferenceIdeal.nD Cert.ReferenceIdeal.τ).loc Cert.ReferenceIdeal.main_arg12)))
          (Cert.Spec.yOf (m' ((c.tc : Thread Cert.ReferenceIdeal.nD Cert.ReferenceIdeal.τ).loc Cert.ReferenceIdeal.main_arg14))) (Cert.Spec.mOf (m' ((c.tc : Thread Cert.ReferenceIdeal.nD Cert.ReferenceIdeal.τ).loc Cert.ReferenceIdeal.main_arg15))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run (Cert.ReferenceIdeal.defs (F := Ideal)) _ _).mono
    (fun _ h c => ⟨(h c).1.trans ((Cert.ReferenceIdeal.ReadP.val_main_v99_eq m' c).trans
        ((Cert.ReferenceIdeal.Hand.loss_stage (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (hy c)).trans
          (congrArg (fun z => fun _ : Cert.ReferenceIdeal.S_.Idx => Cert.Spec.lossR z (Cert.Spec.yOf (m' ((c.tc : Thread Cert.ReferenceIdeal.nD Cert.ReferenceIdeal.τ).loc Cert.ReferenceIdeal.main_arg14))) (Cert.Spec.mOf (m' ((c.tc : Thread Cert.ReferenceIdeal.nD Cert.ReferenceIdeal.τ).loc Cert.ReferenceIdeal.main_arg15))))
            (Cert.ReferenceIdeal.Hand.logits_stage (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)))))), (h c).2⟩)
    (Cert.ReferenceIdeal.ValueP.run m' ρ')

end Cert.Hand

end
-- ==== Proof.Math.lean ====
/-
  Two facts about the specification, both pure mathematics on the extended reals.

  `Z_fin`: a stack fed real numbers yields real logits.  A finite sum of products of real numbers is a real number,
  and so is max(·, 0) of one; the aggregation enters only through the hypothesis that it keeps real arrays real.

  `lossK_eq_lossR`: the tile-wise and the row-wise spellings of the loss are the same extended real when every logit
  is a real number and every label is one of the 40 classes.  Row by row: the row maximum m is a real number, each
  exp(zⱼ − m) is a positive real, so their sum s is a positive real and its logarithm is the real logarithm; the
  one-hot sum Σⱼ zⱼ·hotⱼ is the label's logit z_l; then (m + log s) − z_l and −((z_l − m) − log s) are one real number.
  The totals: a running total from zero over 40 tiles is 0 + the sum over the tiles, and the 40 tiles of 2000 rows
  enumerate the 80000 rows once each through (t, r) ↦ 2000·t + r.  The mask enters both sides in the same places,
  so nothing is assumed about it.
-/
import proofs.«400073_j76287209112086_3_alg».proof.Proof.Spec
import Mathlib.Data.EReal.Basic
import Mathlib.Data.EReal.Operations
import Mathlib.Analysis.SpecialFunctions.Log.Basic
import Mathlib.Algebra.BigOperators.Fin
import Mathlib.Data.Fintype.BigOperators
import Mathlib.Logic.Equiv.Fin.Basic

noncomputable section

namespace Cert.Spec

open Idealize.ShloMosaic Idealize.ShloMosaic.ValueIdx
open Cert.KernelIdeal

variable [Cert.KernelIdeal.Facts]
open Cert.KernelIdeal.Facts₀ Cert.KernelIdeal.Facts

/- The auxiliary lemmas live in a namespace of their own; the two theorems of the interface follow it. -/
namespace Math

/-! ## Real numbers inside the extended reals -/

/-- A finite sum of real numbers, read in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The larger of two real numbers is a real number. -/
theorem real_max {x y : EReal} (hx : ∃ r : ℝ, x = (r : EReal)) (hy : ∃ r : ℝ, y = (r : EReal)) :
    ∃ r : ℝ, max x y = (r : EReal) := by
  rcases le_total x y with h | h
  · rw [max_eq_right h]; exact hy
  · rw [max_eq_left h]; exact hx

theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [← coe_sum]; exact Finset.sum_congr rfl (fun i _ => hg i)⟩

/-! ## The stack keeps real arrays real -/

theorem lin_real {C : Nat} (a h : FVec Ideal S80000x64 .f32) (d : FVec Ideal S80000 .f32)
    (Wl Wr : FVec Ideal ⟨2, ![C, 64]⟩ .f32) (bl br : FVec Ideal ⟨1, ![C]⟩ .f32)
    (ha : IsFin a) (hh : IsFin h) (hd : IsFin d) (hWl : IsFin Wl) (hWr : IsFin Wr) (hbl : IsFin bl) (hbr : IsFin br)
    (p : Fin 80000) (q : Fin C) : ∃ r : ℝ, lin a h d Wl Wr bl br p q = (r : EReal) := by
  unfold lin
  exact real_add (real_add (real_add (real_sum _ _ fun k => real_mul (real_mul (ha _) (hd _)) (hWl _)) (hbl _))
    (real_sum _ _ fun k => real_mul (hh _) (hWr _))) (hbr _)

theorem hid_fin (a h : FVec Ideal S80000x64 .f32) (d : FVec Ideal S80000 .f32)
    (Wl Wr : FVec Ideal S64x64 .f32) (bl br : FVec Ideal S64 .f32)
    (ha : IsFin a) (hh : IsFin h) (hd : IsFin d) (hWl : IsFin Wl) (hWr : IsFin Wr) (hbl : IsFin bl) (hbr : IsFin br) :
    IsFin (hid a h d Wl Wr bl br) :=
  fun i => real_max (lin_real a h d Wl Wr bl br ha hh hd hWl hWr hbl hbr (i 0) (i 1)) ⟨0, EReal.coe_zero.symm⟩

theorem logit_fin (a h : FVec Ideal S80000x64 .f32) (d : FVec Ideal S80000 .f32)
    (Wl Wr : FVec Ideal S40x64 .f32) (bl br : FVec Ideal S40 .f32)
    (ha : IsFin a) (hh : IsFin h) (hd : IsFin d) (hWl : IsFin Wl) (hWr : IsFin Wr) (hbl : IsFin bl) (hbr : IsFin br) :
    IsFin (logit a h d Wl Wr bl br) :=
  fun i => lin_real a h d Wl Wr bl br ha hh hd hWl hWr hbl hbr (i 0) (i 1)

/-! ## One row -/

/-- The fold of max from −∞ over a nonempty family of real numbers is a real number. -/
theorem fold_max_real {ι : Type} [DecidableEq ι] (g : ι → EReal) (hg : ∀ i, ∃ r : ℝ, g i = (r : EReal))
    (s : Finset ι) (hs : s.Nonempty) : ∃ r : ℝ, s.fold max ⊥ g = (r : EReal) := by
  induction s using Finset.induction_on with
  | empty => exact absurd hs Finset.not_nonempty_empty
  | insert a s ha ih =>
    rw [Finset.fold_insert ha]
    rcases s.eq_empty_or_nonempty with rfl | hne
    · rw [Finset.fold_empty, max_bot_right]; exact hg a
    · exact real_max (hg a) (ih hne)

theorem rowMax_real (z : FVec Ideal S80000x40 .f32) (hz : IsFin z) (p : Fin 80000) :
    ∃ m : ℝ, rowMax z p = (m : EReal) :=
  fold_max_real _ (fun j => hz (ix2 p j)) _ Finset.univ_nonempty

/-- When every label is one of the 40 classes, the one-hot weight is 1 at the label's column. -/
theorem hot_lab (yv : Fin 80000 → BitVec 32) (hy : LabelsOk yv) (p : Fin 80000) : hot yv p (lab yv p) = 1 := by
  have hlt : (yv p).toNat < 40 := hy p
  unfold hot
  rw [if_pos]
  apply BitVec.eq_of_toNat_eq
  rw [BitVec.toNat_ofNat]
  show (yv p).toNat % 40 % 2 ^ 32 = (yv p).toNat
  omega

/-- ... and 0 at every other column. -/
theorem hot_ne (yv : Fin 80000 → BitVec 32) (hy : LabelsOk yv) (p : Fin 80000) (j : Fin 40) (hj : j ≠ lab yv p) :
    hot yv p j = 0 := by
  have hlt : (yv p).toNat < 40 := hy p
  unfold hot
  rw [if_neg]
  intro h
  apply hj
  apply Fin.ext
  have h' := congrArg BitVec.toNat h
  rw [BitVec.toNat_ofNat] at h'
  show j.val = (yv p).toNat % 40
  have := j.isLt
  omega

/-- The one-hot sum picks the label's logit (x · 0 = 0 and x · 1 = x for every extended real). -/
theorem hot_sum (z : FVec Ideal S80000x40 .f32) (yv : Fin 80000 → BitVec 32) (hy : LabelsOk yv) (p : Fin 80000) :
    ∑ j : Fin 40, z (ix2 p j) * hot yv p j = z (ix2 p (lab yv p)) := by
  rw [Finset.sum_eq_single (lab yv p)]
  · rw [hot_lab yv hy p, mul_one]
  · intro j _ hj; rw [hot_ne yv hy p j hj, mul_zero]
  · intro h; exact absurd (Finset.mem_univ _) h

/-- The two spellings of a row's loss are the same real number. -/
theorem nllK_eq_nllR (z : FVec Ideal S80000x40 .f32) (hz : IsFin z) (yv : Fin 80000 → BitVec 32) (hy : LabelsOk yv)
    (p : Fin 80000) : nllK z yv p = nllR z yv p := by
  obtain ⟨m, hm⟩ := rowMax_real z hz p
  choose f hf using fun j : Fin 40 => hz (ix2 p j)
  have hsum : ∑ j : Fin 40, Ideal.exp (z (ix2 p j) - rowMax z p)
      = ((∑ j : Fin 40, Real.exp (f j - m) : ℝ) : EReal) := by
    rw [← coe_sum]
    refine Finset.sum_congr rfl fun j _ => ?_
    rw [hf j, hm, ← EReal.coe_sub, Ideal.exp_coe]
  have hpos : 0 < ∑ j : Fin 40, Real.exp (f j - m) :=
    Finset.sum_pos (fun j _ => Real.exp_pos _) Finset.univ_nonempty
  have hlog : Ideal.log (∑ j : Fin 40, Ideal.exp (z (ix2 p j) - rowMax z p))
      = ((Real.log (∑ j : Fin 40, Real.exp (f j - m)) : ℝ) : EReal) := by
    rw [hsum, Ideal.log_coe, if_neg (not_le.2 hpos)]
  unfold nllK nllR logp
  rw [max_bot_left, hlog, hot_sum z yv hy p, hm, hf (lab yv p)]
  rw [← EReal.coe_add, ← EReal.coe_sub, ← EReal.coe_sub, ← EReal.coe_sub, ← EReal.coe_neg]
  congr 1
  ring

/-! ## The totals -/

/-- A running total started at zero is zero plus the sum. -/
theorem accN_eq (f : ℕ → EReal) (n : ℕ) : accN f n = 0 + ∑ t ∈ Finset.range (n + 1), f t := by
  induction n with
  | zero => simp [accN]
  | succ n ih => rw [accN, ih, Finset.sum_range_succ _ (n + 1), add_assoc]

/-- The 40 tiles of 2000 rows enumerate the 80000 rows once each. -/
theorem sum_tiles (g : Fin 80000 → EReal) :
    ∑ t ∈ Finset.range 40, ∑ r : Fin 2000, g (rowOf t r) = ∑ p : Fin 80000, g p := by
  rw [Finset.sum_range (fun t => ∑ r : Fin 2000, g (rowOf t r))]
  rw [← Fintype.sum_prod_type' (fun (t : Fin 40) (r : Fin 2000) => g (rowOf t.val r))]
  refine Fintype.sum_equiv (finProdFinEquiv : Fin 40 × Fin 2000 ≃ Fin 80000) _ _ (fun x => ?_)
  congr 1
  apply Fin.ext
  have h1 := x.1.isLt
  have h2 := x.2.isLt
  show (2000 * x.1.val + x.2.val) % 80000 = x.2.val + 2000 * x.1.val
  omega

end Math

open Math

/-! ## The interface -/

/-- Real inputs and weights, and an aggregation that keeps real arrays real, give real logits. -/
theorem Z_fin (A : FVec Ideal S80000x64 .f32 → FVec Ideal S80000x64 .f32) (hA : ∀ h, IsFin h → IsFin (A h))
    (d : FVec Ideal S80000 .f32) (hd : IsFin d)
    (x : FVec Ideal S80000x64 .f32) (hx : IsFin x)
    (Wl0 : FVec Ideal S64x64 .f32) (hWl0 : IsFin Wl0) (bl0 : FVec Ideal S64 .f32) (hbl0 : IsFin bl0)
    (Wr0 : FVec Ideal S64x64 .f32) (hWr0 : IsFin Wr0) (br0 : FVec Ideal S64 .f32) (hbr0 : IsFin br0)
    (Wl1 : FVec Ideal S64x64 .f32) (hWl1 : IsFin Wl1) (bl1 : FVec Ideal S64 .f32) (hbl1 : IsFin bl1)
    (Wr1 : FVec Ideal S64x64 .f32) (hWr1 : IsFin Wr1) (br1 : FVec Ideal S64 .f32) (hbr1 : IsFin br1)
    (Wl2 : FVec Ideal S40x64 .f32) (hWl2 : IsFin Wl2) (bl2 : FVec Ideal S40 .f32) (hbl2 : IsFin bl2)
    (Wr2 : FVec Ideal S40x64 .f32) (hWr2 : IsFin Wr2) (br2 : FVec Ideal S40 .f32) (hbr2 : IsFin br2) :
    IsFin (Z A d x Wl0 bl0 Wr0 br0 Wl1 bl1 Wr1 br1 Wl2 bl2 Wr2 br2) := by
  have h1 : IsFin (H1 A d x Wl0 bl0 Wr0 br0) :=
    hid_fin _ _ _ _ _ _ _ (hA x hx) hx hd hWl0 hWr0 hbl0 hbr0
  have h2 : IsFin (H2 A d x Wl0 bl0 Wr0 br0 Wl1 bl1 Wr1 br1) :=
    hid_fin _ _ _ _ _ _ _ (hA _ h1) h1 hd hWl1 hWr1 hbl1 hbr1
  exact logit_fin _ _ _ _ _ _ _ (hA _ h2) h2 hd hWl2 hWr2 hbl2 hbr2

/-- The tile-wise and the row-wise loss are the same extended real. -/
theorem lossK_eq_lossR (z : FVec Ideal S80000x40 .f32) (hz : IsFin z) (yv : Fin 80000 → BitVec 32) (hy : LabelsOk yv)
    (mv : Fin 80000 → EReal) : lossK z yv mv = lossR z yv mv := by
  have hN : ∑ t ∈ Finset.range (39 + 1), tileNll z yv mv t = ∑ p : Fin 80000, nllR z yv p * mv p := by
    refine (sum_tiles (fun p => nllK z yv p * mv p)).trans ?_
    exact Finset.sum_congr rfl fun p _ => by rw [nllK_eq_nllR z hz yv hy p]
  have hM : ∑ t ∈ Finset.range (39 + 1), tileMask mv t = ∑ p : Fin 80000, mv p := sum_tiles mv
  unfold lossK lossR
  rw [accN_eq, accN_eq, hN, hM]

end Cert.Spec

end
-- ==== Proof.HostFin.lean ====
/-
  Every entry of the aggregation and of the degree column is a real number.

  The aggregation gathers rows of a real array and adds them into a zero array: a gathered entry is an entry of the
  gathered array, and an accumulating scatter's entry is an operand entry plus a finite sum of update entries, so a
  real operand and real updates give real entries (a finite sum of reals is a real).  The in-degree is such a scatter of
  ones into zeros, hence real; the degree column is, entry by entry, either 1 / max(degree, 1) (a real divided by a real
  that is at least 1) or 0.
-/
import proofs.«400073_j76287209112086_3_alg».proof.Proof.Spec
import Idealize.ShloMosaic.Lib.IdealHost
import Mathlib.Data.EReal.Basic
import Mathlib.Algebra.BigOperators.Group.Finset.Basic

noncomputable section

namespace Cert.Spec

open Idealize.ShloMosaic Idealize.ShloMosaic.ValueIdx
open Cert.KernelIdeal

variable [Cert.KernelIdeal.Facts]
open Cert.KernelIdeal.Facts₀ Cert.KernelIdeal.Facts

/-- The sum of two reals is a real. -/
theorem add_real {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- A finite sum of reals is a real. -/
theorem sum_real {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    rw [Finset.sum_insert ha]
    exact add_real (hf a (Finset.mem_insert_self a s)) (ih fun j hj => hf j (Finset.mem_insert_of_mem hj))

/-- A gather of a real array is real, whatever the indices: each entry is an entry of the array. -/
theorem gather_fin {s si t : Shape} {w : Nat} (d : GatherDims s si t) (x : FVec Ideal s .f32) (idx : IVec si w)
    (hx : IsFin x) : IsFin (Host.gather d x idx) :=
  fun j => hx (d.operandIdx j idx)

/-- An accumulating scatter of real updates into a real operand is real: each entry is an operand entry plus a finite
    sum of update entries. -/
theorem scatterAdd_fin {s si su : Shape} {w : Nat} (d : ScatterDims s si su) (x : FVec Ideal s .f32) (idx : IVec si w)
    (upd : FVec Ideal su .f32) (hx : IsFin x) (hu : IsFin upd) : IsFin (Host.scatterAdd d x idx upd) := by
  intro i
  show ∃ r : ℝ, Ideal.hostScatterAdd d x idx upd i = (r : EReal)
  unfold Ideal.hostScatterAdd
  exact add_real (hx i) (sum_real _ _ fun j _ => hu j)

/-- The constant zero array is real. -/
theorem zeros_fin {T : Shape} (hb : S_.BroadcastsInDim T ![]) :
    IsFin (broadcastInDim T ![] hb (constant (F := Ideal) S_ .f32 0x00000000#32)) :=
  fun _ => ⟨0, Ideal.ofBits_zero_f32⟩

/-- The constant one array is real. -/
theorem ones_fin {T : Shape} (hb : S_.BroadcastsInDim T ![]) :
    IsFin (broadcastInDim T ![] hb (constant (F := Ideal) S_ .f32 0x3F800000#32)) :=
  fun _ => ⟨1, Ideal.ofBits_one_f32⟩

/-- The aggregation of a real array is real. -/
theorem AG_fin (e : IVec S2x1280000 32) (h : FVec Ideal S80000x64 .f32) (hh : IsFin h) : IsFin (AG e h) :=
  scatterAdd_fin _ _ _ _ (zeros_fin _) (gather_fin _ _ _ hh)

/-- Every in-degree is real. -/
theorem deg_fin (e : IVec S2x1280000 32) : IsFin (deg e) :=
  scatterAdd_fin _ _ _ _ (zeros_fin _) (ones_fin _)

/-- One over the larger of a real and one is a real. -/
theorem div_one_max_real (r : ℝ) : ∃ r' : ℝ, Ideal.div 1 (max (r : EReal) 1) = (r' : EReal) := by
  have hm : max (r : EReal) 1 = ((max r 1 : ℝ) : EReal) := by
    rw [← EReal.coe_one]; exact (EReal.coe_strictMono.monotone.map_max).symm
  have h0 : max r 1 ≠ 0 := ne_of_gt (lt_of_lt_of_le one_pos (le_max_right r 1))
  rw [hm, Ideal.div_coe h0, one_mul]
  exact ⟨_, rfl⟩

/-- The degree column is real: at each node either one over max(degree, 1) or zero. -/
theorem DG_fin (e : IVec S2x1280000 32) : IsFin (DG e) := by
  intro i
  obtain ⟨r, hr⟩ := deg_fin e i
  unfold DG
  rw [select_apply]
  unfold Scalar.select
  split
  · rw [hostDivf_apply, maximumf_apply, hr]
    show ∃ r' : ℝ, Ideal.div (Ideal.ofBits .f32 0x3F800000#32) (max (r : EReal) (Ideal.ofBits .f32 0x3F800000#32)) = (r' : EReal)
    rw [Ideal.ofBits_one_f32]
    exact div_one_max_real r
  · exact zeros_fin _ i

end Cert.Spec

end
-- ==== Proof.PreDecode.lean ====
/-
  What the precondition says, decoded.

  The precondition is a conjunction of fourteen "all" statements, each an and-reduction of an array of truth values that
  came out 1: for each of the thirteen float arrays x, |x| < +∞ at every entry; for the label array y, 0 ≤ y and y < 40
  (signed) at every entry.  On the extended reals |x| = max(x, −x), and max(x, −x) < +∞ leaves only the real numbers;
  a 32-bit word that is ≥ 0 and < 40 signed has an unsigned value below 40.
-/
import proofs.«400073_j76287209112086_3_alg».proof.Defs
import proofs.«400073_j76287209112086_3_alg».proof.Proof.Spec
import proofs.«400073_j76287209112086_3_alg».proof.Proof.Gen.Pre_finite_inputs
import Idealize.ShloMosaic.Lib.ReduceAll
import Idealize.ShloMosaic.Lib.StableHlo.Predicate
import Idealize.ShloMosaic.Lib.ValueIdx

noncomputable section

namespace Cert.Hand

open Idealize.ShloMosaic Idealize.ShloMosaic.ValueIdx Idealize.SL.Sem

/-- The scalar shape has one index. -/
instance subsingleton_scalar_idx : Subsingleton (⟨0, ![]⟩ : Shape).Idx := ⟨fun a b => funext fun d => d.elim0⟩

/-- An extended real with max(x, −x) < +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The pattern 0x7F800000 denotes +∞. -/
theorem inf_bits : Ideal.ofBits .f32 0x7F800000#32 = ⊤ := by simp [Ideal.ofBits, Ideal.ieee]

/-- A conjunction of two truth values that is 1 at the one scalar index: both are. -/
theorem and_ix0 {a b : IVec ⟨0, ![]⟩ 1} (h : andi a b ix0 = 1#1) : a ix0 = 1#1 ∧ b ix0 = 1#1 := IntOp.andi_eq_one.1 h

/-- ONE FLOAT CONJUNCT, at any shape: if "|x| < +∞ everywhere" came out 1, every entry of x is a real number. -/
theorem isFin_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr h0 ix0 = 1#1) :
    Cert.Spec.IsFin x := by
  intro i
  have hi := Host.reduce_andi_all _ _ hr h0 ix0 e i
  have hi' : Ideal.cmp .olt (max (x i : EReal) (-(x i : EReal))) (Ideal.ofBits .f32 0x7F800000#32) = 1#1 := hi
  rw [inf_bits] at hi'
  unfold Ideal.cmp at hi'
  rw [StableHlo.Predicate.ofBool_eq_one_iff] at hi'
  exact real_of_abs_lt_top (x i) (of_decide_eq_true hi')

/-- A 32-bit word that is ≥ 0 and < 40, both signed, has an unsigned value below 40. -/
theorem toNat_lt_forty (w : BitVec 32) (h0 : IntOp.cmpi .sge w 0#32 = 1#1) (h1 : IntOp.cmpi .slt w 40#32 = 1#1) :
    w.toNat < 40 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- THE LABEL CONJUNCT: if "0 ≤ y and y < 40 everywhere" came out 1, every label is one of the 40 classes. -/
theorem labelsOk_of_all {axes : List (Fin Cert.KernelIdeal.S80000.rank)} (y : IVec Cert.KernelIdeal.S80000 32)
    (hb : (⟨0, ![]⟩ : Shape).BroadcastsInDim Cert.KernelIdeal.S80000 (![] : Fin 0 → Fin Cert.KernelIdeal.S80000.rank))
    (hr : Cert.KernelIdeal.S80000.ReducesTo axes ⟨0, ![]⟩) (h0 : 0 < (⟨0, ![]⟩ : Shape).numel)
    (e : Host.reduce IntOp.andi
          (andi (cmpi .sge y (broadcastInDim Cert.KernelIdeal.S80000 ![] hb (constantI ⟨0, ![]⟩ 32 0#32)))
                (cmpi .slt y (broadcastInDim Cert.KernelIdeal.S80000 ![] hb (constantI ⟨0, ![]⟩ 32 40#32))))
          (constantI ⟨0, ![]⟩ 1 1#1) hr h0 ix0 = 1#1) :
    Cert.Spec.LabelsOk (Cert.Spec.yOf y) := by
  intro p
  have hi := Host.reduce_andi_all _ _ hr h0 ix0 e (ix1 p)
  obtain ⟨ha, hb'⟩ := IntOp.andi_eq_one.1 hi
  exact toNat_lt_forty (y (ix1 p)) ha hb'

/-- THE PRECONDITION DECODED: every float input is real at every entry, and every label is one of the 40 classes. -/
theorem pre_decode [hK : Cert.KernelIdeal.Facts] [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.IsFin (m ((c.tc : Thread _ _).loc Cert.KernelIdeal.main_arg0))
        ∧ Cert.Spec.IsFin (m ((c.tc : Thread _ _).loc Cert.KernelIdeal.main_arg1))
        ∧ Cert.Spec.IsFin (m ((c.tc : Thread _ _).loc Cert.KernelIdeal.main_arg2))
        ∧ Cert.Spec.IsFin (m ((c.tc : Thread _ _).loc Cert.KernelIdeal.main_arg3))
        ∧ Cert.Spec.IsFin (m ((c.tc : Thread _ _).loc Cert.KernelIdeal.main_arg4))
        ∧ Cert.Spec.IsFin (m ((c.tc : Thread _ _).loc Cert.KernelIdeal.main_arg5))
        ∧ Cert.Spec.IsFin (m ((c.tc : Thread _ _).loc Cert.KernelIdeal.main_arg6))
        ∧ Cert.Spec.IsFin (m ((c.tc : Thread _ _).loc Cert.KernelIdeal.main_arg7))
        ∧ Cert.Spec.IsFin (m ((c.tc : Thread _ _).loc Cert.KernelIdeal.main_arg8))
        ∧ Cert.Spec.IsFin (m ((c.tc : Thread _ _).loc Cert.KernelIdeal.main_arg9))
        ∧ Cert.Spec.IsFin (m ((c.tc : Thread _ _).loc Cert.KernelIdeal.main_arg10))
        ∧ Cert.Spec.IsFin (m ((c.tc : Thread _ _).loc Cert.KernelIdeal.main_arg11))
        ∧ Cert.Spec.IsFin (m ((c.tc : Thread _ _).loc Cert.KernelIdeal.main_arg12))
        ∧ Cert.Spec.LabelsOk (Cert.Spec.yOf (m ((c.tc : Thread _ _).loc Cert.KernelIdeal.main_arg14))) := by
  have e := congrFun (h c) ix0
  dsimp only [Cert.Pre_finite_inputs.fn] at e
  dsimp only [Cert.Pre_finite_inputs.fn_part1] at e
  dsimp only [Cert.Pre_finite_inputs.fn_part2] at e
  dsimp only [Cert.Pre_finite_inputs.fn_part3] at e
  dsimp only [Cert.Pre_finite_inputs.fn_part4] at e
  obtain ⟨e, hL⟩ := and_ix0 e
  obtain ⟨e, h12⟩ := and_ix0 e
  obtain ⟨e, h11⟩ := and_ix0 e
  obtain ⟨e, h10⟩ := and_ix0 e
  obtain ⟨e, h9⟩ := and_ix0 e
  obtain ⟨e, h8⟩ := and_ix0 e
  obtain ⟨e, h7⟩ := and_ix0 e
  obtain ⟨e, h6⟩ := and_ix0 e
  obtain ⟨e, h5⟩ := and_ix0 e
  obtain ⟨e, h4⟩ := and_ix0 e
  obtain ⟨e, h3⟩ := and_ix0 e
  obtain ⟨e, h2⟩ := and_ix0 e
  obtain ⟨h0, h1⟩ := and_ix0 e
  exact ⟨isFin_of_all _ _ _ _ h0, isFin_of_all _ _ _ _ h1, isFin_of_all _ _ _ _ h2, isFin_of_all _ _ _ _ h3,
    isFin_of_all _ _ _ _ h4, isFin_of_all _ _ _ _ h5, isFin_of_all _ _ _ _ h6, isFin_of_all _ _ _ _ h7,
    isFin_of_all _ _ _ _ h8, isFin_of_all _ _ _ _ h9, isFin_of_all _ _ _ _ h10, isFin_of_all _ _ _ _ h11,
    isFin_of_all _ _ _ _ h12, labelsOk_of_all _ _ _ _ hL⟩

end Cert.Hand

end
-- ==== Proof.lean ====
/-
  The certificate's claim.  Both programs compute a three-layer GraphSAGE network's masked mean negative
  log-likelihood.  The kernel program's run is read off its three kernel regions and the host operations around them: it
  ends with the loss in the tile-wise spelling (per tile of 2000 rows: row maximum plus the log of the summed exponentials,
  minus the label's logit picked by a one-hot product, times the mask; the tiles' sums accumulated one after the other).
  The reference's run ends with the loss in the row-wise spelling (minus the label's log-softmax entry, all rows summed at
  once).  For finite inputs every logit is a real number, and for labels within the 40 classes the two spellings are the
  same real number; the regrouping of the sums needs no more than commutativity and associativity.  The three frames:
  the kernel programs' from the same run (the argument arrays walk back through the boundary contents to the launch
  memory), the reference's from its run.  The idealization rewrote nothing, so that conjunct is trivial.
-/
import proofs.«400073_j76287209112086_3_alg».proof.Defs
import proofs.«400073_j76287209112086_3_alg».proof.Proof.Gen.Kernel
import proofs.«400073_j76287209112086_3_alg».proof.Proof.Gen.KernelIdeal
import proofs.«400073_j76287209112086_3_alg».proof.Proof.Gen.ReferenceIdeal
import proofs.«400073_j76287209112086_3_alg».proof.Proof.Gen.Pre_finite_inputs
import proofs.«400073_j76287209112086_3_alg».proof.Proof.KRun
import proofs.«400073_j76287209112086_3_alg».proof.Proof.KIRun
import proofs.«400073_j76287209112086_3_alg».proof.Proof.KValue
import proofs.«400073_j76287209112086_3_alg».proof.Proof.RValue
import proofs.«400073_j76287209112086_3_alg».proof.Proof.Math
import proofs.«400073_j76287209112086_3_alg».proof.Proof.HostFin
import proofs.«400073_j76287209112086_3_alg».proof.Proof.PreDecode

noncomputable section

namespace Cert.Proof

open Idealize.ShloMosaic Idealize.ShloMosaic.TcCoe Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The two programs end with the same loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun _ => Cert.Spec.lossK (Cert.Spec.Z (Cert.Spec.AG (m ((c.tc : Thread Cert.KernelIdeal.nD Cert.KernelIdeal.τ).loc Cert.KernelIdeal.main_arg13))) (Cert.Spec.DG (m ((c.tc : Thread Cert.KernelIdeal.nD Cert.KernelIdeal.τ).loc Cert.KernelIdeal.main_arg13))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (Cert.Spec.yOf (m ((c.tc : Thread Cert.KernelIdeal.nD Cert.KernelIdeal.τ).loc Cert.KernelIdeal.main_arg14))) (Cert.Spec.mOf (m ((c.tc : Thread Cert.KernelIdeal.nD Cert.KernelIdeal.τ).loc Cert.KernelIdeal.main_arg15)))), ?_, ?_⟩
  · exact (θ_run Cert.KernelIdeal.defs _ _).mono (fun _ h c =>
      ⟨(h c _ (Cert.KernelIdeal.Hand.mem_ucH Cert.KernelIdeal.main_v70 (by decide))).trans (Cert.KernelIdeal.Hand.kernel_value m ρ c),
       (h c _ (Cert.KernelIdeal.Hand.mem_ucH Cert.KernelIdeal.main_arg0 (by decide))).trans (Cert.KernelIdeal.Hand.W9_main_arg0 m ρ c),
       (h c _ (Cert.KernelIdeal.Hand.mem_ucH Cert.KernelIdeal.main_arg1 (by decide))).trans (Cert.KernelIdeal.Hand.W9_main_arg1 m ρ c),
       (h c _ (Cert.KernelIdeal.Hand.mem_ucH Cert.KernelIdeal.main_arg2 (by decide))).trans (Cert.KernelIdeal.Hand.W9_main_arg2 m ρ c),
       (h c _ (Cert.KernelIdeal.Hand.mem_ucH Cert.KernelIdeal.main_arg3 (by decide))).trans (Cert.KernelIdeal.Hand.W9_main_arg3 m ρ c),
       (h c _ (Cert.KernelIdeal.Hand.mem_ucH Cert.KernelIdeal.main_arg4 (by decide))).trans (Cert.KernelIdeal.Hand.W9_main_arg4 m ρ c),
       (h c _ (Cert.KernelIdeal.Hand.mem_ucH Cert.KernelIdeal.main_arg5 (by decide))).trans (Cert.KernelIdeal.Hand.W9_main_arg5 m ρ c),
       (h c _ (Cert.KernelIdeal.Hand.mem_ucH Cert.KernelIdeal.main_arg6 (by decide))).trans (Cert.KernelIdeal.Hand.W9_main_arg6 m ρ c),
       (h c _ (Cert.KernelIdeal.Hand.mem_ucH Cert.KernelIdeal.main_arg7 (by decide))).trans (Cert.KernelIdeal.Hand.W9_main_arg7 m ρ c),
       (h c _ (Cert.KernelIdeal.Hand.mem_ucH Cert.KernelIdeal.main_arg8 (by decide))).trans (Cert.KernelIdeal.Hand.W9_main_arg8 m ρ c),
       (h c _ (Cert.KernelIdeal.Hand.mem_ucH Cert.KernelIdeal.main_arg9 (by decide))).trans (Cert.KernelIdeal.Hand.W9_main_arg9 m ρ c),
       (h c _ (Cert.KernelIdeal.Hand.mem_ucH Cert.KernelIdeal.main_arg10 (by decide))).trans (Cert.KernelIdeal.Hand.W9_main_arg10 m ρ c),
       (h c _ (Cert.KernelIdeal.Hand.mem_ucH Cert.KernelIdeal.main_arg11 (by decide))).trans (Cert.KernelIdeal.Hand.W9_main_arg11 m ρ c),
       (h c _ (Cert.KernelIdeal.Hand.mem_ucH Cert.KernelIdeal.main_arg12 (by decide))).trans (Cert.KernelIdeal.Hand.W9_main_arg12 m ρ c),
       (h c _ (Cert.KernelIdeal.Hand.mem_ucH Cert.KernelIdeal.main_arg13 (by decide))).trans (Cert.KernelIdeal.Hand.W9_main_arg13 m ρ c),
       (h c _ (Cert.KernelIdeal.Hand.mem_ucH Cert.KernelIdeal.main_arg14 (by decide))).trans (Cert.KernelIdeal.Hand.W9_main_arg14 m ρ c),
       (h c _ (Cert.KernelIdeal.Hand.mem_ucH Cert.KernelIdeal.main_arg15 (by decide))).trans (Cert.KernelIdeal.Hand.W9_main_arg15 m ρ c)⟩)
      (Cert.KernelIdeal.Hand.run (F := Ideal) m ρ)
  · have hy' : ∀ c : Dev Cert.ReferenceIdeal.nD, Cert.Spec.LabelsOk (Cert.Spec.yOf (m' ((c.tc : Thread _ _).loc Cert.ReferenceIdeal.main_arg14))) := by
      intro c
      have hc := hagree c
      rw [hc.2.2.2.2.2.2.2.2.2.2.2.2.2.2.1]
      exact (Cert.Hand.pre_decode m hpre c).2.2.2.2.2.2.2.2.2.2.2.2.2
    refine (θ_run Cert.ReferenceIdeal.defs _ _).mono (fun _ h c => ⟨(h c).1.trans ?_, (h c).2⟩) (Cert.Hand.ref_value m' ρ' hy')
    have hc := hagree c
    obtain ⟨f0, f1, f2, f3, f4, f5, f6, f7, f8, f9, f10, f11, f12, hL⟩ := Cert.Hand.pre_decode m hpre c
    rw [hc.1, hc.2.1, hc.2.2.1, hc.2.2.2.1, hc.2.2.2.2.1, hc.2.2.2.2.2.1, hc.2.2.2.2.2.2.1, hc.2.2.2.2.2.2.2.1, hc.2.2.2.2.2.2.2.2.1,
      hc.2.2.2.2.2.2.2.2.2.1, hc.2.2.2.2.2.2.2.2.2.2.1, hc.2.2.2.2.2.2.2.2.2.2.2.1, hc.2.2.2.2.2.2.2.2.2.2.2.2.1,
      hc.2.2.2.2.2.2.2.2.2.2.2.2.2.1, hc.2.2.2.2.2.2.2.2.2.2.2.2.2.2.1, hc.2.2.2.2.2.2.2.2.2.2.2.2.2.2.2]
    exact funext fun _ => (Cert.Spec.lossK_eq_lossR _
      (Cert.Spec.Z_fin _ (fun h hh => Cert.Spec.AG_fin _ h hh) _ (Cert.Spec.DG_fin _) _ f0 _ f1 _ f2 _ f3 _ f4 _ f5 _ f6 _ f7 _ f8 _ f9 _ f10 _ f11 _ f12)
      _ hL _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
